-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S2048x3 : Shape := ⟨2, ![2048, 3]⟩
abbrev S64x3 : Shape := ⟨2, ![64, 3]⟩
abbrev S64 : Shape := ⟨1, ![64]⟩
abbrev S128x46 : Shape := ⟨2, ![128, 46]⟩
abbrev S46 : Shape := ⟨1, ![46]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S64x3 : S_.BroadcastsInDim S64x3 (![] : Fin 0 → Fin S64x3.rank)
  reducesTo_S64x3_S_d0_1 : S64x3.ReducesTo [0, 1] S_
  bcast_S_S128x46 : S_.BroadcastsInDim S128x46 (![] : Fin 0 → Fin S128x46.rank)
  reducesTo_S128x46_S_d0_1 : S128x46.ReducesTo [0, 1] S_
  bcast_S_S46 : S_.BroadcastsInDim S46 (![] : Fin 0 → Fin S46.rank)
  reducesTo_S46_S_d0 : S46.ReducesTo [0] S_

variable [Facts]

def fn_part1 {F : FTy → Type} [FloatOps F] (main_arg6 : FVec F S46 .f32) (main_v13 : IVec S_ 1) (main_v16 : IVec S128x46 1) : IVec S_ 1 :=
  let main_c_5 : IVec S_ 1 := constantI S_ 1 1#1
  let main_v17 : IVec S_ 1 := (fun x v => Host.reduce IntOp.andi x v reducesTo_S128x46_S_d0_1 h_S_) main_v16 main_c_5
  let main_v18 : IVec S_ 1 := andi main_v13 main_v17
  let main_v19 : FVec F S46 .f32 := Host.absf main_arg6
  let main_cst_6 : FVec F S_ .f32 := constant S_ .f32 0x7F800000#32
  let main_v20 : FVec F S46 .f32 := broadcastInDim S46 ![] bcast_S_S46 main_cst_6
  let main_v21 : IVec S46 1 := cmpf .olt main_v19 main_v20
  let main_c_7 : IVec S_ 1 := constantI S_ 1 1#1
  let main_v22 : IVec S_ 1 := (fun x v => Host.reduce IntOp.andi x v reducesTo_S46_S_d0 h_S_) main_v21 main_c_7
  let main_v23 : IVec S_ 1 := andi main_v18 main_v22
  main_v23

def fn {F : FTy → Type} [FloatOps F] (main_arg0 : FVec F S2048x128 .f32) (main_arg1 : IVec S2048 32) (main_arg2 : FVec F S2048x3 .f32) (main_arg3 : FVec F S64x3 .f32) (main_arg4 : IVec S64 32) (main_arg5 : FVec F S128x46 .f32) (main_arg6 : FVec F S46 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x3 .f32 := Host.absf main_arg2
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S128x46 .f32 := Host.absf main_arg5
  let main_cst_4 : FVec F S_ .f32 := constant S_ .f32 0x7F800000#32
  let main_v15 : FVec F S128x46 .f32 := broadcastInDim S128x46 ![] bcast_S_S128x46 main_cst_4
  let main_v16 : IVec S128x46 1 := cmpf .olt main_v14 main_v15
  fn_part1 (F := F) main_arg6 main_v13 main_v16
-- ==== Kernel.lean ====
abbrev S2048x128 : Shape := ⟨2, ![2048, 128]⟩
abbrev S2048 : Shape := ⟨1, ![2048]⟩
abbrev S2048x3 : Shape := ⟨2, ![2048, 3]⟩
abbrev S64x3 : Shape := ⟨2, ![64, 3]⟩
abbrev S64 : Shape := ⟨1, ![64]⟩
abbrev S128x46 : Shape := ⟨2, ![128, 46]⟩
abbrev S46 : Shape := ⟨1, ![46]⟩
abbrev S1 : Shape := ⟨1, ![1]⟩
abbrev S63 : Shape := ⟨1, ![63]⟩
abbrev S_ : Shape := ⟨0, ![]⟩
abbrev S64x1 : Shape := ⟨2, ![64, 1]⟩
abbrev S2048x1 : Shape := ⟨2, ![2048, 1]⟩
abbrev S1x1 : Shape := ⟨2, ![1, 1]⟩
abbrev S1x2048 : Shape := ⟨2, ![1, 2048]⟩
abbrev S64x2048 : Shape := ⟨2, ![64, 2048]⟩
abbrev S256x128 : Shape := ⟨2, ![256, 128]⟩
abbrev S256x3 : Shape := ⟨2, ![256, 3]⟩
abbrev S64x64 : Shape := ⟨2, ![64, 64]⟩
abbrev S256x46 : Shape := ⟨2, ![256, 46]⟩
abbrev S1x46 : Shape := ⟨2, ![1, 46]⟩
abbrev S256x1 : Shape := ⟨2, ![256, 1]⟩
abbrev S1x64 : Shape := ⟨2, ![1, 64]⟩
abbrev S256x64 : Shape := ⟨2, ![256, 64]⟩
abbrev S256 : Shape := ⟨1, ![256]⟩
abbrev S64x256 : Shape := ⟨2, ![64, 256]⟩

abbrev nBuf : Space → Nat
  | .hbm => 67
  | .vmem => 10
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S2048x3, .f32⟩
  | .hbm, ⟨3, _⟩ => ⟨S64x3, .f32⟩
  | .hbm, ⟨4, _⟩ => ⟨S64, .i32⟩
  | .hbm, ⟨5, _⟩ => ⟨S128x46, .f32⟩
  | .hbm, ⟨6, _⟩ => ⟨S46, .f32⟩
  | .hbm, ⟨7, _⟩ => ⟨S64, .i32⟩
  | .hbm, ⟨8, _⟩ => ⟨S1, .i32⟩
  | .hbm, ⟨9, _⟩ => ⟨S63, .i32⟩
  | .hbm, ⟨10, _⟩ => ⟨S64, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S64, .i32⟩
  | .hbm, ⟨15, _⟩ => ⟨S_, .i32⟩
  | .hbm, ⟨16, _⟩ => ⟨S_, .i32⟩
  | .hbm, ⟨17, _⟩ => ⟨S64, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S_, .i32⟩
  | .hbm, ⟨29, _⟩ => ⟨S64, .i32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048x1, .i32⟩
  | .hbm, ⟨45, _⟩ => ⟨S1, .i32⟩
  | .hbm, ⟨46, _⟩ => ⟨S_, .i32⟩
  | .hbm, ⟨47, _⟩ => ⟨S2048x1, .i32⟩
  | .hbm, ⟨48, _⟩ => ⟨S2048x1, .i1⟩
  | .hbm, ⟨49, _⟩ => ⟨S1x1, .i32⟩
  | .hbm, ⟨50, _⟩ => ⟨S2048x1, .i32⟩
  | .hbm, ⟨51, _⟩ => ⟨S2048x1, .i1⟩
  | .hbm, ⟨52, _⟩ => ⟨S2048x1, .i1⟩
  | .hbm, ⟨53, _⟩ => ⟨S_, .i1⟩
  | .hbm, ⟨54, _⟩ => ⟨S2048, .i1⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S1x2048, .i32⟩
  | .hbm, ⟨60, _⟩ => ⟨S64, .i32⟩
  | .hbm, ⟨61, _⟩ => ⟨S64x1, .i32⟩
  | .hbm, ⟨62, _⟩ => ⟨S64x2048, .i32⟩
  | .hbm, ⟨63, _⟩ => ⟨S64x2048, .i32⟩
  | .hbm, ⟨64, _⟩ => ⟨S64x2048, .i1⟩
  | .hbm, ⟨65, _⟩ => ⟨S64x2048, .f32⟩
  | .hbm, ⟨66, _⟩ => ⟨S64x2048, .f32⟩
  | .local _ .vmem, ⟨0, _⟩ => ⟨S256x128, .f32⟩
  | .local _ .vmem, ⟨1, _⟩ => ⟨S256x128, .f32⟩
  | .local _ .vmem, ⟨2, _⟩ => ⟨S256x3, .f32⟩
  | .local _ .vmem, ⟨3, _⟩ => ⟨S256x3, .f32⟩
  | .local _ .vmem, ⟨4, _⟩ => ⟨S64x2048, .f32⟩
  | .local _ .vmem, ⟨5, _⟩ => ⟨S128x46, .f32⟩
  | .local _ .vmem, ⟨6, _⟩ => ⟨S46, .f32⟩
  | .local _ .vmem, ⟨7, _⟩ => ⟨S64x3, .f32⟩
  | .local _ .vmem, ⟨8, _⟩ => ⟨S64x2048, .f32⟩
  | .local _ .vmem, ⟨9, _⟩ => ⟨S64x64, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_call2_call0_c : Ref sig .tc := ⟨.hbm, 31, rfl⟩
abbrev main_call2_call0_v0 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v364 : BitVec 32 := Scalar.muli arg0 c256_i32
  v364
def k0_off1 (i : grid0.Coords) : Fin 2 → Nat :=
  let c0_25 : Index := 0#32
  let arg0 : BitVec 32 := BitVec.ofNat 32 (i 0).val
  let c256_i32 : BitVec 32 := 256#32
  let v364 : BitVec 32 := Scalar.muli arg0 c256_i32
  let v365 : BitVec 32 := v364
  let v366 : Index := Scalar.indexCast v365
  ![0, v366.toNat]
def k0_cond2 (i : grid0.Coords) : BitVec 1 :=
  let arg0 : BitVec 32 := BitVec.ofNat 32 (i 0).val
  let c7_i32 : BitVec 32 := 7#32
  let v376 : BitVec 1 := Scalar.cmpi .eq arg0 c7_i32
  let v377 : BitVec 32 := Scalar.extui v376
  let c0_i32_31 : BitVec 32 := 0#32
  let v378 : BitVec 1 := Scalar.cmpi .ne v377 c0_i32_31
  v378

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x46 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S46 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  reduceWindows_S2048_S2048_w2048s1p2047_0 : S2048.ReduceWindows (![2048] : Fin 1 → Nat) ![1] ![2047] ![0] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x128_S256x128_0_0 : ∀ a, (![0, 0] : Fin 2 → Nat) a + S256x128.size a ≤ S256x128.size a
  h_S256x128 : 0 < S256x128.numel
  inb_S128x46_S128x46_0_0 : ∀ a, (![0, 0] : Fin 2 → Nat) a + S128x46.size a ≤ S128x46.size a
  h_S128x46 : 0 < S128x46.numel
  inb_S46_S46_0 : ∀ a, (![0] : Fin 1 → Nat) a + S46.size a ≤ S46.size a
  h_S46 : 0 < S46.numel
  shapeCasts_S46_S1x46 : S46.ShapeCasts S1x46
  broadcasts_S1x46_S256x46 : S1x46.Broadcasts S256x46
  inb_S256x3_S256x3_0_0 : ∀ a, (![0, 0] : Fin 2 → Nat) a + S256x3.size a ≤ S256x3.size a
  h_S256x3 : 0 < S256x3.numel
  inb_S64x3_S64x3_0_0 : ∀ a, (![0, 0] : Fin 2 → Nat) a + S64x3.size a ≤ S64x3.size a
  h_S64x3 : 0 < S64x3.numel
  slices_S256x3_o0_0_S256x1 : S256x3.Slices ![0, 0] S256x1
  slices_S256x3_o0_1_S256x1 : S256x3.Slices ![0, 1] S256x1
  slices_S256x3_o0_2_S256x1 : S256x3.Slices ![0, 2] S256x1
  slices_S64x3_o0_0_S64x1 : S64x3.Slices ![0, 0] S64x1
  shapeCasts_S64x1_S64 : S64x1.ShapeCasts S64
  shapeCasts_S64_S1x64 : S64.ShapeCasts S1x64
  slices_S64x3_o0_1_S64x1 : S64x3.Slices ![0, 1] S64x1
  slices_S64x3_o0_2_S64x1 : S64x3.Slices ![0, 2] S64x1
  broadcasts_S256x1_S256x64 : S256x1.Broadcasts S256x64
  broadcasts_S1x64_S256x64 : S1x64.Broadcasts S256x64
  slices_S256x46_o0_0_S256x1 : S256x46.Slices ![0, 0] S256x1
  shapeCasts_S256x1_S256 : S256x1.ShapeCasts S256
  shapeCasts_S256_S256x1 : S256.ShapeCasts S256x1
  slices_S256x46_o0_8_S256x1 : S256x46.Slices ![0, 8] S256x1
  slices_S256x46_o0_1_S256x1 : S256x46.Slices ![0, 1] S256x1
  slices_S256x46_o0_9_S256x1 : S256x46.Slices ![0, 9] S256x1
  slices_S256x46_o0_2_S256x1 : S256x46.Slices ![0, 2] S256x1
  slices_S256x46_o0_10_S256x1 : S256x46.Slices ![0, 10] S256x1
  slices_S256x46_o0_3_S256x1 : S256x46.Slices ![0, 3] S256x1
  slices_S256x46_o0_11_S256x1 : S256x46.Slices ![0, 11] S256x1
  slices_S256x46_o0_4_S256x1 : S256x46.Slices ![0, 4] S256x1
  slices_S256x46_o0_12_S256x1 : S256x46.Slices ![0, 12] S256x1
  slices_S256x46_o0_5_S256x1 : S256x46.Slices ![0, 5] S256x1
  slices_S256x46_o0_13_S256x1 : S256x46.Slices ![0, 13] S256x1
  slices_S256x46_o0_6_S256x1 : S256x46.Slices ![0, 6] S256x1
  slices_S256x46_o0_14_S256x1 : S256x46.Slices ![0, 14] S256x1
  slices_S256x46_o0_7_S256x1 : S256x46.Slices ![0, 7] S256x1
  slices_S256x46_o0_15_S256x1 : S256x46.Slices ![0, 15] S256x1
  slices_S256x46_o0_16_S256x1 : S256x46.Slices ![0, 16] S256x1
  slices_S256x46_o0_22_S256x1 : S256x46.Slices ![0, 22] S256x1
  slices_S256x46_o0_28_S256x1 : S256x46.Slices ![0, 28] S256x1
  slices_S256x46_o0_29_S256x1 : S256x46.Slices ![0, 29] S256x1
  slices_S256x46_o0_30_S256x1 : S256x46.Slices ![0, 30] S256x1
  slices_S256x46_o0_17_S256x1 : S256x46.Slices ![0, 17] S256x1
  slices_S256x46_o0_23_S256x1 : S256x46.Slices ![0, 23] S256x1
  slices_S256x46_o0_31_S256x1 : S256x46.Slices ![0, 31] S256x1
  slices_S256x46_o0_32_S256x1 : S256x46.Slices ![0, 32] S256x1
  slices_S256x46_o0_33_S256x1 : S256x46.Slices ![0, 33] S256x1
  slices_S256x46_o0_18_S256x1 : S256x46.Slices ![0, 18] S256x1
  slices_S256x46_o0_24_S256x1 : S256x46.Slices ![0, 24] S256x1
  slices_S256x46_o0_34_S256x1 : S256x46.Slices ![0, 34] S256x1
  slices_S256x46_o0_35_S256x1 : S256x46.Slices ![0, 35] S256x1
  slices_S256x46_o0_36_S256x1 : S256x46.Slices ![0, 36] S256x1
  slices_S256x46_o0_19_S256x1 : S256x46.Slices ![0, 19] S256x1
  slices_S256x46_o0_25_S256x1 : S256x46.Slices ![0, 25] S256x1
  slices_S256x46_o0_37_S256x1 : S256x46.Slices ![0, 37] S256x1
  slices_S256x46_o0_38_S256x1 : S256x46.Slices ![0, 38] S256x1
  slices_S256x46_o0_39_S256x1 : S256x46.Slices ![0, 39] S256x1
  slices_S256x46_o0_20_S256x1 : S256x46.Slices ![0, 20] S256x1
  slices_S256x46_o0_26_S256x1 : S256x46.Slices ![0, 26] S256x1
  slices_S256x46_o0_40_S256x1 : S256x46.Slices ![0, 40] S256x1
  slices_S256x46_o0_41_S256x1 : S256x46.Slices ![0, 41] S256x1
  slices_S256x46_o0_42_S256x1 : S256x46.Slices ![0, 42] S256x1
  slices_S256x46_o0_21_S256x1 : S256x46.Slices ![0, 21] S256x1
  slices_S256x46_o0_27_S256x1 : S256x46.Slices ![0, 27] S256x1
  slices_S256x46_o0_43_S256x1 : S256x46.Slices ![0, 43] S256x1
  slices_S256x46_o0_44_S256x1 : S256x46.Slices ![0, 44] S256x1
  slices_S256x46_o0_45_S256x1 : S256x46.Slices ![0, 45] S256x1
  bitsLt_bf16_f32 : FTy.bits .bf16 < FTy.bits .f32
  h_S64x256 : 0 < S64x256.numel
  shapeCasts_S64x256_S64x256 : S64x256.ShapeCasts S64x256
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  scatter_S64_S1_S__n_0_0_0_wf : ScatterDims.WF S64 S1 S_ [] [0] [0] 0
  scatter_S2048_S64x1_S64_n_0_0_1_wf : ScatterDims.WF S2048 S64x1 S64 [] [0] [0] 1
  gather_S64_S2048x1_S2048_n_0_n_n_0_1_1_wf : GatherDims.WF S64 S2048x1 S2048 [] [0] [] [0] [] 1 ![1]
  dot_S256x128_S128x46_S256x46_1_0_0_1_n_n_wf : DotDims.WF S256x128 S128x46 S256x46 [1] [0] [0] [1] [] []
  dot_S64x256_S256x64_S64x64_1_0_0_1_n_n_wf : DotDims.WF S64x256 S256x64 S64x64 [1] [0] [0] [1] [] []
  dot_S64x64_S64x2048_S64x2048_1_0_0_1_n_n_wf : DotDims.WF S64x64 S64x2048 S64x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S64x256.size a ≤ S64x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3.size a ≤ S2048x3.size a
  hwx0_1 : ∀ i : grid0.Coords, EltTy.bits .f32 = 32 ∨ (Rect.block (s := S2048x3) S256x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x46.size a ≤ S128x46.size a
  hwx0_3 : ∀ i : grid0.Coords, EltTy.bits .f32 = 32 ∨ (Rect.block (s := S128x46) S128x46.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S46.size a ≤ S46.size a
  hwx0_4 : ∀ i : grid0.Coords, EltTy.bits .f32 = 32 ∨ (Rect.block (s := S46) S46.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .f32 = 32 ∨ (Rect.block (s := S64x3) S64x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S64x2048.size a
  hwx0_6 : ∀ i : grid0.Coords, EltTy.bits .f32 = 32 ∨ (Rect.block (s := S64x2048) S64x2048.size (cc0_transform_6 i) (hinb0_6 i)).WholeWords (EltTy.packing .f32)

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S2048_S64x1_S64_n_0_0_1 : ScatterDims S2048 S64x1 S64 where
  updateWindowDims := []
  insertedWindowDims := [0]
  scatterDimsToOperandDims := [0]
  indexVectorDim := 1
  wf := scatter_S2048_S64x1_S64_n_0_0_1_wf
def gather_S64_S2048x1_S2048_n_0_n_n_0_1_1 : GatherDims S64 S2048x1 S2048 where
  offsetDims := []
  collapsedSliceDims := [0]
  operandBatchingDims := []
  startIndicesBatchingDims := []
  startIndexMap := [0]
  indexVectorDim := 1
  sliceSizes := ![1]
  wf := gather_S64_S2048x1_S2048_n_0_n_n_0_1_1_wf
def dot_S256x128_S128x46_S256x46_1_0_0_1_n_n : DotDims S256x128 S128x46 S256x46 where
  lhsContracting := [1]
  rhsContracting := [0]
  lhsNonContracting := [0]
  rhsNonContracting := [1]
  lhsBatch := []
  rhsBatch := []
  wf := dot_S256x128_S128x46_S256x46_1_0_0_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x46.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S46.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S64x2048.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2048x128 : Shape := ⟨2, ![2048, 128]⟩
abbrev S2048 : Shape := ⟨1, ![2048]⟩
abbrev S2048x3 : Shape := ⟨2, ![2048, 3]⟩
abbrev S64x3 : Shape := ⟨2, ![64, 3]⟩
abbrev S64 : Shape := ⟨1, ![64]⟩
abbrev S128x46 : Shape := ⟨2, ![128, 46]⟩
abbrev S46 : Shape := ⟨1, ![46]⟩
abbrev S1 : Shape := ⟨1, ![1]⟩
abbrev S63 : Shape := ⟨1, ![63]⟩
abbrev S_ : Shape := ⟨0, ![]⟩
abbrev S64x1 : Shape := ⟨2, ![64, 1]⟩
abbrev S2048x1 : Shape := ⟨2, ![2048, 1]⟩
abbrev S1x1 : Shape := ⟨2, ![1, 1]⟩
abbrev S2048x46 : Shape := ⟨2, ![2048, 46]⟩
abbrev S1x46 : Shape := ⟨2, ![1, 46]⟩
abbrev S2048x8 : Shape := ⟨2, ![2048, 8]⟩
abbrev S2048x6 : Shape := ⟨2, ![2048, 6]⟩
abbrev S2048x18 : Shape := ⟨2, ![2048, 18]⟩
abbrev S2048x6x3 : Shape := ⟨3, ![2048, 6, 3]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S2048x2048 : Shape := ⟨2, ![2048, 2048]⟩
abbrev S2048x8x1 : Shape := ⟨3, ![2048, 8, 1]⟩
abbrev S2048x1x2048 : Shape := ⟨3, ![2048, 1, 2048]⟩
abbrev S2048x8x2048 : Shape := ⟨3, ![2048, 8, 2048]⟩
abbrev S64x2048 : Shape := ⟨2, ![64, 2048]⟩
abbrev S2048x6x1 : Shape := ⟨3, ![2048, 6, 1]⟩
abbrev S2048x6x2048 : Shape := ⟨3, ![2048, 6, 2048]⟩
abbrev S2048x6x1x3 : Shape := ⟨4, ![2048, 6, 1, 3]⟩
abbrev S2048x1x2048x3 : Shape := ⟨4, ![2048, 1, 2048, 3]⟩
abbrev S2048x6x2048x3 : Shape := ⟨4, ![2048, 6, 2048, 3]⟩

abbrev nBuf : Space → Nat
  | .hbm => 175
  | .vmem => 0
  | .smem => 0
  | _ => 0

abbrev hbmTy0_0 (i : Nat) : BufTy := match i % 128 with
  | 0 => ⟨S2048x128, .f32⟩
  | 1 => ⟨S2048, .i32⟩
  | 2 => ⟨S2048x3, .f32⟩
  | 3 => ⟨S64x3, .f32⟩
  | 4 => ⟨S64, .i32⟩
  | 5 => ⟨S128x46, .f32⟩
  | 6 => ⟨S46, .f32⟩
  | 7 => ⟨S64, .i32⟩
  | 8 => ⟨S1, .i32⟩
  | 9 => ⟨S63, .i32⟩
  | 10 => ⟨S64, .i32⟩
  | 11 => ⟨S_, .i32⟩
  | 12 => ⟨S1, .i32⟩
  | 13 => ⟨S_, .i32⟩
  | 14 => ⟨S64, .i32⟩
  | 15 => ⟨S_, .i32⟩
  | 16 => ⟨S_, .i32⟩
  | 17 => ⟨S64, .i32⟩
  | 18 => ⟨S_, .i32⟩
  | 19 => ⟨S2048, .i32⟩
  | 20 => ⟨S_, .i32⟩
  | 21 => ⟨S64, .i32⟩
  | 22 => ⟨S64, .i1⟩
  | 23 => ⟨S_, .i32⟩
  | 24 => ⟨S64, .i32⟩
  | 25 => ⟨S64, .i32⟩
  | 26 => ⟨S64, .i32⟩
  | 27 => ⟨S64x1, .i32⟩
  | 28 => ⟨S_, .i32⟩
  | 29 => ⟨S64, .i32⟩
  | 30 => ⟨S2048, .i32⟩
  | 31 => ⟨S_, .i32⟩
  | 32 => ⟨S_, .i32⟩
  | 33 => ⟨S2048, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S1, .i32⟩
  | 46 => ⟨S_, .i32⟩
  | 47 => ⟨S2048x1, .i32⟩
  | 48 => ⟨S2048x1, .i1⟩
  | 49 => ⟨S1x1, .i32⟩
  | 50 => ⟨S2048x1, .i32⟩
  | 51 => ⟨S2048x1, .i1⟩
  | 52 => ⟨S2048x1, .i1⟩
  | 53 => ⟨S_, .i1⟩
  | 54 => ⟨S2048, .i1⟩
  | 55 => ⟨S2048, .i32⟩
  | 56 => ⟨S_, .i32⟩
  | 57 => ⟨S2048, .i32⟩
  | 58 => ⟨S2048, .i32⟩
  | 59 => ⟨S1, .i32⟩
  | 60 => ⟨S63, .i32⟩
  | 61 => ⟨S64, .i32⟩
  | 62 => ⟨S_, .i32⟩
  | 63 => ⟨S1, .i32⟩
  | 64 => ⟨S_, .i32⟩
  | 65 => ⟨S64, .i32⟩
  | 66 => ⟨S_, .i32⟩
  | 67 => ⟨S_, .i32⟩
  | 68 => ⟨S64, .i32⟩
  | 69 => ⟨S_, .i32⟩
  | 70 => ⟨S2048, .i32⟩
  | 71 => ⟨S_, .i32⟩
  | 72 => ⟨S64, .i32⟩
  | 73 => ⟨S64, .i1⟩
  | 74 => ⟨S_, .i32⟩
  | 75 => ⟨S64, .i32⟩
  | 76 => ⟨S64, .i32⟩
  | 77 => ⟨S64, .i32⟩
  | 78 => ⟨S64x1, .i32⟩
  | 79 => ⟨S_, .i32⟩
  | 80 => ⟨S64, .i32⟩
  | 81 => ⟨S2048, .i32⟩
  | 82 => ⟨S_, .i32⟩
  | 83 => ⟨S_, .i32⟩
  | 84 => ⟨S2048, .i32⟩
  | 85 => ⟨S_, .i32⟩
  | 86 => ⟨S2048, .i32⟩
  | 87 => ⟨S2048, .i32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S1, .i32⟩
  | 97 => ⟨S_, .i32⟩
  | 98 => ⟨S2048x1, .i32⟩
  | 99 => ⟨S2048x1, .i1⟩
  | 100 => ⟨S1x1, .i32⟩
  | 101 => ⟨S2048x1, .i32⟩
  | 102 => ⟨S2048x1, .i1⟩
  | 103 => ⟨S2048x1, .i1⟩
  | 104 => ⟨S_, .i1⟩
  | 105 => ⟨S2048, .i1⟩
  | 106 => ⟨S2048x3, .f32⟩
  | 107 => ⟨S2048x3, .i1⟩
  | 108 => ⟨S_, .f32⟩
  | 109 => ⟨S2048x3, .f32⟩
  | 110 => ⟨S2048x3, .f32⟩
  | 111 => ⟨S2048x46, .f32⟩
  | 112 => ⟨S1x46, .f32⟩
  | 113 => ⟨S2048x46, .f32⟩
  | 114 => ⟨S2048x46, .f32⟩
  | 115 => ⟨S2048x8, .f32⟩
  | 116 => ⟨S2048x8, .f32⟩
  | 117 => ⟨S2048x8, .f32⟩
  | 118 => ⟨S2048x6, .f32⟩
  | 119 => ⟨S2048x6, .f32⟩
  | 120 => ⟨S2048x6, .f32⟩
  | 121 => ⟨S2048x18, .f32⟩
  | 122 => ⟨S2048x6x3, .f32⟩
  | 123 => ⟨S2048x1x3, .f32⟩
  | 124 => ⟨S1x2048x3, .f32⟩
  | 125 => ⟨S2048x2048x3, .f32⟩
  | 126 => ⟨S2048x2048x3, .f32⟩
  | 127 => ⟨S2048x2048x3, .f32⟩
  | _ => ⟨S2048x128, .f32⟩

abbrev hbmTy0_1 (i : Nat) : BufTy := match i % 128 with
  | 0 => ⟨S2048x2048x3, .f32⟩
  | 1 => ⟨S_, .f32⟩
  | 2 => ⟨S2048x2048, .f32⟩
  | 3 => ⟨S2048x2048, .f32⟩
  | 4 => ⟨S2048x8x1, .f32⟩
  | 5 => ⟨S2048x8x1, .f32⟩
  | 6 => ⟨S2048x8x1, .f32⟩
  | 7 => ⟨S2048x1x2048, .f32⟩
  | 8 => ⟨S2048x8x2048, .f32⟩
  | 9 => ⟨S2048x8x2048, .f32⟩
  | 10 => ⟨S2048x8x2048, .f32⟩
  | 11 => ⟨S2048x8x2048, .f32⟩
  | 12 => ⟨S2048x8x2048, .f32⟩
  | 13 => ⟨S2048x8x2048, .f32⟩
  | 14 => ⟨S_, .f32⟩
  | 15 => ⟨S2048x2048, .f32⟩
  | 16 => ⟨S_, .f32⟩
  | 17 => ⟨S64x2048, .f32⟩
  | 18 => ⟨S2048x1, .i32⟩
  | 19 => ⟨S64x2048, .f32⟩
  | 20 => ⟨S2048x6x1, .f32⟩
  | 21 => ⟨S2048x6x1, .f32⟩
  | 22 => ⟨S2048x6x1, .f32⟩
  | 23 => ⟨S2048x2048, .f32⟩
  | 24 => ⟨S2048x1x2048, .f32⟩
  | 25 => ⟨S2048x6x2048, .f32⟩
  | 26 => ⟨S2048x6x2048, .f32⟩
  | 27 => ⟨S2048x6x2048, .f32⟩
  | 28 => ⟨S2048x6x2048, .f32⟩
  | 29 => ⟨S2048x6x2048, .f32⟩
  | 30 => ⟨S2048x6x2048, .f32⟩
  | 31 => ⟨S2048x6x1x3, .f32⟩
  | 32 => ⟨S2048x2048x3, .f32⟩
  | 33 => ⟨S2048x1x2048x3, .f32⟩
  | 34 => ⟨S2048x6x2048x3, .f32⟩
  | 35 => ⟨S2048x6x2048x3, .f32⟩
  | 36 => ⟨S2048x6x2048x3, .f32⟩
  | 37 => ⟨S_, .f32⟩
  | 38 => ⟨S2048x6x2048, .f32⟩
  | 39 => ⟨S2048x6x2048, .f32⟩
  | 40 => ⟨S_, .f32⟩
  | 41 => ⟨S2048x2048, .f32⟩
  | 42 => ⟨S_, .f32⟩
  | 43 => ⟨S64x2048, .f32⟩
  | 44 => ⟨S2048x1, .i32⟩
  | 45 => ⟨S64x2048, .f32⟩
  | 46 => ⟨S64x2048, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_call2_call0_c : Ref sig .tc := ⟨.hbm, 31, rfl⟩
abbrev main_call2_call0_v0 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v17 : Ref sig .tc := ⟨.hbm, 58, rfl⟩
abbrev main_call4_v0 : Ref sig .tc := ⟨.hbm, 59, rfl⟩
abbrev main_call4_v1 : Ref sig .tc := ⟨.hbm, 60, rfl⟩
abbrev main_v18 : Ref sig .tc := ⟨.hbm, 61, rfl⟩
abbrev main_c_6 : Ref sig .tc := ⟨.hbm, 62, rfl⟩
abbrev main_v19 : Ref sig .tc := ⟨.hbm, 63, rfl⟩
abbrev main_c_7 : Ref sig .tc := ⟨.hbm, 64, rfl⟩
abbrev main_v20 : Ref sig .tc := ⟨.hbm, 65, rfl⟩
abbrev main_call5_call0_c : Ref sig .tc := ⟨.hbm, 66, rfl⟩
abbrev main_call5_call0_v0 : Ref sig .tc := ⟨.hbm, 67, rfl⟩
abbrev main_v21 : Ref sig .tc := ⟨.hbm, 68, rfl⟩
abbrev main_c_8 : Ref sig .tc := ⟨.hbm, 69, rfl⟩
abbrev main_v22 : Ref sig .tc := ⟨.hbm, 70, rfl⟩
abbrev main_c_9 : Ref sig .tc := ⟨.hbm, 71, rfl⟩
abbrev main_v23 : Ref sig .tc := ⟨.hbm, 72, rfl⟩
abbrev main_v24 : Ref sig .tc := ⟨.hbm, 73, rfl⟩
abbrev main_c_10 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_11 : Ref sig .tc := ⟨.hbm, 79, rfl⟩
abbrev main_v29 : Ref sig .tc := ⟨.hbm, 80, rfl⟩
abbrev main_v30 : Ref sig .tc := ⟨.hbm, 81, rfl⟩
abbrev main_call6_call0_c : Ref sig .tc := ⟨.hbm, 82, rfl⟩
abbrev main_call6_call0_v0 : Ref sig .tc := ⟨.hbm, 83, rfl⟩
abbrev main_v31 : Ref sig .tc := ⟨.hbm, 84, rfl⟩
abbrev main_c_12 : Ref sig .tc := ⟨.hbm, 85, rfl⟩
abbrev main_v32 : Ref sig .tc := ⟨.hbm, 86, rfl⟩
abbrev main_v33 : Ref sig .tc := ⟨.hbm, 87, rfl⟩
abbrev main_call7_c : Ref sig .tc := ⟨.hbm, 88, rfl⟩
abbrev main_call7_v0 : Ref sig .tc := ⟨.hbm, 89, rfl⟩
abbrev main_call7_v1 : Ref sig .tc := ⟨.hbm, 90, rfl⟩
abbrev main_call7_c_0 : Ref sig .tc := ⟨.hbm, 91, rfl⟩
abbrev main_call7_v2 : Ref sig .tc := ⟨.hbm, 92, rfl⟩
abbrev main_call7_v3 : Ref sig .tc := ⟨.hbm, 93, rfl⟩
abbrev main_call7_v4 : Ref sig .tc := ⟨.hbm, 94, rfl⟩
abbrev main_call7_v5 : Ref sig .tc := ⟨.hbm, 95, rfl⟩
abbrev main_call7_c_1 : Ref sig .tc := ⟨.hbm, 96, rfl⟩
abbrev main_call7_c_2 : Ref sig .tc := ⟨.hbm, 97, rfl⟩
abbrev main_call7_v6 : Ref sig .tc := ⟨.hbm, 98, rfl⟩
abbrev main_call7_v7 : Ref sig .tc := ⟨.hbm, 99, rfl⟩
abbrev main_call7_v8 : Ref sig .tc := ⟨.hbm, 100, rfl⟩
abbrev main_call7_v9 : Ref sig .tc := ⟨.hbm, 101, rfl⟩
abbrev main_call7_v10 : Ref sig .tc := ⟨.hbm, 102, rfl⟩
abbrev main_call7_v11 : Ref sig .tc := ⟨.hbm, 103, rfl⟩
abbrev main_call7_c_3 : Ref sig .tc := ⟨.hbm, 104, rfl⟩
abbrev main_call7_v12 : Ref sig .tc := ⟨.hbm, 105, rfl⟩
abbrev main_call7_v13 : Ref sig .tc := ⟨.hbm, 106, rfl⟩
abbrev main_call7_v14 : Ref sig .tc := ⟨.hbm, 107, rfl⟩
abbrev main_call7_cst : Ref sig .tc := ⟨.hbm, 108, rfl⟩
abbrev main_call7_v15 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_call8_v0 : Ref sig .tc := ⟨.hbm, 128, rfl⟩
abbrev main_call8_cst : Ref sig .tc := ⟨.hbm, 129, rfl⟩
abbrev main_call8_v1 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_cst : Ref sig .tc := ⟨.hbm, 142, rfl⟩
abbrev main_v63 : Ref sig .tc := ⟨.hbm, 143, rfl⟩
abbrev main_cst_13 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_cst_14 : Ref sig .tc := ⟨.hbm, 165, rfl⟩
abbrev main_v84 : Ref sig .tc := ⟨.hbm, 166, rfl⟩
abbrev main_v85 : Ref sig .tc := ⟨.hbm, 167, rfl⟩
abbrev main_cst_15 : Ref sig .tc := ⟨.hbm, 168, rfl⟩
abbrev main_v86 : Ref sig .tc := ⟨.hbm, 169, rfl⟩
abbrev main_cst_16 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩

abbrev nD : Nat := 1
abbrev τ : Topo := Topo.v7x

variable {F : FTy → Type} [FloatOps F]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  reduceWindows_S2048_S2048_w2048s1p2047_0 : S2048.ReduceWindows (![2048] : Fin 1 → Nat) ![1] ![2047] ![0] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S2048x3_0 : S2048.BroadcastsInDim S2048x3 (![0] : Fin 1 → Fin S2048x3.rank)
  bcast_S_S2048x3 : S_.BroadcastsInDim S2048x3 (![] : Fin 0 → Fin S2048x3.rank)
  bcast_S46_S1x46_1 : S46.BroadcastsInDim S1x46 (![1] : Fin 1 → Fin S1x46.rank)
  bcast_S1x46_S2048x46_0_1 : S1x46.BroadcastsInDim S2048x46 (![0, 1] : Fin 2 → Fin S2048x46.rank)
  slices_S2048x46_S2048x8_0_0 : S2048x46.Slices ![0, 0] S2048x8
  slices_S2048x46_S2048x8_0_8 : S2048x46.Slices ![0, 8] S2048x8
  slices_S2048x46_S2048x6_0_16 : S2048x46.Slices ![0, 16] S2048x6
  slices_S2048x46_S2048x6_0_22 : S2048x46.Slices ![0, 22] S2048x6
  slices_S2048x46_S2048x18_0_28 : S2048x46.Slices ![0, 28] S2048x18
  shapeCasts_S2048x18_S2048x6x3 : S2048x18.ShapeCasts S2048x6x3
  bcast_S2048x3_S2048x1x3_0_2 : S2048x3.BroadcastsInDim S2048x1x3 (![0, 2] : Fin 2 → Fin S2048x1x3.rank)
  bcast_S2048x3_S1x2048x3_1_2 : S2048x3.BroadcastsInDim S1x2048x3 (![1, 2] : Fin 2 → Fin S1x2048x3.rank)
  bcast_S2048x1x3_S2048x2048x3_0_1_2 : S2048x1x3.BroadcastsInDim S2048x2048x3 (![0, 1, 2] : Fin 3 → Fin S2048x2048x3.rank)
  bcast_S1x2048x3_S2048x2048x3_0_1_2 : S1x2048x3.BroadcastsInDim S2048x2048x3 (![0, 1, 2] : Fin 3 → Fin S2048x2048x3.rank)
  reducesTo_S2048x2048x3_S2048x2048_d2 : S2048x2048x3.ReducesTo [2] S2048x2048
  bcast_S2048x8_S2048x8x1_0_1 : S2048x8.BroadcastsInDim S2048x8x1 (![0, 1] : Fin 2 → Fin S2048x8x1.rank)
  bcast_S2048x2048_S2048x1x2048_0_2 : S2048x2048.BroadcastsInDim S2048x1x2048 (![0, 2] : Fin 2 → Fin S2048x1x2048.rank)
  bcast_S2048x8x1_S2048x8x2048_0_1_2 : S2048x8x1.BroadcastsInDim S2048x8x2048 (![0, 1, 2] : Fin 3 → Fin S2048x8x2048.rank)
  bcast_S2048x1x2048_S2048x8x2048_0_1_2 : S2048x1x2048.BroadcastsInDim S2048x8x2048 (![0, 1, 2] : Fin 3 → Fin S2048x8x2048.rank)
  reducesTo_S2048x8x2048_S2048x2048_d1 : S2048x8x2048.ReducesTo [1] S2048x2048
  bcast_S_S64x2048 : S_.BroadcastsInDim S64x2048 (![] : Fin 0 → Fin S64x2048.rank)
  bcast_S2048x6_S2048x6x1_0_1 : S2048x6.BroadcastsInDim S2048x6x1 (![0, 1] : Fin 2 → Fin S2048x6x1.rank)
  bcast_S2048x6x1_S2048x6x2048_0_1_2 : S2048x6x1.BroadcastsInDim S2048x6x2048 (![0, 1, 2] : Fin 3 → Fin S2048x6x2048.rank)
  bcast_S2048x1x2048_S2048x6x2048_0_1_2 : S2048x1x2048.BroadcastsInDim S2048x6x2048 (![0, 1, 2] : Fin 3 → Fin S2048x6x2048.rank)
  bcast_S2048x6x3_S2048x6x1x3_0_1_3 : S2048x6x3.BroadcastsInDim S2048x6x1x3 (![0, 1, 3] : Fin 3 → Fin S2048x6x1x3.rank)
  bcast_S2048x2048x3_S2048x1x2048x3_0_2_3 : S2048x2048x3.BroadcastsInDim S2048x1x2048x3 (![0, 2, 3] : Fin 3 → Fin S2048x1x2048x3.rank)
  bcast_S2048x6x1x3_S2048x6x2048x3_0_1_2_3 : S2048x6x1x3.BroadcastsInDim S2048x6x2048x3 (![0, 1, 2, 3] : Fin 4 → Fin S2048x6x2048x3.rank)
  bcast_S2048x1x2048x3_S2048x6x2048x3_0_1_2_3 : S2048x1x2048x3.BroadcastsInDim S2048x6x2048x3 (![0, 1, 2, 3] : Fin 4 → Fin S2048x6x2048x3.rank)
  reducesTo_S2048x6x2048x3_S2048x6x2048_d3 : S2048x6x2048x3.ReducesTo [3] S2048x6x2048
  reducesTo_S2048x6x2048_S2048x2048_d1 : S2048x6x2048.ReducesTo [1] S2048x2048
  scatter_S64_S1_S__n_0_0_0_wf : ScatterDims.WF S64 S1 S_ [] [0] [0] 0
  scatter_S2048_S64x1_S64_n_0_0_1_wf : ScatterDims.WF S2048 S64x1 S64 [] [0] [0] 1
  gather_S64_S2048x1_S2048_n_0_n_n_0_1_1_wf : GatherDims.WF S64 S2048x1 S2048 [] [0] [] [0] [] 1 ![1]
  gather_S64x3_S2048x1_S2048x3_1_0_n_n_0_1_13_wf : GatherDims.WF S64x3 S2048x1 S2048x3 [1] [0] [] [0] [] 1 ![1, 3]
  dot_S2048x128_S128x46_S2048x46_1_0_0_1_n_n_wf : DotDims.WF S2048x128 S128x46 S2048x46 [1] [0] [0] [1] [] []
  scatter_S64x2048_S2048x1_S2048x2048_1_0_0_1_wf : ScatterDims.WF S64x2048 S2048x1 S2048x2048 [1] [0] [0] 1

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S2048_S64x1_S64_n_0_0_1 : ScatterDims S2048 S64x1 S64 where
  updateWindowDims := []
  insertedWindowDims := [0]
  scatterDimsToOperandDims := [0]
  indexVectorDim := 1
  wf := scatter_S2048_S64x1_S64_n_0_0_1_wf
def gather_S64_S2048x1_S2048_n_0_n_n_0_1_1 : GatherDims S64 S2048x1 S2048 where
  offsetDims := []
  collapsedSliceDims := [0]
  operandBatchingDims := []
  startIndicesBatchingDims := []
  startIndexMap := [0]
  indexVectorDim := 1
  sliceSizes := ![1]
  wf := gather_S64_S2048x1_S2048_n_0_n_n_0_1_1_wf
def gather_S64x3_S2048x1_S2048x3_1_0_n_n_0_1_13 : GatherDims S64x3 S2048x1 S2048x3 where
  offsetDims := [1]
  collapsedSliceDims := [0]
  operandBatchingDims := []
  startIndicesBatchingDims := []
  startIndexMap := [0]
  indexVectorDim := 1
  sliceSizes := ![1, 3]
  wf := gather_S64x3_S2048x1_S2048x3_1_0_n_n_0_1_13_wf
def dot_S2048x128_S128x46_S2048x46_1_0_0_1_n_n : DotDims S2048x128 S128x46 S2048x46 where
  lhsContracting := [1]
  rhsContracting := [0]
  lhsNonContracting := [0]
  rhsNonContracting := [1]
  lhsBatch := []
  rhsBatch := []
  wf := dot_S2048x128_S128x46_S2048x46_1_0_0_1_n_n_wf
def scatter_S64x2048_S2048x1_S2048x2048_1_0_0_1 : ScatterDims S64x2048 S2048x1 S2048x2048 where
  updateWindowDims := [1]
  insertedWindowDims := [0]
  scatterDimsToOperandDims := [0]
  indexVectorDim := 1
  wf := scatter_S64x2048_S2048x1_S2048x2048_1_0_0_1_wf

class Facts : Prop extends Facts₀ where

variable [Facts]
-- ==== Proof.KerBody.lean ====
/-
  The kernel body's arithmetic as three pure functions of what it loads.
  `scStep`: what one grid point stores back into the 64 × 64 accumulator — the accumulator it loaded plus the
  product of the indicator's 64 × 256 tile with the tile's 256 × 64 matrix of pair terms (s-type plus p-type).
  `outStep`: what the last point stores into the output — the accumulator times the whole 64 × 2048 indicator.
  `kerOut`: the eight points folded from a zero accumulator, then `outStep`.
-/
import proofs.«125921_j43465069035926_1_alg».proof.Proof.Gen.KernelIdeal.Skeleton
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F]

/-- the tile's coefficients `out_tile · W + b` -/
def cfT (x0 : Vec F S256x128 .f32) (x3 : Vec F S128x46 .f32) (x4 : Vec F S46 .f32) : FVec F S256x46 .f32 := k0_pay2 x0 x3 x4

/-- the s-type terms of the tile, all eight summed -/
def sCore (x0 : Vec F S256x128 .f32) (x1 : Vec F S256x3 .f32) (x3 : Vec F S128x46 .f32) (x4 : Vec F S46 .f32) (x5 : Vec F S64x3 .f32) :
    FVec F S256x64 .f32 :=
  k0_pay19 (k0_pay7 x1 x5)
    (k0_pay16 (cfT x0 x3 x4) (k0_pay7 x1 x5) (k0_pay13 (cfT x0 x3 x4) (k0_pay7 x1 x5) (k0_pay11 (F := F)) (k0_pay12 x0 x3 x4))
      (k0_pay14 (cfT x0 x3 x4) (k0_pay7 x1 x5)) (k0_pay15 (cfT x0 x3 x4)))
    (k0_pay17 (cfT x0 x3 x4)) (k0_pay18 (cfT x0 x3 x4))

/-- the p-type terms of the tile, the first five summed (the sixth is added where the accumulator is updated) -/
def pCore5 (x0 : Vec F S256x128 .f32) (x1 : Vec F S256x3 .f32) (x3 : Vec F S128x46 .f32) (x4 : Vec F S46 .f32) (x5 : Vec F S64x3 .f32) :
    FVec F S256x64 .f32 :=
  k0_pay31 (cfT x0 x3 x4) (k0_pay6 x1 x5) (k0_pay8 x1 x5) (k0_pay9 x1 x5) (k0_pay10 x1 x5)
    (k0_pay27 (cfT x0 x3 x4) (k0_pay6 x1 x5) (k0_pay8 x1 x5) (k0_pay9 x1 x5) (k0_pay10 x1 x5)
      (k0_pay20 (cfT x0 x3 x4) (k0_pay6 x1 x5) (k0_pay8 x1 x5) (k0_pay9 x1 x5) (k0_pay10 x1 x5))
      (k0_pay21 (cfT x0 x3 x4)) (k0_pay22 (cfT x0 x3 x4)) (k0_pay23 (cfT x0 x3 x4)) (k0_pay24 (cfT x0 x3 x4)) (k0_pay25 (cfT x0 x3 x4)) (k0_pay26 (F := F)))
    (k0_pay28 (cfT x0 x3 x4)) (k0_pay29 (cfT x0 x3 x4)) (k0_pay30 (cfT x0 x3 x4))

/-- one grid point's new accumulator: the old one `acc` plus the indicator tile `oh` times the tile's pair terms -/
def scStep (x0 : Vec F S256x128 .f32) (x1 : Vec F S256x3 .f32) (x3 : Vec F S128x46 .f32) (x4 : Vec F S46 .f32) (x5 : Vec F S64x3 .f32)
    (oh : Vec F S64x256 .f32) (acc : Vec F S64x64 .f32) : FVec F S64x64 .f32 :=
  k0_pay33 (cfT x0 x3 x4) (k0_pay6 x1 x5) (k0_pay8 x1 x5) (k0_pay9 x1 x5) (k0_pay10 x1 x5) (sCore x0 x1 x3 x4 x5) (pCore5 x0 x1 x3 x4 x5)
    (k0_pay32 (cfT x0 x3 x4)) oh acc

/-- the last point's output: the accumulator times the whole indicator -/
def outStep (sc : Vec F S64x64 .f32) (x2 : Vec F S64x2048 .f32) : FVec F S64x2048 .f32 := k0_pay34 sc x2

/-- rows `256 t … 256 t + 255` of an array of 2048 rows -/
def rowsT {n : Nat} (t : ℕ) (A : (⟨2, ![2048, n]⟩ : Shape).Idx → F .f32) : (⟨2, ![256, n]⟩ : Shape).Idx → F .f32 :=
  fun y => A (ix2 ⟨(256 * t + (y 0).val) % 2048, Nat.mod_lt _ (by decide)⟩ (y 1))

/-- columns `256 t … 256 t + 255` of an array of 2048 columns -/
def colsT {n : Nat} (t : ℕ) (A : (⟨2, ![n, 2048]⟩ : Shape).Idx → F .f32) : (⟨2, ![n, 256]⟩ : Shape).Idx → F .f32 :=
  fun y => A (ix2 (y 0) ⟨(256 * t + (y 1).val) % 2048, Nat.mod_lt _ (by decide)⟩)

/-- the accumulator after grid point `n`, from zeros -/
def scAfter (A0 : Vec F S2048x128 .f32) (A1 : Vec F S2048x3 .f32) (OH : Vec F S64x2048 .f32) (W : Vec F S128x46 .f32) (b : Vec F S46 .f32)
    (C : Vec F S64x3 .f32) : ℕ → Vec F S64x64 .f32
  | 0 => scStep (rowsT 0 A0) (rowsT 0 A1) W b C (colsT 0 OH) (k0_pay1 (F := F))
  | n + 1 => scStep (rowsT (n + 1) A0) (rowsT (n + 1) A1) W b C (colsT (n + 1) OH) (scAfter A0 A1 OH W b C n)

/-- the kernel's output array as a function of the arrays the region finds -/
def kerOut (A0 : Vec F S2048x128 .f32) (A1 : Vec F S2048x3 .f32) (OH : Vec F S64x2048 .f32) (W : Vec F S128x46 .f32) (b : Vec F S46 .f32)
    (C : Vec F S64x3 .f32) : Vec F S64x2048 .f32 :=
  outStep (scAfter A0 A1 OH W b C 7) OH

end Cert.KernelIdeal.Body

end
-- ==== Proof.KerPieces.lean ====
/-
  What each case of the body leaves in the accumulator, and what the last case leaves in the output, as the pure
  functions of the blocks it loads: the first point stores zeros and then updates them; every later point updates
  what the point before left; the last point also multiplies the updated accumulator by the whole indicator.
-/
import proofs.«125921_j43465069035926_1_alg».proof.Proof.Gen.KernelIdeal.Frame
import proofs.«125921_j43465069035926_1_alg».proof.Proof.KerBody
import Idealize.ShloMosaic.Lib.Pipeline.Value

set_option maxRecDepth 16384

noncomputable section

namespace Cert.KernelIdeal.Pieces

open Cert.KernelIdeal Cert.KernelIdeal.Gen Idealize.ShloMosaic Idealize.ShloMosaic.ValueIdx Idealize.ShloMosaic.TcCoe

variable {F : FTy → Type} [FloatOps F]

/-- the 64 × 256 tile of the indicator a point loads: its columns from `256 ·` the point's coordinate on -/
def ohTile (i : grid0.Coords) (x2 : Vec F S64x2048 .f32) : Vec F S64x256 .f32 :=
  fun y => x2 (ix2 (y 0) ⟨(256 * (i 0).val + (y 1).val) % 2048, Nat.mod_lt _ (by decide)⟩)

/-- the rank-one zero offsets, spelt as a constant function -/
theorem hz1 : (![0] : Fin 1 → Nat) = fun _ => 0 := funext fun a => by fin_cases a; rfl

/-- the rank-two zero offsets, spelt as a constant function -/
theorem hz2 : (![0, 0] : Fin 2 → Nat) = fun _ => 0 := funext fun a => by fin_cases a <;> rfl

/-- the column offset of the tile load is `256 ·` the point's coordinate: below 8 the 32-bit product does not wrap -/
theorem off1_one (i : grid0.Coords) : k0_off1 i 1 = 256 * (i 0).val := by
  have h : ∀ k : Fin 8, (Scalar.indexCast (Scalar.muli (BitVec.ofNat 32 k.val) 256#32)).toNat = 256 * k.val := by decide
  exact h (i 0)

/-- a load of the 64 × 256 rectangle at the tile's offsets reads the indicator's tile: row `r`, column `256 · i + q`,
    and `256 · i + q < 2048` so the remainder in `ohTile` changes nothing -/
theorem ld_tile (i : grid0.Coords) (x2 : Vec F S64x2048 .f32) (inb : ∀ a, (k0_off1 i) a + S64x256.size a ≤ S64x2048.size a) :
    View.ld x2 (Rect.unit (s := S64x2048) (k0_off1 i) S64x256.size inb) = ohTile i x2 := by
  funext y
  show x2 _ = x2 _
  congr 1
  funext a
  apply Fin.ext
  have hy : (y 1).val < 256 := (y 1).isLt
  have hi : (i 0).val < 8 := (i 0).isLt
  match a with
  | ⟨0, _⟩ => show 0 + 1 * (y 0).val = (y 0).val; omega
  | ⟨1, _⟩ =>
    show k0_off1 i 1 + 1 * (y 1).val = (256 * (i 0).val + (y 1).val) % 2048
    rw [off1_one, Nat.mod_eq_of_lt (by omega)]; omega

/-- on the rank-one grid of 8 points the coordinate of point `t` is `t`, so the tile a point loads is the `t`-th
    block of 256 columns -/
theorem ohTile_coords (t : Fin cfg0.N) (x2 : Vec F S64x2048 .f32) : ohTile (grid0.coords t) x2 = Body.colsT t.val x2 := by
  have h : ∀ t : Fin cfg0.N, ((grid0.coords t) 0).val = t.val :=
    (by decide +kernel : ∀ t : Fin grid0.N, ((grid0.coords t) 0).val = t.val)
  funext y
  unfold ohTile Body.colsT
  simp only [h t]

/-- the first point: zeros stored, then updated by the tile's product -/
theorem sout_A (c : Dev nD) (i : grid0.Coords) (arg1 : Memref sig .tc .vmem S256x128 .f32) (harg1 : arg1.IsWhole) (arg2 : Memref sig .tc .vmem S256x3 .f32) (harg2 : arg2.IsWhole) (arg3 : Memref sig .tc .vmem S64x2048 .f32) (harg3 : arg3.IsWhole) (arg4 : Memref sig .tc .vmem S128x46 .f32) (harg4 : arg4.IsWhole) (arg5 : Memref sig .tc .vmem S46 .f32) (harg5 : arg5.IsWhole) (arg6 : Memref sig .tc .vmem S64x3 .f32) (harg6 : arg6.IsWhole) (arg7 : Memref sig .tc .vmem S64x2048 .f32) (harg7 : arg7.IsWhole) (arg8 : Memref sig .tc .vmem S64x64 .f32) (harg8 : arg8.IsWhole) (hc0 : cond0_0 i) (hc1 : ¬cond0_1 i)
    (x0 : Vec F S256x128 .f32) (x1 : Vec F S256x3 .f32) (x2 : Vec F S64x2048 .f32) (x3 : Vec F S128x46 .f32) (x4 : Vec F S46 .f32) (x5 : Vec F S64x3 .f32) :
    sout0_A_0 c i arg1 harg1 arg2 harg2 arg3 harg3 arg4 harg4 arg5 harg5 arg6 harg6 arg7 harg7 arg8 harg8 hc0 hc1 x0 x1 x2 x3 x4 x5
      = Body.scStep x0 x1 x3 x4 x5 (ohTile i x2) (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_run_names
  -- two whole-buffer stores, the later (the update) on top; the update's load of the accumulator reads the zeros stored first
  rw [View.canon_cons_unit_zero (S := S64x64) hz2]
  simp only [View.readAt_eq_ld, harg1.read_unread, harg2.read_unread, harg3.read_unread, harg4.read_unread, harg5.read_unread,
    harg6.read_unread, harg8.read_unread, View.readCov_unit_zero (S := S64x64) _ hz2,
    View.ld_unit_zero (S := S256x128) hz2, View.ld_unit_zero (S := S256x3) hz2, View.ld_unit_zero (S := S128x46) hz2,
    View.ld_unit_zero (S := S64x3) hz2, View.ld_unit_zero (S := S64x64) hz2, View.ld_unit_zero (S := S64x2048) hz2,
    View.ld_unit_zero (S := S46) hz1]
  rw [← ld_tile i x2 (k0_off1_inb i)]
  unfold Body.scStep Body.sCore Body.pCore5 Body.cfT
  rfl

/-- a middle point: what the point before left, updated by the tile's product -/
theorem sout_B (c : Dev nD) (i : grid0.Coords) (arg1 : Memref sig .tc .vmem S256x128 .f32) (harg1 : arg1.IsWhole) (arg2 : Memref sig .tc .vmem S256x3 .f32) (harg2 : arg2.IsWhole) (arg3 : Memref sig .tc .vmem S64x2048 .f32) (harg3 : arg3.IsWhole) (arg4 : Memref sig .tc .vmem S128x46 .f32) (harg4 : arg4.IsWhole) (arg5 : Memref sig .tc .vmem S46 .f32) (harg5 : arg5.IsWhole) (arg6 : Memref sig .tc .vmem S64x3 .f32) (harg6 : arg6.IsWhole) (arg7 : Memref sig .tc .vmem S64x2048 .f32) (harg7 : arg7.IsWhole) (arg8 : Memref sig .tc .vmem S64x64 .f32) (harg8 : arg8.IsWhole) (hc0 : ¬cond0_0 i) (hc1 : ¬cond0_1 i)
    (x0 : Vec F S256x128 .f32) (x1 : Vec F S256x3 .f32) (x2 : Vec F S64x2048 .f32) (x3 : Vec F S128x46 .f32) (x4 : Vec F S46 .f32) (x5 : Vec F S64x3 .f32) (xs0 : Vec F S64x64 .f32) :
    sout0_B_0 c i arg1 harg1 arg2 harg2 arg3 harg3 arg4 harg4 arg5 harg5 arg6 harg6 arg7 harg7 arg8 harg8 hc0 hc1 x0 x1 x2 x3 x4 x5 xs0
      = Body.scStep x0 x1 x3 x4 x5 (ohTile i x2) xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_run_names
  -- one whole-buffer store; every load but the tile's reads a whole block
  rw [View.canon_unit_zero hz2]
  simp only [View.readAt_eq_ld, harg1.read_unread, harg2.read_unread, harg3.read_unread, harg4.read_unread, harg5.read_unread,
    harg6.read_unread, harg8.read_unread, View.readCov_unit_zero (S := S64x64) _ hz2,
    View.ld_unit_zero (S := S256x128) hz2, View.ld_unit_zero (S := S256x3) hz2, View.ld_unit_zero (S := S128x46) hz2,
    View.ld_unit_zero (S := S64x3) hz2, View.ld_unit_zero (S := S64x64) hz2, View.ld_unit_zero (S := S64x2048) hz2,
    View.ld_unit_zero (S := S46) hz1]
  rw [← ld_tile i x2 (k0_off1_inb i)]
  unfold Body.scStep Body.sCore Body.pCore5 Body.cfT
  rfl

/-- the last point updates the accumulator as every point does -/
theorem sout_C (c : Dev nD) (i : grid0.Coords) (arg1 : Memref sig .tc .vmem S256x128 .f32) (harg1 : arg1.IsWhole) (arg2 : Memref sig .tc .vmem S256x3 .f32) (harg2 : arg2.IsWhole) (arg3 : Memref sig .tc .vmem S64x2048 .f32) (harg3 : arg3.IsWhole) (arg4 : Memref sig .tc .vmem S128x46 .f32) (harg4 : arg4.IsWhole) (arg5 : Memref sig .tc .vmem S46 .f32) (harg5 : arg5.IsWhole) (arg6 : Memref sig .tc .vmem S64x3 .f32) (harg6 : arg6.IsWhole) (arg7 : Memref sig .tc .vmem S64x2048 .f32) (harg7 : arg7.IsWhole) (arg8 : Memref sig .tc .vmem S64x64 .f32) (harg8 : arg8.IsWhole) (hc0 : ¬cond0_0 i) (hc1 : cond0_1 i)
    (x0 : Vec F S256x128 .f32) (x1 : Vec F S256x3 .f32) (x2 : Vec F S64x2048 .f32) (x3 : Vec F S128x46 .f32) (x4 : Vec F S46 .f32) (x5 : Vec F S64x3 .f32) (xs0 : Vec F S64x64 .f32) :
    sout0_C_0 c i arg1 harg1 arg2 harg2 arg3 harg3 arg4 harg4 arg5 harg5 arg6 harg6 arg7 harg7 arg8 harg8 hc0 hc1 x0 x1 x2 x3 x4 x5 xs0
      = Body.scStep x0 x1 x3 x4 x5 (ohTile i x2) xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_run_names
  rw [View.canon_unit_zero hz2]
  simp only [View.readAt_eq_ld, harg1.read_unread, harg2.read_unread, harg3.read_unread, harg4.read_unread, harg5.read_unread,
    harg6.read_unread, harg8.read_unread, View.readCov_unit_zero (S := S64x64) _ hz2,
    View.ld_unit_zero (S := S256x128) hz2, View.ld_unit_zero (S := S256x3) hz2, View.ld_unit_zero (S := S128x46) hz2,
    View.ld_unit_zero (S := S64x3) hz2, View.ld_unit_zero (S := S64x64) hz2, View.ld_unit_zero (S := S64x2048) hz2,
    View.ld_unit_zero (S := S46) hz1]
  rw [← ld_tile i x2 (k0_off1_inb i)]
  unfold Body.scStep Body.sCore Body.pCore5 Body.cfT
  rfl

/-- the last point's output: the updated accumulator times the whole indicator -/
theorem out_C (c : Dev nD) (i : grid0.Coords) (arg1 : Memref sig .tc .vmem S256x128 .f32) (harg1 : arg1.IsWhole) (arg2 : Memref sig .tc .vmem S256x3 .f32) (harg2 : arg2.IsWhole) (arg3 : Memref sig .tc .vmem S64x2048 .f32) (harg3 : arg3.IsWhole) (arg4 : Memref sig .tc .vmem S128x46 .f32) (harg4 : arg4.IsWhole) (arg5 : Memref sig .tc .vmem S46 .f32) (harg5 : arg5.IsWhole) (arg6 : Memref sig .tc .vmem S64x3 .f32) (harg6 : arg6.IsWhole) (arg7 : Memref sig .tc .vmem S64x2048 .f32) (harg7 : arg7.IsWhole) (arg8 : Memref sig .tc .vmem S64x64 .f32) (harg8 : arg8.IsWhole) (hc0 : ¬cond0_0 i) (hc1 : cond0_1 i)
    (x0 : Vec F S256x128 .f32) (x1 : Vec F S256x3 .f32) (x2 : Vec F S64x2048 .f32) (x3 : Vec F S128x46 .f32) (x4 : Vec F S46 .f32) (x5 : Vec F S64x3 .f32) (xs0 : Vec F S64x64 .f32) :
    out0_C_6 c i arg1 harg1 arg2 harg2 arg3 harg3 arg4 harg4 arg5 harg5 arg6 harg6 arg7 harg7 arg8 harg8 hc0 hc1 x0 x1 x2 x3 x4 x5 xs0
      = Body.outStep (Body.scStep x0 x1 x3 x4 x5 (ohTile i x2) xs0) x2 := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_run_names
  -- one whole-buffer store into the output; its accumulator operand is the load of what the update just stored
  rw [View.canon_unit_zero hz2]
  simp only [View.readAt_eq_ld, harg1.read_unread, harg2.read_unread, harg3.read_unread, harg4.read_unread, harg5.read_unread,
    harg6.read_unread, harg8.read_unread, View.readCov_unit_zero (S := S64x64) _ hz2,
    View.ld_unit_zero (S := S256x128) hz2, View.ld_unit_zero (S := S256x3) hz2, View.ld_unit_zero (S := S128x46) hz2,
    View.ld_unit_zero (S := S64x3) hz2, View.ld_unit_zero (S := S64x64) hz2, View.ld_unit_zero (S := S64x2048) hz2,
    View.ld_unit_zero (S := S46) hz1]
  rw [← ld_tile i x2 (k0_off1_inb i)]
  unfold Body.outStep Body.scStep Body.sCore Body.pCore5 Body.cfT
  rfl

end Cert.KernelIdeal.Pieces

end
-- ==== Proof.IdxChain.lean ====
/-
  The atom → molecule index, as both programs compute it from the per-molecule counts `N` (jnp.repeat with a
  total length): the counts rolled by one with a zero in front, their running sum (the first atom of each
  molecule), negative starts wrapped by the length, a one scattered-and-added at each start, the running sum of
  those ones, minus one.  Whatever `N` holds, the first start is `0` and there are only 64 ones to add, so every
  running sum lies in `[1, 64]` and every index in `[0, 63]`: the bounds check of the `take` that follows never
  fails, the molecule id of atom `j` is that index, and the gathered centre is row `mol N j` of `coords`.
-/
import Idealize.ShloMosaic.PureOps.Ideal
import Idealize.ShloMosaic.Lib.ValueIdx

noncomputable section

namespace Cert.IdxChain

open Idealize.ShloMosaic Idealize.ShloMosaic.ValueIdx

abbrev S_ : Shape := ⟨0, ![]⟩
abbrev S1 : Shape := ⟨1, ![1]⟩
abbrev S63 : Shape := ⟨1, ![63]⟩
abbrev S64 : Shape := ⟨1, ![64]⟩
abbrev S2048 : Shape := ⟨1, ![2048]⟩
abbrev S64x1 : Shape := ⟨2, ![64, 1]⟩
abbrev S1x1 : Shape := ⟨2, ![1, 1]⟩
abbrev S2048x1 : Shape := ⟨2, ![2048, 1]⟩
abbrev S1x2048 : Shape := ⟨2, ![1, 2048]⟩
abbrev S64x2048 : Shape := ⟨2, ![64, 2048]⟩
abbrev S64x3 : Shape := ⟨2, ![64, 3]⟩
abbrev S2048x3 : Shape := ⟨2, ![2048, 3]⟩

/-! ## The shape facts the operations take (each decided) -/
theorem slices_S64_S1_63 : S64.Slices ![63] S1 := by decide
theorem slices_S64_S63_0 : S64.Slices ![0] S63 := by decide
theorem concatenates_S1_S63_S64_d0 : Shape.Concatenates [S1, S63] S64 0 := by decide
theorem bcast_S_S1 : S_.BroadcastsInDim S1 (![] : Fin 0 → Fin S1.rank) := by decide
theorem bcast_S_S_ : S_.BroadcastsInDim S_ (![] : Fin 0 → Fin S_.rank) := by decide
theorem reduceWindows_S64 : S64.ReduceWindows (![64] : Fin 1 → Nat) ![1] ![63] ![0] S64 := by decide
theorem h_S_ : 0 < S_.numel := by decide
theorem bcast_S_S2048 : S_.BroadcastsInDim S2048 (![] : Fin 0 → Fin S2048.rank) := by decide
theorem bcast_S_S64 : S_.BroadcastsInDim S64 (![] : Fin 0 → Fin S64.rank) := by decide
theorem bcast_S64_S64x1_0 : S64.BroadcastsInDim S64x1 (![0] : Fin 1 → Fin S64x1.rank) := by decide
theorem reduceWindows_S2048 : S2048.ReduceWindows (![2048] : Fin 1 → Nat) ![1] ![2047] ![0] S2048 := by decide
theorem bcast_S2048_S2048x1_0 : S2048.BroadcastsInDim S2048x1 (![0] : Fin 1 → Fin S2048x1.rank) := by decide
theorem bcast_S_S2048x1 : S_.BroadcastsInDim S2048x1 (![] : Fin 0 → Fin S2048x1.rank) := by decide
theorem bcast_S1_S1x1_1 : S1.BroadcastsInDim S1x1 (![1] : Fin 1 → Fin S1x1.rank) := by decide
theorem bcast_S1x1_S2048x1_0_1 : S1x1.BroadcastsInDim S2048x1 (![0, 1] : Fin 2 → Fin S2048x1.rank) := by decide
theorem reducesTo_S2048x1_S2048_d1 : S2048x1.ReducesTo [1] S2048 := by decide
theorem bcast_S2048_S2048x3_0 : S2048.BroadcastsInDim S2048x3 (![0] : Fin 1 → Fin S2048x3.rank) := by decide
theorem bcast_S_S2048x3 : S_.BroadcastsInDim S2048x3 (![] : Fin 0 → Fin S2048x3.rank) := by decide
theorem bcast_S2048_S1x2048_1 : S2048.BroadcastsInDim S1x2048 (![1] : Fin 1 → Fin S1x2048.rank) := by decide
theorem bcast_S1x2048_S64x2048_0_1 : S1x2048.BroadcastsInDim S64x2048 (![0, 1] : Fin 2 → Fin S64x2048.rank) := by decide
theorem bcast_S64x1_S64x2048_0_1 : S64x1.BroadcastsInDim S64x2048 (![0, 1] : Fin 2 → Fin S64x2048.rank) := by decide
theorem scatSet_wf : ScatterDims.WF S64 S1 S_ [] [0] [0] 0 := by decide
theorem scatAdd_wf : ScatterDims.WF S2048 S64x1 S64 [] [0] [0] 1 := by decide
theorem gathI_wf : GatherDims.WF S64 S2048x1 S2048 [] [0] [] [0] [] 1 ![1] := by decide
theorem gathF_wf : GatherDims.WF S64x3 S2048x1 S2048x3 [1] [0] [] [0] [] 1 ![1, 3] := by decide

/-- one scalar written at one start index (`x.at[0].set(0)`) -/
def scatSet : ScatterDims S64 S1 S_ where
  updateWindowDims := []
  insertedWindowDims := [0]
  scatterDimsToOperandDims := [0]
  indexVectorDim := 0
  wf := scatSet_wf
/-- 64 scalars added at 64 start indices (`zeros.at[starts].add(1)`) -/
def scatAdd : ScatterDims S2048 S64x1 S64 where
  updateWindowDims := []
  insertedWindowDims := [0]
  scatterDimsToOperandDims := [0]
  indexVectorDim := 1
  wf := scatAdd_wf
/-- a `take` of scalars along axis 0 -/
def gathI : GatherDims S64 S2048x1 S2048 where
  offsetDims := []
  collapsedSliceDims := [0]
  operandBatchingDims := []
  startIndicesBatchingDims := []
  startIndexMap := [0]
  indexVectorDim := 1
  sliceSizes := ![1]
  wf := gathI_wf
/-- a `take` of rows of three along axis 0 -/
def gathF : GatherDims S64x3 S2048x1 S2048x3 where
  offsetDims := [1]
  collapsedSliceDims := [0]
  operandBatchingDims := []
  startIndicesBatchingDims := []
  startIndexMap := [0]
  indexVectorDim := 1
  sliceSizes := ![1, 3]
  wf := gathF_wf

variable {F : FTy → Type} [FloatOps F]

/-! ## The chain, operation by operation -/

/-- the counts rolled by one place, then a zero written in front: the atoms before each molecule, one molecule late -/
def excl (N : IVec S64 32) : IVec S64 32 :=
  Host.scatter scatSet (fun _ b => b)
    (concatenate S64 0 [⟨S1, extractStridedSlice S1 ![63] N slices_S64_S1_63⟩, ⟨S63, extractStridedSlice S63 ![0] N slices_S64_S63_0⟩] concatenates_S1_S63_S64_d0)
    (broadcastInDim S1 ![] bcast_S_S1 (constantI S_ 32 0#32)) (constantI S_ 32 0#32)

/-- the running sum of `excl`: where each molecule's atoms start -/
def starts (N : IVec S64 32) : IVec S64 32 :=
  Host.reduceWindow IntOp.addi ![64] ![1] ![63] ![0] (excl N) (broadcastInDim S_ ![] bcast_S_S_ (constantI S_ 32 0#32)) reduceWindows_S64 h_S_

/-- a negative start wrapped round by the length -/
def startsW (N : IVec S64 32) : IVec S64 32 :=
  select (cmpi .slt (starts N) (broadcastInDim S64 ![] bcast_S_S64 (constantI S_ 32 0#32)))
    (addi (starts N) (broadcastInDim S64 ![] bcast_S_S64 (constantI S_ 32 2048#32))) (starts N)

/-- a one added at every start that falls inside the 2048 atoms -/
def marks (N : IVec S64 32) : IVec S2048 32 :=
  Host.scatter scatAdd IntOp.addi (broadcastInDim S2048 ![] bcast_S_S2048 (constantI S_ 32 0#32))
    (broadcastInDim S64x1 ![0] bcast_S64_S64x1_0 (startsW N)) (broadcastInDim S64 ![] bcast_S_S64 (constantI S_ 32 1#32))

/-- the running sum of the marks, minus one: the index `jnp.repeat` gathers with -/
def gIdx (N : IVec S64 32) : IVec S2048 32 :=
  subi (Host.reduceWindow IntOp.addi ![2048] ![1] ![2047] ![0] (marks N) (broadcastInDim S_ ![] bcast_S_S_ (constantI S_ 32 0#32)) reduceWindows_S2048 h_S_)
    (broadcastInDim S2048 ![] bcast_S_S2048 (constantI S_ 32 1#32))

/-- `take`'s index: a negative one wrapped round by 64, as a column -/
def takeIdx (g : IVec S2048 32) : IVec S2048x1 32 :=
  broadcastInDim S2048x1 ![0] bcast_S2048_S2048x1_0
    (select (cmpi .slt g (broadcastInDim S2048 ![] bcast_S_S2048 (constantI S_ 32 0#32)))
      (addi g (broadcastInDim S2048 ![] bcast_S_S2048 (constantI S_ 32 64#32))) g)

/-- `take`'s bounds check `0 ≤ index ≤ 63` -/
def takeOk (g : IVec S2048 32) : IVec S2048 1 :=
  Host.reduce IntOp.andi
    (andi (cmpi .sge (takeIdx g) (broadcastInDim S2048x1 ![] bcast_S_S2048x1 (constantI S_ 32 0#32)))
      (cmpi .sle (takeIdx g) (broadcastInDim S2048x1 ![0, 1] bcast_S1x1_S2048x1_0_1 (broadcastInDim S1x1 ![1] bcast_S1_S1x1_1 (constantI S1 32 63#32)))))
    (constantI S_ 1 1#1) reducesTo_S2048x1_S2048_d1 h_S_

/-- the molecule id of every atom: `take(arange(64), gIdx)` with the integer fill value where the check fails -/
def molVec (N : IVec S64 32) : IVec S2048 32 :=
  select (takeOk (gIdx N)) (Host.gather gathI (iotaInDim S64 32 0) (takeIdx (gIdx N)))
    (broadcastInDim S2048 ![] bcast_S_S2048 (constantI S_ 32 2147483648#32))

/-- every atom's molecule centre: `take(coords, gIdx, axis=0)` with the float fill value where the check fails -/
def coordsA (N : IVec S64 32) (coords : FVec F S64x3 .f32) : FVec F S2048x3 .f32 :=
  select (broadcastInDim S2048x3 ![0] bcast_S2048_S2048x3_0 (takeOk (gIdx N))) (Host.gather gathF coords (takeIdx (gIdx N)))
    (broadcastInDim S2048x3 ![] bcast_S_S2048x3 (constant S_ .f32 0x7FC00000#32))

/-- the 0/1 indicator `[molecule of atom j = m]` the kernel's program builds on the host -/
def onehot (N : IVec S64 32) : FVec F S64x2048 .f32 :=
  uitofp .f32 (cmpi .eq
    (broadcastInDim S64x2048 ![0, 1] bcast_S1x2048_S64x2048_0_1 (broadcastInDim S1x2048 ![1] bcast_S2048_S1x2048_1 (molVec N)))
    (broadcastInDim S64x2048 ![0, 1] bcast_S64x1_S64x2048_0_1 (broadcastInDim S64x1 ![0] bcast_S64_S64x1_0 (iotaInDim S64 32 0))))

end Cert.IdxChain

end
-- ==== Proof.KerGlue.lean ====
/-
  The kernel program's host prefix: the 0/1 indicator of "atom j belongs to molecule m" that it hands the kernel is the
  index chain's.  The prefix is the chain from the per-molecule counts (the counts rolled by one place with a zero in
  front; their running sum, a negative one wrapped round, a one scattered-and-added at each; the running sum of the
  ones, minus one; the bounds-checked take of the range 0 … 63), then the comparison of every atom's molecule id
  with every molecule's number, converted to a float.  It is taken stretch by stretch, each from ANY contents of the
  buffers it reads.
-/
import proofs.«125921_j43465069035926_1_alg».proof.Proof.Gen.KernelIdeal.Frame.Runs
import proofs.«125921_j43465069035926_1_alg».proof.Proof.IdxChain
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- the running sum of 64 integers -/
def startsOf (e : IVec S64 32) : IVec S64 32 :=
  Host.reduceWindow IntOp.addi ![64] ![1] ![63] ![0] e (broadcastInDim S_ ![] bcast_S_S_ (constantI S_ 32 0#32)) reduceWindows_S64_S64_w64s1p63_0 h_S_

/-- from the rolled counts with a zero in front: their running sum, a negative one wrapped round by 2048, a one added at each -/
def marksOf (e : IVec S64 32) : IVec S2048 32 :=
  Host.scatter scatter_S2048_S64x1_S64_n_0_0_1 IntOp.addi (broadcastInDim S2048 ![] bcast_S_S2048 (constantI S_ 32 0#32))
    (broadcastInDim S64x1 ![0] bcast_S64_S64x1_0
      (select (cmpi .slt (startsOf e) (broadcastInDim S64 ![] bcast_S_S64 (constantI S_ 32 0#32)))
        (addi (startsOf e) (broadcastInDim S64 ![] bcast_S_S64 (constantI S_ 32 2048#32))) (startsOf e)))
    (broadcastInDim S64 ![] bcast_S_S64 (constantI S_ 32 1#32))

/-- the running sum of 2048 integers, minus one -/
def gIdxOf (mk : IVec S2048 32) : IVec S2048 32 :=
  subi (Host.reduceWindow IntOp.addi ![2048] ![1] ![2047] ![0] mk (broadcastInDim S_ ![] bcast_S_S_ (constantI S_ 32 0#32)) reduceWindows_S2048_S2048_w2048s1p2047_0 h_S_)
    (broadcastInDim S2048 ![] bcast_S_S2048 (constantI S_ 32 1#32))

attribute [local irreducible] Host.scatter Host.gather Host.reduce Host.reduceWindow concatenate in
set_option maxRecDepth 16384 in
/-- the three running-sum stages composed are the index chain's -/
theorem gIdxOf_marksOf_excl (N : IVec S64 32) : gIdxOf (marksOf (Cert.IdxChain.excl N)) = Cert.IdxChain.gIdx N := rfl

/-! ## What a stretch leaves in a buffer -/

theorem S0_v0 (W : Valuation τ sig (Elt F)) : after hostOps0 W (main_v0 : DevRef τ sig) = iotaInDim S64 32 0 := by
  after_results_simp

theorem S0_arg4 (W : Valuation τ sig (Elt F)) : after hostOps0 W (main_arg4 : DevRef τ sig) = W (main_arg4 : DevRef τ sig) := by
  after_results_simp

attribute [local irreducible] Host.scatter Host.gather Host.reduce Host.reduceWindow concatenate in
set_option maxRecDepth 16384 in
theorem S12_v3 (W : Valuation τ sig (Elt F)) :
    after hostOps0_2 (after hostOps0_1 W) (main_v3 : DevRef τ sig) = Cert.IdxChain.excl (W (main_arg4 : DevRef τ sig)) := by
  after_results
  rfl

attribute [local irreducible] Host.scatter Host.gather Host.reduce Host.reduceWindow concatenate in
set_option maxRecDepth 16384 in
theorem S34_v13 (W : Valuation τ sig (Elt F)) :
    after hostOps0_4 (after hostOps0_3 W) (main_v13 : DevRef τ sig) = marksOf (W (main_v3 : DevRef τ sig)) := by
  after_results_simp
  rfl

attribute [local irreducible] Host.scatter Host.gather Host.reduce Host.reduceWindow concatenate in
set_option maxRecDepth 16384 in
theorem S56_v16 (W : Valuation τ sig (Elt F)) :
    after hostOps0_6 (after hostOps0_5 W) (main_v16 : DevRef τ sig) = gIdxOf (W (main_v13 : DevRef τ sig)) := by
  after_results_simp
  rfl

attribute [local irreducible] Host.scatter Host.gather Host.reduce Host.reduceWindow concatenate in
set_option maxRecDepth 16384 in
theorem S7_v17 (W : Valuation τ sig (Elt F)) :
    after hostOps0_7 W (main_v17 : DevRef τ sig)
      = select (Cert.IdxChain.takeOk (W (main_v16 : DevRef τ sig)))
          (Host.gather Cert.IdxChain.gathI (W (main_v0 : DevRef τ sig)) (Cert.IdxChain.takeIdx (W (main_v16 : DevRef τ sig))))
          (broadcastInDim S2048 ![] bcast_S_S2048 (constantI S_ 32 2147483648#32)) := by
  after_results_simp
  rfl

theorem S8_v24 (W : Valuation τ sig (Elt F)) :
    after hostOps0_8 W (main_v24 : DevRef τ sig)
      = uitofp .f32 (cmpi .eq
          (broadcastInDim S64x2048 ![0, 1] bcast_S1x2048_S64x2048_0_1 (broadcastInDim S1x2048 ![1] bcast_S2048_S1x2048_1 (W (main_v17 : DevRef τ sig))))
          (broadcastInDim S64x2048 ![0, 1] bcast_S64x1_S64x2048_0_1 (broadcastInDim S64x1 ![0] bcast_S64_S64x1_0 (iotaInDim S64 32 0)))) := by
  after_results_simp <;> rfl

set_option maxRecDepth 16384 in
/-- the range 0 … 63 is not written between its definition and the take -/
theorem S16_v0 (W : Valuation τ sig (Elt F)) :
    after hostOps0_6 (after hostOps0_5 (after hostOps0_4 (after hostOps0_3 (after hostOps0_2 (after hostOps0_1 W))))) (main_v0 : DevRef τ sig)
      = W (main_v0 : DevRef τ sig) := by
  after_results_simp

/-! ## The indicator the kernel is handed -/

variable (m : (ℓ : Loc nD τ sig) → Buf (Elt F) ℓ)

/-- The buffer the kernel reads as its one-hot operand holds the index chain's indicator of the launch's counts. -/
theorem V_onehot (c : Dev nD) : (V m c main_v24 : Vec F S64x2048 .f32) = Cert.IdxChain.onehot (m ((c : Thread nD τ).loc main_arg4)) := by
  simp only [V, List.flatten_cons, List.flatten_nil, List.append_nil, after_append]
  rw [S8_v24, S7_v17, S56_v16, S34_v13, S12_v3, S16_v0, S0_v0, S0_arg4, gIdxOf_marksOf_excl]
  rfl

end Cert.KernelIdeal.Glue

end
-- ==== Proof.KerFold.lean ====
/-
  The kernel's run, read back: the region finds the indicator the host built, each point's input blocks are the
  rows (or, for the indicator's tile, the columns) `256 t … 256 t + 255` of their arrays, the accumulator after point
  `n` is the fold of the eight updates from zeros, and the only block written back — at the last point, the whole
  output — is the accumulator times the indicator.
-/
import proofs.«125921_j43465069035926_1_alg».proof.Proof.Gen.KernelIdeal.Value
import proofs.«125921_j43465069035926_1_alg».proof.Proof.KerPieces
import proofs.«125921_j43465069035926_1_alg».proof.Proof.IdxChain
import proofs.«125921_j43465069035926_1_alg».proof.Proof.KerGlue

set_option maxRecDepth 16384

noncomputable section

namespace Cert.KernelIdeal.Fold

open Cert.KernelIdeal Cert.KernelIdeal.Gen Cert.KernelIdeal.Value Idealize.ShloMosaic Idealize.ShloMosaic.ValueIdx Idealize.ShloMosaic.TcCoe Idealize.SL.Sem

variable {F : FTy → Type} [FloatOps F]
variable (m : (ℓ : Loc nD τ sig) → Buf (Elt F) ℓ) (ρ : Dev nD → PrngReg)

/-- the indicator the region finds is the index chain's, of the counts -/
theorem V_onehot (c : Dev nD) :
    (V m c main_v24 : Vec F S64x2048 .f32) = Cert.IdxChain.onehot (m ((c : Thread nD τ).loc main_arg4)) :=
  Cert.KernelIdeal.Glue.V_onehot m c

/-! ## The index maps at the eight points -/

theorem wix0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem wix1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem wix2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem wix3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem wix4 : ∀ t : Fin cfg0.N, win0_4.index t (0 : Fin 1) = 0 :=
  (by decide +kernel : ∀ t : Fin grid0.N, win0_4.index t (0 : Fin 1) = 0)
theorem wix5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem wix6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-! ## The blocks the points find -/

/-- window 0's block at point `t` is rows `256 t … 256 t + 255` of its array -/
theorem blk0_eq (c : Dev nD) (t : Fin cfg0.N) : (iblk m c 0 t : Vec F S256x128 .f32) = Body.rowsT t.val (V m c main_arg0) := by
  have ht : t.val < 8 := lt_of_lt_of_eq t.isLt N_0
  funext y
  have hy : (y 0).val < 256 := (y 0).isLt
  unfold iblk Body.rowsT
  rw [View.read_apply]
  show V m c main_arg0 _ = V m c main_arg0 _
  congr 1
  funext a
  apply Fin.ext
  match a with
  | ⟨0, _⟩ => show win0_0.index t (0 : Fin 2) * 256 + 1 * (y 0).val = (256 * t.val + (y 0).val) % 2048; rw [(wix0 t).1]; omega
  | ⟨1, _⟩ => show win0_0.index t (1 : Fin 2) * 128 + 1 * (y 1).val = (y 1).val; rw [(wix0 t).2]; omega

/-- window 1's block at point `t` is rows `256 t … 256 t + 255` of its array -/
theorem blk1_eq (c : Dev nD) (t : Fin cfg0.N) : (iblk m c 1 t : Vec F S256x3 .f32) = Body.rowsT t.val (V m c main_arg2) := by
  have ht : t.val < 8 := lt_of_lt_of_eq t.isLt N_0
  funext y
  have hy : (y 0).val < 256 := (y 0).isLt
  unfold iblk Body.rowsT
  rw [View.read_apply]
  show V m c main_arg2 _ = V m c main_arg2 _
  congr 1
  funext a
  apply Fin.ext
  match a with
  | ⟨0, _⟩ => show win0_1.index t (0 : Fin 2) * 256 + 1 * (y 0).val = (256 * t.val + (y 0).val) % 2048; rw [(wix1 t).1]; omega
  | ⟨1, _⟩ => show win0_1.index t (1 : Fin 2) * 3 + 1 * (y 1).val = (y 1).val; rw [(wix1 t).2]; omega

/-- window 2's block is its whole array at every point -/
theorem blk2_eq (c : Dev nD) (t : Fin cfg0.N) : (iblk m c 2 t : Vec F S64x2048 .f32) = V m c main_v24 := by
  funext y
  unfold iblk
  rw [View.read_apply]
  show V m c main_v24 _ = V m c main_v24 y
  congr 1
  funext a
  apply Fin.ext
  match a with
  | ⟨0, _⟩ => show win0_2.index t (0 : Fin 2) * 64 + 1 * (y 0).val = (y 0).val; rw [(wix2 t).1]; omega
  | ⟨1, _⟩ => show win0_2.index t (1 : Fin 2) * 2048 + 1 * (y 1).val = (y 1).val; rw [(wix2 t).2]; omega

/-- window 3's block is its whole array at every point -/
theorem blk3_eq (c : Dev nD) (t : Fin cfg0.N) : (iblk m c 3 t : Vec F S128x46 .f32) = V m c main_arg5 := by
  funext y
  unfold iblk
  rw [View.read_apply]
  show V m c main_arg5 _ = V m c main_arg5 y
  congr 1
  funext a
  apply Fin.ext
  match a with
  | ⟨0, _⟩ => show win0_3.index t (0 : Fin 2) * 128 + 1 * (y 0).val = (y 0).val; rw [(wix3 t).1]; omega
  | ⟨1, _⟩ => show win0_3.index t (1 : Fin 2) * 46 + 1 * (y 1).val = (y 1).val; rw [(wix3 t).2]; omega

/-- window 4's block is its whole array at every point -/
theorem blk4_eq (c : Dev nD) (t : Fin cfg0.N) : (iblk m c 4 t : Vec F S46 .f32) = V m c main_arg6 := by
  funext y
  unfold iblk
  rw [View.read_apply]
  show V m c main_arg6 _ = V m c main_arg6 y
  congr 1
  funext a
  apply Fin.ext
  match a with
  | ⟨0, _⟩ => show win0_4.index t (0 : Fin 1) * 46 + 1 * (y 0).val = (y 0).val; rw [(wix4 t)]; omega

/-- window 5's block is its whole array at every point -/
theorem blk5_eq (c : Dev nD) (t : Fin cfg0.N) : (iblk m c 5 t : Vec F S64x3 .f32) = V m c main_arg3 := by
  funext y
  unfold iblk
  rw [View.read_apply]
  show V m c main_arg3 _ = V m c main_arg3 y
  congr 1
  funext a
  apply Fin.ext
  match a with
  | ⟨0, _⟩ => show win0_5.index t (0 : Fin 2) * 64 + 1 * (y 0).val = (y 0).val; rw [(wix5 t).1]; omega
  | ⟨1, _⟩ => show win0_5.index t (1 : Fin 2) * 3 + 1 * (y 1).val = (y 1).val; rw [(wix5 t).2]; omega

/-! ## One point's update, and the fold -/

/-- one point's update of the accumulator, over the blocks the point finds -/
def stepAt (c : Dev nD) (t : Fin cfg0.N) (acc : Vec F S64x64 .f32) : Vec F S64x64 .f32 :=
  Body.scStep (iblk m c 0 t) (iblk m c 1 t) (iblk m c 3 t) (iblk m c 4 t) (iblk m c 5 t)
    (Pieces.ohTile (grid0.coords t) (iblk m c 2 t)) acc

/-- … is the update over the rows and the columns `256 t … 256 t + 255` of the arrays -/
theorem stepAt_eq (c : Dev nD) (t : Fin cfg0.N) (acc : Vec F S64x64 .f32) :
    stepAt m c t acc = Body.scStep (Body.rowsT t.val (V m c main_arg0)) (Body.rowsT t.val (V m c main_arg2))
      (V m c main_arg5) (V m c main_arg6) (V m c main_arg3) (Body.colsT t.val (V m c main_v24)) acc := by
  unfold stepAt
  rw [blk0_eq m c t, blk1_eq m c t, blk2_eq m c t, blk3_eq m c t, blk4_eq m c t, blk5_eq m c t, Pieces.ohTile_coords]

/-- the first point leaves the update of zeros -/
theorem snd_A (c : Dev nD) (t : Fin cfg0.N) (h0 : t.val % 8 = 0) (h1 : ¬t.val % 8 = 7) :
    (outsAt0 m c t.val t.isLt).2 = stepAt m c t (k0_pay1 (F := F)) := by
  rw [outsAt0_A m c t h0 h1]
  dsimp only
  exact Pieces.sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- a middle point leaves the update of what the point before left -/
theorem snd_B (c : Dev nD) (t : Fin cfg0.N) (h0 : ¬t.val % 8 = 0) (h1 : ¬t.val % 8 = 7) :
    (outsAt0 m c t.val t.isLt).2 = stepAt m c t (outsAt0 m c (t.val - 1) (Nat.lt_of_le_of_lt (Nat.sub_le _ _) t.isLt)).2 := by
  rw [outsAt0_B m c t h0 h1]
  dsimp only
  exact Pieces.sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- and so does the last point -/
theorem snd_C (c : Dev nD) (t : Fin cfg0.N) (h0 : ¬t.val % 8 = 0) (h1 : t.val % 8 = 7) :
    (outsAt0 m c t.val t.isLt).2 = stepAt m c t (outsAt0 m c (t.val - 1) (Nat.lt_of_le_of_lt (Nat.sub_le _ _) t.isLt)).2 := by
  rw [outsAt0_C m c t h0 h1]
  dsimp only
  exact Pieces.sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- the accumulator after point `n` is the fold of the updates from zeros -/
theorem sc_eq (c : Dev nD) : ∀ (n : ℕ) (hn : n < cfg0.N),
    (outsAt0 m c n hn).2 = Body.scAfter (V m c main_arg0) (V m c main_arg2) (V m c main_v24) (V m c main_arg5) (V m c main_arg6) (V m c main_arg3) n
  | 0, hn => (snd_A m c ⟨0, hn⟩ rfl (by show ¬(0 % 8 = 7); decide)).trans (stepAt_eq m c ⟨0, hn⟩ _)
  | n + 1, hn => by
    have hN : n + 1 < 8 := lt_of_lt_of_eq hn N_0
    have ih := sc_eq c n (Nat.lt_of_succ_lt hn)
    have h0 : ¬(⟨n + 1, hn⟩ : Fin cfg0.N).val % 8 = 0 := by dsimp only; omega
    by_cases h1 : (⟨n + 1, hn⟩ : Fin cfg0.N).val % 8 = 7
    · refine (snd_C m c ⟨n + 1, hn⟩ h0 h1).trans ?_
      rw [stepAt_eq]
      show Body.scStep _ _ _ _ _ _ (outsAt0 m c n _).2 = _
      rw [ih]
      rfl
    · refine (snd_B m c ⟨n + 1, hn⟩ h0 h1).trans ?_
      rw [stepAt_eq]
      show Body.scStep _ _ _ _ _ _ (outsAt0 m c n _).2 = _
      rw [ih]
      rfl

/-! ## The output array -/

/-- the output as the body's function of the arrays the region finds -/
def G (c : Dev nD) : Vec F S64x2048 .f32 := Body.kerOut (V m c main_arg0) (V m c main_arg2) (V m c main_v24) (V m c main_arg5) (V m c main_arg6) (V m c main_arg3)

/-- a read through output window's block, the whole array at every point, is the array -/
theorem read6 (t : Fin cfg0.N) (X : Vec F S64x2048 .f32) :
    ((cfg0.win 6).blk t).view.read (Elt F) X = X := by
  funext y
  rw [View.read_apply]
  show X _ = X y
  congr 1
  funext a
  apply Fin.ext
  match a with
  | ⟨0, _⟩ => show win0_6.index t (0 : Fin 2) * 64 + 1 * (y 0).val = (y 0).val; rw [(wix6 t).1]; omega
  | ⟨1, _⟩ => show win0_6.index t (1 : Fin 2) * 2048 + 1 * (y 1).val = (y 1).val; rw [(wix6 t).2]; omega

/-- the one write-back, at the last point, writes the accumulator after it times the indicator -/
theorem flushed_eq (c : Dev nD) (t : Fin cfg0.N) (hf : (cfg0.win 6).flush t = true) :
    (dats m 0 c).flushed 6 t = ((cfg0.win 6).blk t).view.read (Elt F) (G m c) := by
  obtain ⟨n, hn⟩ := t
  have h1 : n % 8 = 7 := (flush0_6 ⟨n, hn⟩).mp hf
  have hN : n < 8 := lt_of_lt_of_eq hn N_0
  obtain rfl : n = 7 := by omega
  have h0 : ¬(⟨7, hn⟩ : Fin cfg0.N).val % 8 = 0 := by show ¬(7 % 8 = 0); decide
  have h1 : (⟨7, hn⟩ : Fin cfg0.N).val % 8 = 7 := rfl
  rw [read6, Value.flushed6_C m c ⟨7, hn⟩ h0 h1]
  rw [Pieces.out_C c (grid0.coords ⟨7, hn⟩) (ms0_0 ⟨7, hn⟩) (hs0_0 ⟨7, hn⟩) (ms0_1 ⟨7, hn⟩) (hs0_1 ⟨7, hn⟩) (ms0_2 ⟨7, hn⟩) (hs0_2 ⟨7, hn⟩) (ms0_3 ⟨7, hn⟩) (hs0_3 ⟨7, hn⟩) (ms0_4 ⟨7, hn⟩) (hs0_4 ⟨7, hn⟩) (ms0_5 ⟨7, hn⟩) (hs0_5 ⟨7, hn⟩) (ms0_6 ⟨7, hn⟩) (hs0_6 ⟨7, hn⟩) scM0_0 (Memref.isWhole_whole _) (fun h => h0 ((hcond0_0 ⟨7, hn⟩).mp h)) ((hcond0_1 ⟨7, hn⟩).mpr h1) (iblk m c 0 ⟨7, hn⟩) (iblk m c 1 ⟨7, hn⟩) (iblk m c 2 ⟨7, hn⟩) (iblk m c 3 ⟨7, hn⟩) (iblk m c 4 ⟨7, hn⟩) (iblk m c 5 ⟨7, hn⟩) (outsAt0 m c ((⟨7, hn⟩ : Fin cfg0.N).val - 1) (Nat.lt_of_le_of_lt (Nat.sub_le _ _) (⟨7, hn⟩ : Fin cfg0.N).isLt)).2]
  have e1 := (snd_C m c ⟨7, hn⟩ h0 h1).symm.trans (sc_eq m c 7 hn)
  unfold stepAt at e1
  rw [e1, blk2_eq m c ⟨7, hn⟩]
  rfl

/-- the last point -/
abbrev t7 : Fin cfg0.N := ⟨7, by decide⟩

/-- so the output array ends holding it: the last point's block is the whole array -/
theorem final (c : Dev nD) : (dats m 0 c).arrAt 6 cfg0.N = G m c :=
  (dats m 0 c).arrAt_eq_of_cover 6 (G m c) (flushed_eq m c) fun i =>
    ⟨t7, (flush0_6 t7).mpr rfl, by
      show i ∈ ((View.whole main_v25).slice (win0_6.rect t7)).set
      rw [View.set_slice_whole, Rect.mem_set_unit]
      intro a
      have h0 : (i 0 : Nat) < 64 := (i 0).isLt
      have h1 : (i 1 : Nat) < 2048 := (i 1).isLt
      match a with
      | ⟨0, _⟩ =>
        show win0_6.index t7 (0 : Fin 2) * win0_6.size (0 : Fin 2) ≤ (i 0 : Nat) ∧ (i 0 : Nat) < win0_6.index t7 (0 : Fin 2) * win0_6.size (0 : Fin 2) + win0_6.xsize (grid0.coords t7) (0 : Fin 2)
        rw [show win0_6.index t7 (0 : Fin 2) * win0_6.size (0 : Fin 2) = 0 from by decide +kernel, show win0_6.xsize (grid0.coords t7) (0 : Fin 2) = 64 from by decide +kernel]; omega
      | ⟨1, _⟩ =>
        show win0_6.index t7 (1 : Fin 2) * win0_6.size (1 : Fin 2) ≤ (i 1 : Nat) ∧ (i 1 : Nat) < win0_6.index t7 (1 : Fin 2) * win0_6.size (1 : Fin 2) + win0_6.xsize (grid0.coords t7) (1 : Fin 2)
        rw [show win0_6.index t7 (1 : Fin 2) * win0_6.size (1 : Fin 2) = 0 from by decide +kernel, show win0_6.xsize (grid0.coords t7) (1 : Fin 2) = 2048 from by decide +kernel]; omega⟩

/-- the output over the arguments as launched: no host operation writes them, and the indicator is the index chain's -/
theorem G_eq (c : Dev nD) : G m c
    = Body.kerOut (m ((c : Thread nD τ).loc main_arg0)) (m ((c : Thread nD τ).loc main_arg2))
        (Cert.IdxChain.onehot (m ((c : Thread nD τ).loc main_arg4)))
        (m ((c : Thread nD τ).loc main_arg5)) (m ((c : Thread nD τ).loc main_arg6)) (m ((c : Thread nD τ).loc main_arg3)) := by
  unfold G
  rw [V_main_arg0 m c, V_main_arg2 m c, V_onehot m c, V_main_arg5 m c, V_main_arg6 m c, V_main_arg3 m c]

/-- the kernel's run with its result array named as the body's pure function of the arguments -/
theorem run : θ_run defs (onTc (τ := τ) (main (F := F))) ⟨m, fun _ => 0, ρ⟩ fun r => ∀ c : Dev nD,
      r.2.mem ((c : Thread nD τ).loc main_v25)
        = Body.kerOut (m ((c : Thread nD τ).loc main_arg0)) (m ((c : Thread nD τ).loc main_arg2))
            (Cert.IdxChain.onehot (m ((c : Thread nD τ).loc main_arg4)))
            (m ((c : Thread nD τ).loc main_arg5)) (m ((c : Thread nD τ).loc main_arg6)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (G_eq m c)), (h c).2⟩) (Value.run_blocks m ρ)

end Cert.KernelIdeal.Fold

end
-- ==== Proof.Spec.lean ====
/-
  What both programs compute, over the extended reals.

  Atom `i` has 46 coefficients `coef i c = (out · W) i c + b c`: eight s-type exponents (squared before use), eight
  s-type weights, six p-type exponents (squared), six p-type weights, and six direction vectors of three
  components.  For a position `r` and a centre `q` with difference `d = r − q`,

    sPart = ∑ s < 8, c_s · exp(−α_s² · |d|),      pPart = ∑ p < 6, (c_p · exp(−α_p² · |d|²)) · ∑ k < 3, v_{p,k} · |d_k|,

  and entry `(m, j)` of the result sums `sPart + pPart` over the atoms `i` of molecule `m`, each against the centre
  of the molecule of atom `j`.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- coefficient `c` of atom `i`: row `i` of `out · W`, plus the bias -/
def coef (out : (⟨2, ![2048, 128]⟩ : Shape).Idx → EReal) (W : (⟨2, ![128, 46]⟩ : Shape).Idx → EReal)
    (b : (⟨1, ![46]⟩ : Shape).Idx → EReal) (i : Fin 2048) (c : Fin 46) : EReal :=
  (∑ k : Fin 128, out (ix2 i k) * W (ix2 k c)) + b (ix1 c)

/-- the squared length of `r − q` -/
def dist2 (r q : Fin 3 → EReal) : EReal := ∑ k : Fin 3, (r k - q k) * (r k - q k)

/-- the s-type terms: weight times `exp` of minus the squared exponent times the distance -/
def sPart (cf : Fin 46 → EReal) (r q : Fin 3 → EReal) : EReal :=
  ∑ s : Fin 8, cf ⟨8 + s.val, by omega⟩ * Ideal.exp (-(cf ⟨s.val, by omega⟩ * cf ⟨s.val, by omega⟩) * Ideal.sqrt (dist2 r q))

/-- the p-type terms: a Gaussian in the squared distance times the direction vector against the absolute differences -/
def pPart (cf : Fin 46 → EReal) (r q : Fin 3 → EReal) : EReal :=
  ∑ p : Fin 6, (cf ⟨22 + p.val, by omega⟩ * Ideal.exp (-(cf ⟨16 + p.val, by omega⟩ * cf ⟨16 + p.val, by omega⟩) * dist2 r q))
    * ∑ k : Fin 3, cf ⟨28 + 3 * p.val + k.val, by omega⟩ * max (r k - q k) (-(r k - q k))

/-- one atom against one centre -/
def pair (cf : Fin 46 → EReal) (r q : Fin 3 → EReal) : EReal := sPart cf r q + pPart cf r q

/-- atom `i` (its coefficients and its position) against centre `g` -/
def atomCentre (out : (⟨2, ![2048, 128]⟩ : Shape).Idx → EReal) (W : (⟨2, ![128, 46]⟩ : Shape).Idx → EReal)
    (b : (⟨1, ![46]⟩ : Shape).Idx → EReal) (R : (⟨2, ![2048, 3]⟩ : Shape).Idx → EReal)
    (coords : (⟨2, ![64, 3]⟩ : Shape).Idx → EReal) (i : Fin 2048) (g : Fin 64) : EReal :=
  pair (coef out W b i) (fun k => R (ix2 i k)) (fun k => coords (ix2 g k))

/-- entry `(m, j)`: the atoms of molecule `m`, each against the centre of atom `j`'s molecule -/
def result (mol : Fin 2048 → Fin 64) (out : (⟨2, ![2048, 128]⟩ : Shape).Idx → EReal) (W : (⟨2, ![128, 46]⟩ : Shape).Idx → EReal)
    (b : (⟨1, ![46]⟩ : Shape).Idx → EReal) (R : (⟨2, ![2048, 3]⟩ : Shape).Idx → EReal)
    (coords : (⟨2, ![64, 3]⟩ : Shape).Idx → EReal) (m : Fin 64) (j : Fin 2048) : EReal :=
  ∑ i ∈ Finset.univ.filter (fun i : Fin 2048 => mol i = m), atomCentre out W b R coords i (mol j)

/-- the result as an array -/
def resultArr (mol : Fin 2048 → Fin 64) (out : (⟨2, ![2048, 128]⟩ : Shape).Idx → EReal) (W : (⟨2, ![128, 46]⟩ : Shape).Idx → EReal)
    (b : (⟨1, ![46]⟩ : Shape).Idx → EReal) (R : (⟨2, ![2048, 3]⟩ : Shape).Idx → EReal)
    (coords : (⟨2, ![64, 3]⟩ : Shape).Idx → EReal) : (⟨2, ![64, 2048]⟩ : Shape).Idx → EReal :=
  fun y => result mol out W b R coords (y 0) (y 1)

theorem resultArr_apply (mol : Fin 2048 → Fin 64) (out : (⟨2, ![2048, 128]⟩ : Shape).Idx → EReal) (W : (⟨2, ![128, 46]⟩ : Shape).Idx → EReal)
    (b : (⟨1, ![46]⟩ : Shape).Idx → EReal) (R : (⟨2, ![2048, 3]⟩ : Shape).Idx → EReal)
    (coords : (⟨2, ![64, 3]⟩ : Shape).Idx → EReal) (m : Fin 64) (j : Fin 2048) :
    resultArr mol out W b R coords (ix2 m j) = result mol out W b R coords m j := rfl

end Cert.Spec

end
-- ==== Proof.LibColumns.lean ====
/-
  Layout operations on COLUMNS and on blocks with two leading unit axes, read at an index given by coordinates.

  A reshape keeps every element at its row-major position.  So an [a, b] matrix viewed as [1, 1, a, b] (a block of a
  four-axis array cut to one matrix), or the other way round, keeps the entry (i, j) at (0, 0, i, j); and a vector of
  length a viewed as a column [a, 1] keeps entry i at (i, 0).  A column [a, 1] repeated along a second axis of extent b
  holds, at (p, c), the column's entry at (p, 0).  Each statement names both indices by their coordinates, so that it
  applies to an operation by unification.
-/
import Idealize.ShloMosaic.Lib.Pipeline.Value
import Idealize.ShloMosaic.Lib.ValueIdx

namespace Cert.LibColumns

open Idealize.ShloMosaic Idealize.ShloMosaic.ValueIdx

variable {α : Type}

/-- A [1, 1, a, b] array cast to [a, b] reads, at (i, j), the operand at (0, 0, i, j): the row-major positions
    ((0·1 + 0)·a + i)·b + j and i·b + j agree. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, w, i, j), the operand at (i, j), whatever the two unit
    coordinates (both are 0). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- An [a] vector cast to a column [a, 1] reads, at (i, u), the operand at i: the positions i and i·1 + 0 agree. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.KerPayL.lean ====
/-
  Reading tools for the body's arithmetic at an index, and the body's geometry.

  A column of a matrix cut out as an [a, 1] block, flattened to a vector and stood up as a column again, keeps entry
  (i, o) of the matrix on row i.  With these the differences of the tile's positions against the centres, the squared
  distance, the distance and the three absolute differences are read at (i', g) as the terms of the specification.
-/
import proofs.«125921_j43465069035926_1_alg».proof.Proof.Gen.KernelIdeal.Skeleton
import proofs.«125921_j43465069035926_1_alg».proof.Proof.Spec
import proofs.«125921_j43465069035926_1_alg».proof.Proof.LibColumns
import Idealize.ShloMosaic.Lib.ValueLayout
import Idealize.ShloMosaic.PureOps.Ideal.Laws
import Mathlib.Algebra.BigOperators.Fin

noncomputable section

namespace Cert.KernelIdeal.Payload

open Cert.KernelIdeal Cert.KernelIdeal.Gen Idealize.ShloMosaic Idealize.ShloMosaic.ValueIdx Cert.LibColumns

section cols
variable {α : Type}

/-- A column [a, 1] cast to a vector [a] reads, at i, the column's entry of row i: the positions i·1 + 0 and i agree. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The offset of a one-column slice lies inside the row. -/
theorem col_lt {a b o : ℕ} (h : (⟨2, ![a, b]⟩ : Shape).Slices ![0, o] ⟨2, ![a, 1]⟩) : o < b := by
  have h1 : o + 1 ≤ b := h.2 (1 : Fin 2)
  omega

/-- Column o of a matrix, cut out as an [a, 1] block, reads the matrix at (i, o). -/
theorem sliceCol_apply {a b : ℕ} (o : ℕ) (X : (⟨2, ![a, b]⟩ : Shape).Idx → α)
    (h : (⟨2, ![a, b]⟩ : Shape).Slices ![0, o] ⟨2, ![a, 1]⟩) (i : Fin a) (u : Fin 1) :
    extractStridedSlice ⟨2, ![a, 1]⟩ ![0, o] X h (ix2 i u) = X (ix2 i (⟨o, col_lt h⟩ : Fin b)) :=
  slice2_axis1_apply o X h i u ⟨o, col_lt h⟩ (by have := u.isLt; show o = o + u.val; omega)

end cols

section ops
variable {s : Shape} {φ : FTy}

/-- The square root, the exponential and the absolute value of a vector, read at an index. -/
theorem sqrt_apply (a : FVec Ideal s φ) (i : s.Idx) : sqrt a i = Ideal.sqrt (a i) := rfl
theorem exp_apply (a : FVec Ideal s φ) (i : s.Idx) : exp a i = Ideal.exp (a i) := rfl
theorem absf_apply (a : FVec Ideal s φ) (i : s.Idx) : absf a i = max (a i) (-(a i)) := rfl

/-- The zero word is the extended real 0. -/
theorem scalar_zero : (Scalar.ofBits .f32 0x00000000#32 : Ideal .f32) = 0 := Ideal.ofBits_zero_f32

end ops

/-! ## The geometry: differences, squared distance, distance, absolute differences -/

section geom
variable (x1 : Vec Ideal S256x3 .f32) (x5 : Vec Ideal S64x3 .f32) (i' : Fin 256) (g : Fin 64)

theorem pay3_apply : k0_pay3 (F := Ideal) x1 x5 (ix2 i' g) = x1 (ix2 i' (0 : Fin 3)) - x5 (ix2 g (0 : Fin 3)) := by
  unfold k0_pay3
  simp only [subf_apply, broadcastTo_a1_ab_apply, broadcastTo_1b_ab_apply, shapeCast_a_1a_apply, shapeCast_a1_a_apply, sliceCol_apply]
  rfl

theorem pay4_apply : k0_pay4 (F := Ideal) x1 x5 (ix2 i' g) = x1 (ix2 i' (1 : Fin 3)) - x5 (ix2 g (1 : Fin 3)) := by
  unfold k0_pay4
  simp only [subf_apply, broadcastTo_a1_ab_apply, broadcastTo_1b_ab_apply, shapeCast_a_1a_apply, shapeCast_a1_a_apply, sliceCol_apply]
  rfl

theorem pay5_apply : k0_pay5 (F := Ideal) x1 x5 (ix2 i' g) = x1 (ix2 i' (2 : Fin 3)) - x5 (ix2 g (2 : Fin 3)) := by
  unfold k0_pay5
  simp only [subf_apply, broadcastTo_a1_ab_apply, broadcastTo_1b_ab_apply, shapeCast_a_1a_apply, shapeCast_a1_a_apply, sliceCol_apply]
  rfl

/-- the squared distance of the tile's atom i' from centre g -/
theorem pay6_apply : k0_pay6 (F := Ideal) x1 x5 (ix2 i' g) = Cert.Spec.dist2 (fun k => x1 (ix2 i' k)) (fun k => x5 (ix2 g k)) := by
  unfold k0_pay6
  simp only [addf_apply, mulf_apply, pay3_apply, pay4_apply, pay5_apply]
  unfold Cert.Spec.dist2
  rw [Fin.sum_univ_three]

/-- the distance -/
theorem pay7_apply : k0_pay7 (F := Ideal) x1 x5 (ix2 i' g)
    = Ideal.sqrt (Cert.Spec.dist2 (fun k => x1 (ix2 i' k)) (fun k => x5 (ix2 g k))) := by
  unfold k0_pay7
  simp only [sqrt_apply, pay6_apply]

theorem pay8_apply : k0_pay8 (F := Ideal) x1 x5 (ix2 i' g)
    = max (x1 (ix2 i' (0 : Fin 3)) - x5 (ix2 g (0 : Fin 3))) (-(x1 (ix2 i' (0 : Fin 3)) - x5 (ix2 g (0 : Fin 3)))) := by
  unfold k0_pay8
  simp only [absf_apply, pay3_apply]

theorem pay9_apply : k0_pay9 (F := Ideal) x1 x5 (ix2 i' g)
    = max (x1 (ix2 i' (1 : Fin 3)) - x5 (ix2 g (1 : Fin 3))) (-(x1 (ix2 i' (1 : Fin 3)) - x5 (ix2 g (1 : Fin 3)))) := by
  unfold k0_pay9
  simp only [absf_apply, pay4_apply]

theorem pay10_apply : k0_pay10 (F := Ideal) x1 x5 (ix2 i' g)
    = max (x1 (ix2 i' (2 : Fin 3)) - x5 (ix2 g (2 : Fin 3))) (-(x1 (ix2 i' (2 : Fin 3)) - x5 (ix2 g (2 : Fin 3)))) := by
  unfold k0_pay10
  simp only [absf_apply, pay5_apply]

end geom

/-- the zero tile -/
theorem pay11_apply (i' : Fin 256) (g : Fin 64) : k0_pay11 (F := Ideal) (ix2 i' g) = 0 := by
  unfold k0_pay11
  simp only [broadcast_apply, scalar_zero]

/-- the zero column -/
theorem pay26_apply (i' : Fin 256) (u : Fin 1) : k0_pay26 (F := Ideal) (ix2 i' u) = 0 := by
  unfold k0_pay26
  simp only [broadcast_apply, scalar_zero]

end Cert.KernelIdeal.Payload

end
-- ==== Proof.KerPayA.lean ====
/-
  The s-type terms of the body read at an index.

  Each of the eight terms is a weight column of the coefficient tile times the exponential of minus a squared
  exponent column times the distance; the body adds them one after another onto a zero tile.  Read at (i', g), with
  the coefficients of atom i' and the distance of i' from centre g, the running sum is the specification's s-part.
-/
import proofs.«125921_j43465069035926_1_alg».proof.Proof.KerPayL

noncomputable section

namespace Cert.KernelIdeal.Payload

open Cert.KernelIdeal Cert.KernelIdeal.Gen Idealize.ShloMosaic Idealize.ShloMosaic.ValueIdx Cert.LibColumns

section chain
variable (v9 : FVec Ideal S256x46 .f32) (v38 : FVec Ideal S256x64 .f32) (i' : Fin 256) (g : Fin 64)

/-- the first exponent column as a vector: column 0 of the coefficients -/
theorem pay12_apply (x0 : Vec Ideal S256x128 .f32) (x3 : Vec Ideal S128x46 .f32) (x4 : Vec Ideal S46 .f32) (i' : Fin 256) :
    k0_pay12 (F := Ideal) x0 x3 x4 (ix1 i') = k0_pay2 (F := Ideal) x0 x3 x4 (ix2 i' (0 : Fin 46)) := by
  unfold k0_pay12
  simp only [shapeCast_a1_a_apply, sliceCol_apply]
  rfl

/-- terms 0, 1, 2 onto the tile v42 -/
theorem pay13_apply (v42 : FVec Ideal S256x64 .f32) (v44 : FVec Ideal S256 .f32) :
    k0_pay13 (F := Ideal) v9 v38 v42 v44 (ix2 i' g)
      = ((v42 (ix2 i' g) + v9 (ix2 i' (8 : Fin 46)) * Ideal.exp ((0 - v44 (ix1 i') * v44 (ix1 i')) * v38 (ix2 i' g)))
          + v9 (ix2 i' (9 : Fin 46)) * Ideal.exp ((0 - v9 (ix2 i' (1 : Fin 46)) * v9 (ix2 i' (1 : Fin 46))) * v38 (ix2 i' g)))
          + v9 (ix2 i' (10 : Fin 46)) * Ideal.exp ((0 - v9 (ix2 i' (2 : Fin 46)) * v9 (ix2 i' (2 : Fin 46))) * v38 (ix2 i' g)) := by
  unfold k0_pay13
  simp only [addf_apply, mulf_apply, subf_apply, exp_apply, broadcast_apply, scalar_zero, broadcastTo_a1_ab_apply,
    shapeCast_a_a1_apply, shapeCast_a1_a_apply, sliceCol_apply]
  rfl

/-- the exponential of term 3 -/
theorem pay14_apply : k0_pay14 (F := Ideal) v9 v38 (ix2 i' g) = Ideal.exp ((0 - v9 (ix2 i' (3 : Fin 46)) * v9 (ix2 i' (3 : Fin 46))) * v38 (ix2 i' g)) := by
  unfold k0_pay14
  simp only [addf_apply, mulf_apply, subf_apply, exp_apply, broadcast_apply, scalar_zero, broadcastTo_a1_ab_apply,
    shapeCast_a_a1_apply, shapeCast_a1_a_apply, sliceCol_apply]
  rfl

/-- the weight of term 3 -/
theorem pay15_apply : k0_pay15 (F := Ideal) v9 (ix2 i' g) = v9 (ix2 i' (11 : Fin 46)) := by
  unfold k0_pay15
  simp only [addf_apply, mulf_apply, subf_apply, exp_apply, broadcast_apply, scalar_zero, broadcastTo_a1_ab_apply,
    shapeCast_a_a1_apply, shapeCast_a1_a_apply, sliceCol_apply]
  rfl

/-- term 3 from its two factors, then terms 4, 5, 6 -/
theorem pay16_apply (v87 v99 v100 : FVec Ideal S256x64 .f32) :
    k0_pay16 (F := Ideal) v9 v38 v87 v99 v100 (ix2 i' g)
      = (((v87 (ix2 i' g) + v100 (ix2 i' g) * v99 (ix2 i' g))
          + v9 (ix2 i' (12 : Fin 46)) * Ideal.exp ((0 - v9 (ix2 i' (4 : Fin 46)) * v9 (ix2 i' (4 : Fin 46))) * v38 (ix2 i' g)))
          + v9 (ix2 i' (13 : Fin 46)) * Ideal.exp ((0 - v9 (ix2 i' (5 : Fin 46)) * v9 (ix2 i' (5 : Fin 46))) * v38 (ix2 i' g)))
          + v9 (ix2 i' (14 : Fin 46)) * Ideal.exp ((0 - v9 (ix2 i' (6 : Fin 46)) * v9 (ix2 i' (6 : Fin 46))) * v38 (ix2 i' g)) := by
  unfold k0_pay16
  simp only [addf_apply, mulf_apply, subf_apply, exp_apply, broadcast_apply, scalar_zero, broadcastTo_a1_ab_apply,
    shapeCast_a_a1_apply, shapeCast_a1_a_apply, sliceCol_apply]
  rfl

/-- the weight column of term 7 -/
theorem pay17_apply (u : Fin 1) : k0_pay17 (F := Ideal) v9 (ix2 i' u) = v9 (ix2 i' (15 : Fin 46)) := by
  unfold k0_pay17
  simp only [addf_apply, mulf_apply, subf_apply, exp_apply, broadcast_apply, scalar_zero, broadcastTo_a1_ab_apply,
    shapeCast_a_a1_apply, shapeCast_a1_a_apply, sliceCol_apply]
  rfl

/-- minus the squared exponent column of term 7 -/
theorem pay18_apply (u : Fin 1) : k0_pay18 (F := Ideal) v9 (ix2 i' u) = (0 - v9 (ix2 i' (7 : Fin 46)) * v9 (ix2 i' (7 : Fin 46))) := by
  unfold k0_pay18
  simp only [addf_apply, mulf_apply, subf_apply, exp_apply, broadcast_apply, scalar_zero, broadcastTo_a1_ab_apply,
    shapeCast_a_a1_apply, shapeCast_a1_a_apply, sliceCol_apply]
  rfl

/-- term 7 from its two columns -/
theorem pay19_apply (v147 : FVec Ideal S256x64 .f32) (v154 v156 : FVec Ideal S256x1 .f32) :
    k0_pay19 (F := Ideal) v38 v147 v154 v156 (ix2 i' g)
      = v147 (ix2 i' g) + v154 (ix2 i' (0 : Fin 1)) * Ideal.exp (v156 (ix2 i' (0 : Fin 1)) * v38 (ix2 i' g)) := by
  unfold k0_pay19
  simp only [addf_apply, mulf_apply, subf_apply, exp_apply, broadcast_apply, scalar_zero, broadcastTo_a1_ab_apply,
    shapeCast_a_a1_apply, shapeCast_a1_a_apply, sliceCol_apply]

end chain

/-- The eight terms, added one after another onto zero, are the specification's s-part of the coefficients on row i'
    of the tile against the distance of atom i' from centre g. -/
theorem sChain_apply (v9 : FVec Ideal S256x46 .f32) (x1 : Vec Ideal S256x3 .f32) (x5 : Vec Ideal S64x3 .f32)
    (v44 : FVec Ideal S256 .f32) (h44 : ∀ i : Fin 256, v44 (ix1 i) = v9 (ix2 i (0 : Fin 46))) (i' : Fin 256) (g : Fin 64) :
    k0_pay19 (F := Ideal) (k0_pay7 x1 x5)
        (k0_pay16 v9 (k0_pay7 x1 x5) (k0_pay13 v9 (k0_pay7 x1 x5) (k0_pay11 (F := Ideal)) v44) (k0_pay14 v9 (k0_pay7 x1 x5)) (k0_pay15 v9))
        (k0_pay17 v9) (k0_pay18 v9) (ix2 i' g)
      = Cert.Spec.sPart (fun c => v9 (ix2 i' c)) (fun k => x1 (ix2 i' k)) (fun k => x5 (ix2 g k)) := by
  simp only [pay19_apply, pay16_apply, pay13_apply, pay14_apply, pay15_apply, pay17_apply, pay18_apply, pay11_apply, pay7_apply, h44]
  unfold Cert.Spec.sPart
  rw [Fin.sum_univ_eight]
  simp only [zero_add, zero_sub]
  rfl

end Cert.KernelIdeal.Payload

end
-- ==== Proof.KerPayB.lean ====
/-
  The p-type terms of the body read at an index.

  Each of the six terms is a weight column times the exponential of minus a squared exponent column times the squared
  distance, times the direction columns against the three absolute differences; the body adds them one after another
  onto a zero tile, the sixth where the accumulator is updated.  Read at (i', g) the sum is the specification's p-part.
-/
import proofs.«125921_j43465069035926_1_alg».proof.Proof.KerPayL

noncomputable section

namespace Cert.KernelIdeal.Payload

open Cert.KernelIdeal Cert.KernelIdeal.Gen Idealize.ShloMosaic Idealize.ShloMosaic.ValueIdx Cert.LibColumns

section chain
variable (v9 : FVec Ideal S256x46 .f32) (v37 v39 v40 v41 : FVec Ideal S256x64 .f32) (i' : Fin 256) (g : Fin 64)

/-- term 0 onto the zero tile -/
theorem pay20_apply :
    k0_pay20 (F := Ideal) v9 v37 v39 v40 v41 (ix2 i' g) = 0 + (v9 (ix2 i' (22 : Fin 46)) * Ideal.exp ((0 - v9 (ix2 i' (16 : Fin 46)) * v9 (ix2 i' (16 : Fin 46))) * v37 (ix2 i' g))) * ((v9 (ix2 i' (28 : Fin 46)) * v39 (ix2 i' g) + v9 (ix2 i' (29 : Fin 46)) * v40 (ix2 i' g)) + v9 (ix2 i' (30 : Fin 46)) * v41 (ix2 i' g)) := by
  unfold k0_pay20
  simp only [addf_apply, mulf_apply, subf_apply, exp_apply, broadcast_apply, scalar_zero, broadcastTo_a1_ab_apply,
    shapeCast_a_a1_apply, shapeCast_a1_a_apply, sliceCol_apply]
  rfl

/-- the columns of term 1: squared exponent, weight, direction -/
theorem pay21_apply (u : Fin 1) : k0_pay21 (F := Ideal) v9 (ix2 i' u) = v9 (ix2 i' (17 : Fin 46)) * v9 (ix2 i' (17 : Fin 46)) := by
  unfold k0_pay21
  simp only [addf_apply, mulf_apply, subf_apply, exp_apply, broadcast_apply, scalar_zero, broadcastTo_a1_ab_apply,
    shapeCast_a_a1_apply, shapeCast_a1_a_apply, sliceCol_apply]
  rfl

theorem pay22_apply (u : Fin 1) : k0_pay22 (F := Ideal) v9 (ix2 i' u) = v9 (ix2 i' (23 : Fin 46)) := by
  unfold k0_pay22
  simp only [addf_apply, mulf_apply, subf_apply, exp_apply, broadcast_apply, scalar_zero, broadcastTo_a1_ab_apply,
    shapeCast_a_a1_apply, shapeCast_a1_a_apply, sliceCol_apply]
  rfl

theorem pay23_apply (u : Fin 1) : k0_pay23 (F := Ideal) v9 (ix2 i' u) = v9 (ix2 i' (31 : Fin 46)) := by
  unfold k0_pay23
  simp only [addf_apply, mulf_apply, subf_apply, exp_apply, broadcast_apply, scalar_zero, broadcastTo_a1_ab_apply,
    shapeCast_a_a1_apply, shapeCast_a1_a_apply, sliceCol_apply]
  rfl

theorem pay24_apply (u : Fin 1) : k0_pay24 (F := Ideal) v9 (ix2 i' u) = v9 (ix2 i' (32 : Fin 46)) := by
  unfold k0_pay24
  simp only [addf_apply, mulf_apply, subf_apply, exp_apply, broadcast_apply, scalar_zero, broadcastTo_a1_ab_apply,
    shapeCast_a_a1_apply, shapeCast_a1_a_apply, sliceCol_apply]
  rfl

theorem pay25_apply (u : Fin 1) : k0_pay25 (F := Ideal) v9 (ix2 i' u) = v9 (ix2 i' (33 : Fin 46)) := by
  unfold k0_pay25
  simp only [addf_apply, mulf_apply, subf_apply, exp_apply, broadcast_apply, scalar_zero, broadcastTo_a1_ab_apply,
    shapeCast_a_a1_apply, shapeCast_a1_a_apply, sliceCol_apply]
  rfl

/-- term 1 from its columns, then term 2 -/
theorem pay27_apply (v196 : FVec Ideal S256x64 .f32) (v200 v203 v206 v209 v212 v213 : FVec Ideal S256x1 .f32) :
    k0_pay27 (F := Ideal) v9 v37 v39 v40 v41 v196 v200 v203 v206 v209 v212 v213 (ix2 i' g)
      = (v196 (ix2 i' g) + (v203 (ix2 i' (0 : Fin 1)) * Ideal.exp ((v213 (ix2 i' (0 : Fin 1)) - v200 (ix2 i' (0 : Fin 1))) * v37 (ix2 i' g))) * ((v206 (ix2 i' (0 : Fin 1)) * v39 (ix2 i' g) + v209 (ix2 i' (0 : Fin 1)) * v40 (ix2 i' g)) + v212 (ix2 i' (0 : Fin 1)) * v41 (ix2 i' g)))
          + (v9 (ix2 i' (24 : Fin 46)) * Ideal.exp ((0 - v9 (ix2 i' (18 : Fin 46)) * v9 (ix2 i' (18 : Fin 46))) * v37 (ix2 i' g))) * ((v9 (ix2 i' (34 : Fin 46)) * v39 (ix2 i' g) + v9 (ix2 i' (35 : Fin 46)) * v40 (ix2 i' g)) + v9 (ix2 i' (36 : Fin 46)) * v41 (ix2 i' g)) := by
  unfold k0_pay27
  simp only [addf_apply, mulf_apply, subf_apply, exp_apply, broadcast_apply, scalar_zero, broadcastTo_a1_ab_apply,
    shapeCast_a_a1_apply, shapeCast_a1_a_apply, sliceCol_apply]
  rfl

/-- the columns of term 3 that are cut before it: squared exponent, weight, first direction -/
theorem pay28_apply (u : Fin 1) : k0_pay28 (F := Ideal) v9 (ix2 i' u) = v9 (ix2 i' (19 : Fin 46)) * v9 (ix2 i' (19 : Fin 46)) := by
  unfold k0_pay28
  simp only [addf_apply, mulf_apply, subf_apply, exp_apply, broadcast_apply, scalar_zero, broadcastTo_a1_ab_apply,
    shapeCast_a_a1_apply, shapeCast_a1_a_apply, sliceCol_apply]
  rfl

theorem pay29_apply (u : Fin 1) : k0_pay29 (F := Ideal) v9 (ix2 i' u) = v9 (ix2 i' (25 : Fin 46)) := by
  unfold k0_pay29
  simp only [addf_apply, mulf_apply, subf_apply, exp_apply, broadcast_apply, scalar_zero, broadcastTo_a1_ab_apply,
    shapeCast_a_a1_apply, shapeCast_a1_a_apply, sliceCol_apply]
  rfl

theorem pay30_apply (u : Fin 1) : k0_pay30 (F := Ideal) v9 (ix2 i' u) = v9 (ix2 i' (37 : Fin 46)) := by
  unfold k0_pay30
  simp only [addf_apply, mulf_apply, subf_apply, exp_apply, broadcast_apply, scalar_zero, broadcastTo_a1_ab_apply,
    shapeCast_a_a1_apply, shapeCast_a1_a_apply, sliceCol_apply]
  rfl

/-- term 3 from its columns, then term 4 -/
theorem pay31_apply (v262 : FVec Ideal S256x64 .f32) (v266 v269 v272 : FVec Ideal S256x1 .f32) :
    k0_pay31 (F := Ideal) v9 v37 v39 v40 v41 v262 v266 v269 v272 (ix2 i' g)
      = (v262 (ix2 i' g) + (v269 (ix2 i' (0 : Fin 1)) * Ideal.exp ((0 - v266 (ix2 i' (0 : Fin 1))) * v37 (ix2 i' g))) * ((v272 (ix2 i' (0 : Fin 1)) * v39 (ix2 i' g) + v9 (ix2 i' (38 : Fin 46)) * v40 (ix2 i' g)) + v9 (ix2 i' (39 : Fin 46)) * v41 (ix2 i' g)))
          + (v9 (ix2 i' (26 : Fin 46)) * Ideal.exp ((0 - v9 (ix2 i' (20 : Fin 46)) * v9 (ix2 i' (20 : Fin 46))) * v37 (ix2 i' g))) * ((v9 (ix2 i' (40 : Fin 46)) * v39 (ix2 i' g) + v9 (ix2 i' (41 : Fin 46)) * v40 (ix2 i' g)) + v9 (ix2 i' (42 : Fin 46)) * v41 (ix2 i' g)) := by
  unfold k0_pay31
  simp only [addf_apply, mulf_apply, subf_apply, exp_apply, broadcast_apply, scalar_zero, broadcastTo_a1_ab_apply,
    shapeCast_a_a1_apply, shapeCast_a1_a_apply, sliceCol_apply]
  rfl

/-- the exponent column of term 5 as a vector -/
theorem pay32_apply : k0_pay32 (F := Ideal) v9 (ix1 i') = v9 (ix2 i' (21 : Fin 46)) := by
  unfold k0_pay32
  simp only [addf_apply, mulf_apply, subf_apply, exp_apply, broadcast_apply, scalar_zero, broadcastTo_a1_ab_apply,
    shapeCast_a_a1_apply, shapeCast_a1_a_apply, sliceCol_apply]
  rfl

end chain

/-- The six terms — five added one after another onto zero, the sixth written out — are the specification's p-part of
    the coefficients on row i' of the tile against atom i' and centre g. -/
theorem pChain_apply (v9 : FVec Ideal S256x46 .f32) (x1 : Vec Ideal S256x3 .f32) (x5 : Vec Ideal S64x3 .f32)
    (v330 : FVec Ideal S256 .f32) (h330 : ∀ i : Fin 256, v330 (ix1 i) = v9 (ix2 i (21 : Fin 46))) (i' : Fin 256) (g : Fin 64) :
    k0_pay31 (F := Ideal) v9 (k0_pay6 x1 x5) (k0_pay8 x1 x5) (k0_pay9 x1 x5) (k0_pay10 x1 x5)
        (k0_pay27 v9 (k0_pay6 x1 x5) (k0_pay8 x1 x5) (k0_pay9 x1 x5) (k0_pay10 x1 x5)
          (k0_pay20 v9 (k0_pay6 x1 x5) (k0_pay8 x1 x5) (k0_pay9 x1 x5) (k0_pay10 x1 x5))
          (k0_pay21 v9) (k0_pay22 v9) (k0_pay23 v9) (k0_pay24 v9) (k0_pay25 v9) (k0_pay26 (F := Ideal)))
        (k0_pay28 v9) (k0_pay29 v9) (k0_pay30 v9) (ix2 i' g)
      + (v9 (ix2 i' (27 : Fin 46)) * Ideal.exp ((0 - v330 (ix1 i') * v330 (ix1 i')) * k0_pay6 (F := Ideal) x1 x5 (ix2 i' g)))
          * ((v9 (ix2 i' (43 : Fin 46)) * k0_pay8 (F := Ideal) x1 x5 (ix2 i' g) + v9 (ix2 i' (44 : Fin 46)) * k0_pay9 (F := Ideal) x1 x5 (ix2 i' g))
              + v9 (ix2 i' (45 : Fin 46)) * k0_pay10 (F := Ideal) x1 x5 (ix2 i' g))
      = Cert.Spec.pPart (fun c => v9 (ix2 i' c)) (fun k => x1 (ix2 i' k)) (fun k => x5 (ix2 g k)) := by
  simp only [pay31_apply, pay27_apply, pay20_apply, pay21_apply, pay22_apply, pay23_apply, pay24_apply, pay25_apply, pay26_apply,
    pay28_apply, pay29_apply, pay30_apply, pay6_apply, pay8_apply, pay9_apply, pay10_apply, h330]
  unfold Cert.Spec.pPart
  rw [Fin.sum_univ_six]
  simp only [Fin.sum_univ_three, zero_add, zero_sub]
  rfl

end Cert.KernelIdeal.Payload

end
-- ==== Proof.KerPayM.lean ====
/-
  The kernel body's three matrix products, read at an index at the ideal values.

  Each is a plain product `[A, K] · [K, B]` into a zero accumulator: the left operand's second axis is contracted with
  the right operand's first and there are no batch axes, so the entry at `(p, q)` is `∑ k, lhs (p, k) · rhs (k, q)`,
  with no rounding and no order of summation left in it.  The first product (atom features by the weight matrix,
  `[256, 128] · [128, 46]`) then has the bias added: a vector of 46 viewed as one row and copied down the 256 rows,
  which at `(i', c)` is the vector's entry `c`.  The last (`[64, 64] · [64, 2048]`) narrows both operands to bf16
  first, which at the ideal values changes nothing.  The middle one (`[64, 256] · [256, 64]`) is stated for any two
  operands.

  The contraction index of such a product has one coordinate; the sum over it is re-indexed by that coordinate, and
  the operand indices are read off axis by axis: the non-contracted axis takes the result's coordinate, the
  contracted one the contraction coordinate.
-/
import proofs.«125921_j43465069035926_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

open scoped BigOperators

/-- the dimension numbers of a plain matrix product `[A, K] · [K, B]`: contract the left operand's second axis with the
    right operand's first, no batch axes -/
structure PlainDot {A K B : ℕ} (d : DotDims ⟨2, ![A, K]⟩ ⟨2, ![K, B]⟩ ⟨2, ![A, B]⟩) : Prop where
  lc : d.lhsContracting = [1]
  rc : d.rhsContracting = [0]
  ln : d.lhsNonContracting = [0]
  rn : d.rhsNonContracting = [1]
  lb : d.lhsBatch = []
  rb : d.rhsBatch = []

section
variable {A K B : ℕ} {d : DotDims ⟨2, ![A, K]⟩ ⟨2, ![K, B]⟩ ⟨2, ![A, B]⟩} (h : PlainDot d)
include h

/-- the contraction index has one axis … -/
theorem PlainDot.rank_contr : d.contr.rank = 1 := by rw [d.rank_contr, h.lc]; rfl

/-- … of the inner extent -/
theorem PlainDot.size_contr : d.contr.size ⟨0, by rw [h.rank_contr]; exact Nat.one_pos⟩ = K := by
  have := d.size_contr 0 (by rw [h.lc]; exact Nat.one_pos)
  rw [this]
  simp only [h.lc]
  rfl

/-- the left operand's row is the result's row -/
theorem PlainDot.lhs_0 (p : Fin A) (q : Fin B) (k : d.contr.Idx) : (d.lhsIdx (ix2 p q) k 0).val = p.val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  have key : ∀ (n : Nat) (hn : n < 2), n = 0 → ((ix2 p q : (⟨2, ![A, B]⟩ : Shape).Idx) ⟨n, hn⟩).val = p.val :=
    fun n hn e => by subst e; rfl
  exact key _ _ (by simp [h.lb, h.ln])

/-- the left operand's column is the contraction coordinate -/
theorem PlainDot.lhs_1 (p : Fin A) (q : Fin B) (k : d.contr.Idx) :
    (d.lhsIdx (ix2 p q) k 1).val = (k ⟨0, by rw [h.rank_contr]; exact Nat.one_pos⟩).val :=
  d.lhsIdx_val_of_single h.lc _ k

/-- the right operand's row is the contraction coordinate -/
theorem PlainDot.rhs_0 (p : Fin A) (q : Fin B) (k : d.contr.Idx) :
    (d.rhsIdx (ix2 p q) k 0).val = (k ⟨0, by rw [h.rank_contr]; exact Nat.one_pos⟩).val :=
  d.rhsIdx_val_of_single h.rc _ k

/-- the right operand's column is the result's column -/
theorem PlainDot.rhs_1 (p : Fin A) (q : Fin B) (k : d.contr.Idx) : (d.rhsIdx (ix2 p q) k 1).val = q.val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  have key : ∀ (n : Nat) (hn : n < 2), n = 1 → ((ix2 p q : (⟨2, ![A, B]⟩ : Shape).Idx) ⟨n, hn⟩).val = q.val :=
    fun n hn e => by subst e; rfl
  exact key _ _ (by simp [h.lb, h.ln, h.rn])

/-- a plain matrix product into zeros, at the ideal values and at `(p, q)`: the sum over the inner axis -/
theorem PlainDot.matmul_zero_apply {φ₁ φ₂ : FTy} (prec : Option ContractPrecision)
    (lhs : FVec Ideal ⟨2, ![A, K]⟩ φ₁) (rhs : FVec Ideal ⟨2, ![K, B]⟩ φ₂) (p : Fin A) (q : Fin B) :
    matmul d prec lhs rhs (constant (F := Ideal) ⟨2, ![A, B]⟩ .f32 0x00000000#32) (ix2 p q)
      = ∑ k : Fin K, lhs (ix2 p k) * rhs (ix2 k q) := by
  simp only [matmul]
  rw [Ideal.matmul_constant_zero_apply, ← Equiv.sum_comp (contrEquiv1 d K h.rank_contr h.size_contr).symm]
  refine Finset.sum_congr rfl fun k _ => ?_
  have hk := contrEquiv1_symm_val d K h.rank_contr h.size_contr k
  have el : d.lhsIdx (ix2 p q) ((contrEquiv1 d K h.rank_contr h.size_contr).symm k) = ix2 p k := by
    funext a
    apply Fin.ext
    match a with
    | ⟨0, _⟩ => exact h.lhs_0 _ _ _
    | ⟨1, _⟩ => exact (h.lhs_1 _ _ _).trans hk
  have er : d.rhsIdx (ix2 p q) ((contrEquiv1 d K h.rank_contr h.size_contr).symm k) = ix2 k q := by
    funext a
    apply Fin.ext
    match a with
    | ⟨0, _⟩ => exact (h.rhs_0 _ _ _).trans hk
    | ⟨1, _⟩ => exact h.rhs_1 _ _ _
  rw [el, er]

end

/-- the three products' dimension numbers are plain -/
theorem plain_pay2 : PlainDot dot_S256x128_S128x46_S256x46_1_0_0_1_n_n := ⟨rfl, rfl, rfl, rfl, rfl, rfl⟩
theorem plain_mm33 : PlainDot dot_S64x256_S256x64_S64x64_1_0_0_1_n_n := ⟨rfl, rfl, rfl, rfl, rfl, rfl⟩
theorem plain_pay34 : PlainDot dot_S64x64_S64x2048_S64x2048_1_0_0_1_n_n := ⟨rfl, rfl, rfl, rfl, rfl, rfl⟩

/-- a vector of 46 as one row, copied down 256 rows, reads at `(i', c)` the vector at `c` -/
theorem bias_apply {α : Type} (v : S46.Idx → α) (i' : Fin 256) (c : Fin 46) :
    broadcastTo S256x46 (shapeCast S1x46 v shapeCasts_S46_S1x46) broadcasts_S1x46_S256x46 (ix2 i' c) = v (ix1 c) := by
  rw [broadcastTo_1b_ab_apply, shapeCast_addUnit_apply]
  congr 1
  funext a
  match a with
  | ⟨0, _⟩ => rfl

/-- the first product with its bias: atom `i'`'s features against column `c` of the weights, plus bias `c` -/
theorem pay2_apply (x0 : Vec Ideal S256x128 .f32) (x3 : Vec Ideal S128x46 .f32) (x4 : Vec Ideal S46 .f32) (i' : Fin 256)
    (c : Fin 46) :
    k0_pay2 (F := Ideal) x0 x3 x4 (ix2 i' c) = (∑ k : Fin 128, x0 (ix2 i' k) * x3 (ix2 k c)) + x4 (ix1 c) := by
  unfold k0_pay2
  rw [addf_apply, plain_pay2.matmul_zero_apply, bias_apply]

/-- the last product: row `m` of the 64 × 64 matrix against column `j` of the 64 × 2048 one -/
theorem pay34_apply (sc : Vec Ideal S64x64 .f32) (x2 : Vec Ideal S64x2048 .f32) (m : Fin 64) (j : Fin 2048) :
    k0_pay34 (F := Ideal) sc x2 (ix2 m j) = ∑ g : Fin 64, sc (ix2 m g) * x2 (ix2 g j) := by
  unfold k0_pay34
  rw [plain_pay34.matmul_zero_apply]
  refine Finset.sum_congr rfl fun g _ => ?_
  rw [truncf_apply, truncf_apply, shapeCast_self]

/-- the middle product: row `m` of a 64 × 256 matrix against column `g` of a 256 × 64 one -/
theorem mm33_apply (A : FVec Ideal S64x256 .bf16) (B : FVec Ideal S256x64 .bf16) (m g : Fin 64) :
    matmul dot_S64x256_S256x64_S64x64_1_0_0_1_n_n none A B (constant (F := Ideal) S64x64 .f32 0x00000000#32) (ix2 m g)
      = ∑ i' : Fin 256, A (ix2 m i') * B (ix2 i' g) :=
  plain_mm33.matmul_zero_apply none A B m g

end Cert.KernelIdeal.Payload

end
-- ==== Proof.KerPayload.lean ====
/-
  The body's three functions read at an index over the extended reals: the accumulator's update is the old entry plus
  the indicator tile's row against the tile's column of pair terms; the output is the accumulator's row against the
  indicator's column.
-/
import proofs.«125921_j43465069035926_1_alg».proof.Proof.KerBody
import proofs.«125921_j43465069035926_1_alg».proof.Proof.Spec
import proofs.«125921_j43465069035926_1_alg».proof.Proof.KerPayA
import proofs.«125921_j43465069035926_1_alg».proof.Proof.KerPayB
import proofs.«125921_j43465069035926_1_alg».proof.Proof.KerPayM
import Idealize.ShloMosaic.PureOps.Ideal.Laws

noncomputable section

namespace Cert.KernelIdeal.Payload

open Cert.KernelIdeal Cert.KernelIdeal.Gen Idealize.ShloMosaic Idealize.ShloMosaic.ValueIdx Cert.LibColumns

/-- the tile's coefficients, atom `i'` of the tile: row `i'` of `x0 · x3`, plus the bias -/
def coefT (x0 : Vec Ideal S256x128 .f32) (x3 : Vec Ideal S128x46 .f32) (x4 : Vec Ideal S46 .f32) (i' : Fin 256) (c : Fin 46) : EReal :=
  (∑ k : Fin 128, x0 (ix2 i' k) * x3 (ix2 k c)) + x4 (ix1 c)

/-- The accumulator's update read at (m, g): the loaded entry plus the indicator tile's row m against the column g of
    the s-type sum plus the p-type sum, the sixth p-type term written out. -/
theorem pay33_apply (v9 : FVec Ideal S256x46 .f32) (v37 v39 v40 v41 v162 v328 : FVec Ideal S256x64 .f32) (v330 : FVec Ideal S256 .f32)
    (oh : Vec Ideal S64x256 .f32) (acc : Vec Ideal S64x64 .f32) (m g : Fin 64) :
    k0_pay33 (F := Ideal) v9 v37 v39 v40 v41 v162 v328 v330 oh acc (ix2 m g)
      = acc (ix2 m g) + ∑ i' : Fin 256, oh (ix2 m i') * (v162 (ix2 i' g) + (v328 (ix2 i' g)
          + (v9 (ix2 i' (27 : Fin 46)) * Ideal.exp ((0 - v330 (ix1 i') * v330 (ix1 i')) * v37 (ix2 i' g)))
            * ((v9 (ix2 i' (43 : Fin 46)) * v39 (ix2 i' g) + v9 (ix2 i' (44 : Fin 46)) * v40 (ix2 i' g)) + v9 (ix2 i' (45 : Fin 46)) * v41 (ix2 i' g)))) := by
  unfold k0_pay33
  simp only [shapeCast_self, mm33_apply, truncf_apply, addf_apply, mulf_apply, subf_apply, exp_apply, broadcast_apply, scalar_zero, broadcastTo_a1_ab_apply,
    shapeCast_a_a1_apply, shapeCast_a1_a_apply, sliceCol_apply]
  rfl

theorem scStep_apply (x0 : Vec Ideal S256x128 .f32) (x1 : Vec Ideal S256x3 .f32) (x3 : Vec Ideal S128x46 .f32) (x4 : Vec Ideal S46 .f32)
    (x5 : Vec Ideal S64x3 .f32) (oh : Vec Ideal S64x256 .f32) (acc : Vec Ideal S64x64 .f32) (m g : Fin 64) :
    Body.scStep (F := Ideal) x0 x1 x3 x4 x5 oh acc (ix2 m g)
      = acc (ix2 m g) + ∑ i' : Fin 256, oh (ix2 m i') * Cert.Spec.pair (coefT x0 x3 x4 i') (fun k => x1 (ix2 i' k)) (fun k => x5 (ix2 g k)) := by
  unfold Body.scStep Body.sCore Body.pCore5 Body.cfT
  rw [pay33_apply]
  refine congrArg (acc (ix2 m g) + ·) (Finset.sum_congr rfl fun i' _ => ?_)
  have hc : (fun c => k0_pay2 (F := Ideal) x0 x3 x4 (ix2 i' c)) = coefT x0 x3 x4 i' := funext fun c => pay2_apply x0 x3 x4 i' c
  refine congrArg (oh (ix2 m i') * ·) ?_
  unfold Cert.Spec.pair
  refine congrArg₂ (· + ·) ?_ ?_
  · exact (sChain_apply (k0_pay2 x0 x3 x4) x1 x5 (k0_pay12 x0 x3 x4) (pay12_apply x0 x3 x4) i' g).trans (by rw [hc])
  · exact (pChain_apply (k0_pay2 x0 x3 x4) x1 x5 (k0_pay32 (k0_pay2 x0 x3 x4)) (fun i => pay32_apply _ i) i' g).trans (by rw [hc])

theorem outStep_apply (sc : Vec Ideal S64x64 .f32) (x2 : Vec Ideal S64x2048 .f32) (m : Fin 64) (j : Fin 2048) :
    Body.outStep (F := Ideal) sc x2 (ix2 m j) = ∑ g : Fin 64, sc (ix2 m g) * x2 (ix2 g j) := by
  unfold Body.outStep
  exact pay34_apply sc x2 m j

theorem pay1_apply (m g : Fin 64) : k0_pay1 (F := Ideal) (ix2 m g) = 0 := by
  unfold k0_pay1
  simp only [shapeCast_self, broadcast_apply, scalar_zero]

end Cert.KernelIdeal.Payload

end
-- ==== Proof.IdxRange.lean ====
/-
  Every gather index of `jnp.repeat` lies in `[0, 63]`, whatever the counts.  The first start is zero, so the
  first atom carries a mark; the marks are 64 ones added into zeros, so all of them together are at most 64; a
  running sum of the marks is therefore between 1 and 64, and one less is between 0 and 63.
-/
import proofs.«125921_j43465069035926_1_alg».proof.Proof.IdxChain
import Idealize.ShloMosaic.Lib.StableHlo.Predicate

noncomputable section

namespace Cert.IdxChain

open Idealize.ShloMosaic Idealize.ShloMosaic.ValueIdx

namespace Range

/-! ## Folds of word addition over counts -/

/-- adding words that are small counts, from a count: the word of the total -/
theorem foldl_add_ofNat {κ : Type} (step : BitVec 32 → κ → BitVec 32) (g : κ → ℕ)
    (hstep : ∀ r n, step r n = r + BitVec.ofNat 32 (g n)) (L : List κ) (a : ℕ) :
    L.foldl step (BitVec.ofNat 32 a) = BitVec.ofNat 32 (a + (L.map g).sum) := by
  induction L generalizing a with
  | nil => simp
  | cons n L ih =>
    rw [List.foldl_cons, hstep, ← BitVec.ofNat_add, ih, List.map_cons, List.sum_cons, Nat.add_assoc]

/-- a fold whose step either adds one at the element `T n` names or does nothing, from counts: each element's count
    grows by the number of steps that name it -/
theorem foldl_scatter_ones {ι κ : Type} [DecidableEq ι] (T : κ → Option ι)
    (step : (ι → BitVec 32) → κ → (ι → BitVec 32))
    (hsome : ∀ r n i, T n = some i → step r n = fun i' => if i' = i then r i + 1#32 else r i')
    (hnone : ∀ r n, T n = none → step r n = r) (L : List κ) (acc : ι → ℕ) :
    L.foldl step (fun l => BitVec.ofNat 32 (acc l))
      = fun l => BitVec.ofNat 32 (acc l + (L.map fun n => if T n = some l then 1 else 0).sum) := by
  induction L generalizing acc with
  | nil => simp
  | cons n L ih =>
    rw [List.foldl_cons]
    have hstep : step (fun l => BitVec.ofNat 32 (acc l)) n
        = fun l => BitVec.ofNat 32 (acc l + if T n = some l then 1 else 0) := by
      cases hT : T n with
      | none => rw [hnone _ _ hT]; funext l; simp
      | some i =>
        rw [hsome _ _ _ hT]; funext l
        by_cases hl : l = i
        · subst hl; simp [BitVec.ofNat_add]
        · have hne : ¬ (some i = some l) := fun h => hl (Option.some.inj h).symm
          simp [hl, hne]
    rw [hstep, ih]
    funext l; simp [Nat.add_assoc]

/-- the position of a rank-1 shape's index is its coordinate, read backwards -/
theorem rowMajor_symm_val_one {d : Fin 1 → Nat} (n : Fin (⟨1, d⟩ : Shape).numel) :
    ((⟨1, d⟩ : Shape).rowMajor.symm n 0).val = n.val := by
  have h := Shape.rowMajor_val_one ((⟨1, d⟩ : Shape).rowMajor.symm n)
  rw [Equiv.apply_symm_apply] at h
  exact h.symm

/-! ## A running sum of a rank-1 vector (a window as long as the vector, padded low by one less) -/

/-- of words that are counts, from zero: at position `jj` the word of the sum of the counts the window holds -/
theorem cumsum_counts {K P : ℕ} (hP : P + 1 = K) (x : IVec ⟨1, ![K]⟩ 32) (c : Fin K → ℕ)
    (hx : ∀ l, x (ix1 l) = BitVec.ofNat 32 (c l)) {u : Shape} (init : u.Idx → BitVec 32) (hinit : ∀ k, init k = 0#32)
    (h : (⟨1, ![K]⟩ : Shape).ReduceWindows ![K] ![1] ![P] ![0] ⟨1, ![K]⟩) (hu : 0 < u.numel) (jj : Fin K) :
    Host.reduceWindow IntOp.addi ![K] ![1] ![P] ![0] x init h hu (ix1 jj)
      = BitVec.ofNat 32 (∑ n : Fin K, if hn : P ≤ jj.val + n.val then c ⟨jj.val + n.val - P, by omega⟩ else 0) := by
  have hW : (⟨1, ![K]⟩ : Shape).numel = K := by simp [Shape.numel]
  unfold Host.reduceWindow
  dsimp only
  rw [hinit]
  refine (foldl_add_ofNat _ (fun n => if hn : P ≤ jj.val + (Fin.cast hW n).val then c ⟨jj.val + (Fin.cast hW n).val - P, by omega⟩ else 0)
    (fun r n => ?_) _ 0).trans ?_
  · show r + _ = r + _
    congr 1
    have hn0 : ((⟨1, ![K]⟩ : Shape).rowMajor.symm n 0).val = n.val := rowMajor_symm_val_one n
    have hnK : n.val < K := (Fin.cast hW n).isLt
    have hcast : (Fin.cast hW n).val = n.val := rfl
    split
    · rename_i hin
      have h0 : P ≤ jj.val * 1 + ((⟨1, ![K]⟩ : Shape).rowMajor.symm n 0).val := (hin 0).1
      rw [hn0] at h0
      have hle : P ≤ jj.val + (Fin.cast hW n).val := by omega
      rw [dif_pos hle]
      refine Eq.trans (congrArg x ?_) (hx ⟨jj.val + (Fin.cast hW n).val - P, by omega⟩)
      funext a
      obtain rfl : a = 0 := Subsingleton.elim _ _
      apply Fin.ext
      show jj.val * 1 + ((⟨1, ![K]⟩ : Shape).rowMajor.symm n 0).val - P = jj.val + (Fin.cast hW n).val - P
      rw [hn0, Nat.mul_one, hcast]
    · rename_i hnin
      have hle : ¬ P ≤ jj.val + (Fin.cast hW n).val := by
        intro hle
        apply hnin
        intro a
        obtain rfl : a = 0 := Subsingleton.elim _ _
        show P ≤ jj.val * 1 + ((⟨1, ![K]⟩ : Shape).rowMajor.symm n 0).val
          ∧ jj.val * 1 + ((⟨1, ![K]⟩ : Shape).rowMajor.symm n 0).val - P < K
        rw [hn0]
        omega
      rw [dif_neg hle]
  · rw [Nat.zero_add, ← Fin.sum_univ_def]
    exact congrArg _ (Fin.sum_congr' (fun m : Fin K => if hn : P ≤ jj.val + m.val then c ⟨jj.val + m.val - P, by omega⟩ else 0) hW)

/-- of any words, from zero, when the first is zero: zero at the first position (the window there holds the padding
    and the first word) -/
theorem cumsum_head_zero {K P : ℕ} (hP : P + 1 = K) (x : IVec ⟨1, ![K]⟩ 32) (z : Fin K) (hz : z.val = 0)
    (hx : x (ix1 z) = 0#32) {u : Shape} (init : u.Idx → BitVec 32) (hinit : ∀ k, init k = 0#32)
    (h : (⟨1, ![K]⟩ : Shape).ReduceWindows ![K] ![1] ![P] ![0] ⟨1, ![K]⟩) (hu : 0 < u.numel) :
    Host.reduceWindow IntOp.addi ![K] ![1] ![P] ![0] x init h hu (ix1 z) = 0#32 := by
  have hW : (⟨1, ![K]⟩ : Shape).numel = K := by simp [Shape.numel]
  unfold Host.reduceWindow
  dsimp only
  rw [hinit]
  refine List.foldl_fixed' (fun n => ?_) _
  show 0#32 + _ = 0#32
  rw [BitVec.zero_add]
  have hn0 : ((⟨1, ![K]⟩ : Shape).rowMajor.symm n 0).val = n.val := rowMajor_symm_val_one n
  have hnK : n.val < K := (Fin.cast hW n).isLt
  split
  · rename_i hin
    have h0 : P ≤ z.val * 1 + ((⟨1, ![K]⟩ : Shape).rowMajor.symm n 0).val := (hin 0).1
    rw [hn0] at h0
    refine Eq.trans (congrArg x ?_) hx
    funext a
    obtain rfl : a = 0 := Subsingleton.elim _ _
    apply Fin.ext
    show z.val * 1 + ((⟨1, ![K]⟩ : Shape).rowMajor.symm n 0).val - P = z.val
    rw [hn0]
    omega
  · rfl

/-! ## Where a scatter's update lands -/

/-- an update whose start plus window coordinate is zero on every axis lands on the first element -/
theorem resultIdx?_zero {s si u : Shape} (d : ScatterDims s si u) {w : Nat} (j : u.Idx) (idx : IVec si w)
    (hz : ∀ a, d.start j idx a + (d.window j a : ℤ) = 0) (hs : ∀ a, 0 < s.size a) :
    d.resultIdx? j idx = some (fun a => ⟨0, hs a⟩) := by
  unfold ScatterDims.resultIdx?
  rw [dif_pos (fun a => by rw [hz a]; exact ⟨le_refl _, by exact_mod_cast hs a⟩)]
  congr 1
  funext a
  apply Fin.ext
  show (d.start j idx a + (d.window j a : ℤ)).toNat = 0
  rw [hz a]
  rfl

theorem hpos64 : ∀ a : Fin 1, 0 < S64.size a := by decide
theorem hpos2048 : ∀ a : Fin 1, 0 < S2048.size a := by decide

theorem scatSet_window (j : S_.Idx) (a : Fin 1) : scatSet.window j a = 0 := by
  have hk : scatSet.sKept = [] := by decide
  unfold ScatterDims.window
  rw [dif_neg (by rw [hk]; exact List.not_mem_nil)]

theorem scatAdd_window (j : S64.Idx) (a : Fin 1) : scatAdd.window j a = 0 := by
  have hk : scatAdd.sKept = [] := by decide
  unfold ScatterDims.window
  rw [dif_neg (by rw [hk]; exact List.not_mem_nil)]

theorem scatSet_start (j : S_.Idx) (idx : IVec S1 32) (hidx : ∀ k, idx k = 0#32) (a : Fin 1) :
    scatSet.start j idx a = 0 := by
  unfold ScatterDims.start
  split
  · rw [hidx]; rfl
  · rfl

/-- the first of the rolled counts is the zero written there -/
theorem excl_zero (N : IVec S64 32) (z : Fin 64) (hz : z.val = 0) : excl N (ix1 z) = 0#32 := by
  have hL : List.finRange S_.numel = [⟨0, by decide⟩] := by decide
  have hT : scatSet.resultIdx? (S_.rowMajor.symm ⟨0, by decide⟩) (broadcastInDim S1 ![] bcast_S_S1 (constantI S_ 32 0#32))
      = some (fun a => ⟨0, hpos64 a⟩) :=
    resultIdx?_zero scatSet _ _ (fun a => by
      rw [scatSet_start _ (broadcastInDim S1 ![] bcast_S_S1 (constantI S_ 32 0#32)) (fun _ => rfl) a, scatSet_window]; rfl) hpos64
  have hzz : ix1 z = fun a => (⟨0, hpos64 a⟩ : Fin (S64.size a)) := by
    funext a
    obtain rfl : a = 0 := Subsingleton.elim _ _
    exact Fin.ext hz
  unfold excl Host.scatter
  rw [hL, List.foldl_cons, List.foldl_nil]
  dsimp only
  rw [hT]
  dsimp only
  rw [if_pos hzz]
  rfl

/-! ## The chain: the first start is zero -/

/-- the first start is zero: its window holds the padding and the zero written in front -/
theorem starts_zero (N : IVec S64 32) (z : Fin 64) (hz : z.val = 0) : starts N (ix1 z) = 0#32 := by
  unfold starts
  exact cumsum_head_zero (K := 64) (P := 63) rfl (excl N) z hz (excl_zero N z hz) _ (fun _ => rfl) reduceWindows_S64 h_S_

/-- and it stays zero when the negative starts are wrapped -/
theorem startsW_zero (N : IVec S64 32) (z : Fin 64) (hz : z.val = 0) : startsW N (ix1 z) = 0#32 := by
  unfold startsW
  show Scalar.select (IntOp.cmpi .slt (starts N (ix1 z)) 0#32) (IntOp.addi (starts N (ix1 z)) 2048#32) (starts N (ix1 z)) = 0#32
  rw [starts_zero N z hz]
  decide

/-! ## The marks are counts -/

/-- where update number `n` of the marks lands, when it lands inside -/
def markAt (N : IVec S64 32) (n : Fin S64.numel) : Option S2048.Idx :=
  scatAdd.resultIdx? (S64.rowMajor.symm n) (broadcastInDim S64x1 ![0] bcast_S64_S64x1_0 (startsW N))

/-- how many of the updates land on element `l` -/
def cnt (N : IVec S64 32) (l : S2048.Idx) : ℕ := ∑ n : Fin S64.numel, if markAt N n = some l then 1 else 0

/-- every mark is the count of the updates landing there -/
theorem marks_eq (N : IVec S64 32) (l : S2048.Idx) : marks N l = BitVec.ofNat 32 (cnt N l) := by
  unfold marks Host.scatter
  refine (congrFun (foldl_scatter_ones (markAt N) _ ?_ ?_ (List.finRange S64.numel) (fun _ => 0)) l).trans ?_
  · intro r n i hT
    unfold markAt at hT
    dsimp only
    rw [hT]
    rfl
  · intro r n hT
    unfold markAt at hT
    dsimp only
    rw [hT]
  · unfold cnt
    rw [Nat.zero_add, Fin.sum_univ_def]

/-- the first update reads the first wrapped start, which is zero -/
theorem scatAdd_idx_zero (N : IVec S64 32) (n0 : Fin S64.numel) (hn0 : n0.val = 0)
    (c : Fin scatAdd.scatterDimsToOperandDims.length) :
    broadcastInDim S64x1 ![0] bcast_S64_S64x1_0 (startsW N) (scatAdd.siIdx (S64.rowMajor.symm n0) c) = 0#32 := by
  have hj : ∀ d, (S64.rowMajor.symm n0 d).val = 0 := fun d => by
    obtain rfl : d = 0 := Subsingleton.elim _ _
    rw [rowMajor_symm_val_one]; exact hn0
  unfold broadcastInDim
  refine Eq.trans (congrArg (startsW N) ?_) (startsW_zero N ⟨0, by decide⟩ rfl)
  funext a
  obtain rfl : a = 0 := Subsingleton.elim _ _
  rw [dif_neg (by decide)]
  apply Fin.ext
  show (scatAdd.siIdx (S64.rowMajor.symm n0) c (![0] 0)).val = 0
  unfold ScatterDims.siIdx
  rw [dif_neg (by decide)]
  unfold ScatterDims.siCoord
  exact hj _

/-- the first update lands on the first element -/
theorem markAt_zero (N : IVec S64 32) (n0 : Fin S64.numel) (hn0 : n0.val = 0) :
    markAt N n0 = some (fun a => ⟨0, hpos2048 a⟩) := by
  unfold markAt
  refine resultIdx?_zero scatAdd _ _ (fun a => ?_) hpos2048
  rw [scatAdd_window]
  have hj : ∀ d, (S64.rowMajor.symm n0 d).val = 0 := fun d => by
    obtain rfl : d = 0 := Subsingleton.elim _ _
    rw [rowMajor_symm_val_one]; exact hn0
  unfold ScatterDims.start
  split
  · rw [scatAdd_idx_zero N n0 hn0]
    rfl
  · rfl

/-! ## Sums of counts -/

/-- a running sum's window holds each count at most once: it is at most the sum of all counts -/
theorem window_sum_le {K P : ℕ} (hP : P + 1 = K) (c : Fin K → ℕ) (jj : Fin K) :
    (∑ n : Fin K, if hn : P ≤ jj.val + n.val then c ⟨jj.val + n.val - P, by omega⟩ else 0) ≤ ∑ l, c l := by
  have hK : 0 < K := by omega
  let pos : Fin K → Fin K := fun n => ⟨(jj.val + n.val - P) % K, Nat.mod_lt _ hK⟩
  have hg : ∀ n : Fin K, (if hn : P ≤ jj.val + n.val then c ⟨jj.val + n.val - P, by omega⟩ else 0)
      = if P ≤ jj.val + n.val then c (pos n) else 0 := by
    intro n
    by_cases hn : P ≤ jj.val + n.val
    · rw [dif_pos hn, if_pos hn]
      congr 1
      apply Fin.ext
      show jj.val + n.val - P = (jj.val + n.val - P) % K
      rw [Nat.mod_eq_of_lt (by omega)]
    · rw [dif_neg hn, if_neg hn]
  rw [Finset.sum_congr rfl (fun n _ => hg n), ← Finset.sum_filter]
  rw [← Finset.sum_image (f := c) (g := pos)]
  · exact Finset.sum_le_sum_of_subset (Finset.subset_univ _)
  · intro a ha b hb hab
    have ha' : P ≤ jj.val + a.val := by simpa using ha
    have hb' : P ≤ jj.val + b.val := by simpa using hb
    have hv : (jj.val + a.val - P) % K = (jj.val + b.val - P) % K := congrArg Fin.val hab
    rw [Nat.mod_eq_of_lt (by omega), Nat.mod_eq_of_lt (by omega)] at hv
    exact Fin.ext (by omega)

/-- and it holds the first count -/
theorem window_sum_ge {K P : ℕ} (hP : P + 1 = K) (c : Fin K → ℕ) (jj z : Fin K) (hz : z.val = 0) :
    c z ≤ ∑ n : Fin K, if hn : P ≤ jj.val + n.val then c ⟨jj.val + n.val - P, by omega⟩ else 0 := by
  have hn0 : P ≤ jj.val + (P - jj.val) := by omega
  refine le_trans (le_of_eq ?_) (Finset.single_le_sum
    (f := fun n : Fin K => if hn : P ≤ jj.val + n.val then c ⟨jj.val + n.val - P, by omega⟩ else 0)
    (fun _ _ => Nat.zero_le _) (Finset.mem_univ ⟨P - jj.val, by omega⟩))
  show c z = if hn : P ≤ jj.val + (P - jj.val) then c ⟨jj.val + (P - jj.val) - P, by omega⟩ else 0
  rw [dif_pos hn0]
  congr 1
  apply Fin.ext
  show z.val = jj.val + (P - jj.val) - P
  omega

/-- each of the 64 updates lands on at most one element: the counts sum to at most 64 -/
theorem cnt_sum_le (N : IVec S64 32) : ∑ l : Fin 2048, cnt N (ix1 l) ≤ 64 := by
  have hinj : ∀ a b : Fin 2048, (some (ix1 a) : Option S2048.Idx) = some (ix1 b) ↔ a = b := fun a b =>
    ⟨fun h => congrFun (Option.some.inj h) 0, fun h => by rw [h]⟩
  unfold cnt
  rw [Finset.sum_comm]
  refine le_trans (Finset.sum_le_sum (g := fun _ => 1) (fun n _ => ?_)) (by simp; decide)
  cases hT : markAt N n with
  | none => simp
  | some i =>
    obtain ⟨p, rfl⟩ : ∃ p : Fin 2048, i = ix1 p := ⟨i 0, eq_ix1 i⟩
    simp only [hinj, Finset.sum_ite_eq, Finset.mem_univ, if_true, le_refl]

/-- the first element's count is at least one: the first update lands there -/
theorem cnt_zero_ge (N : IVec S64 32) (z : Fin 2048) (hz : z.val = 0) : 1 ≤ cnt N (ix1 z) := by
  have hzz : (fun a => (⟨0, hpos2048 a⟩ : Fin (S2048.size a))) = ix1 z := by
    funext a
    obtain rfl : a = 0 := Subsingleton.elim _ _
    exact Fin.ext hz.symm
  have hm := markAt_zero N ⟨0, by decide⟩ rfl
  rw [hzz] at hm
  unfold cnt
  refine le_trans (le_of_eq ?_) (Finset.single_le_sum
    (f := fun n : Fin S64.numel => if markAt N n = some (ix1 z) then 1 else 0)
    (fun _ _ => Nat.zero_le _) (Finset.mem_univ ⟨0, by decide⟩))
  show 1 = if markAt N ⟨0, by decide⟩ = some (ix1 z) then 1 else 0
  rw [if_pos hm]

end Range

/-- every gather index lies in `[0, 63]` -/
theorem gIdx_lt (N : IVec S64 32) (j : Fin 2048) : (gIdx N (ix1 j)).toNat < 64 := by
  have hc := Range.cumsum_counts (K := 2048) (P := 2047) rfl (marks N) (fun l => Range.cnt N (ix1 l))
    (fun l => Range.marks_eq N (ix1 l)) (broadcastInDim S_ ![] bcast_S_S_ (constantI S_ 32 0#32)) (fun _ => rfl)
    reduceWindows_S2048 h_S_ j
  have hlo := le_trans (Range.cnt_zero_ge N ⟨0, by decide⟩ rfl)
    (Range.window_sum_ge (K := 2048) (P := 2047) rfl (fun l => Range.cnt N (ix1 l)) j ⟨0, by decide⟩ rfl)
  have hhi := le_trans (Range.window_sum_le (K := 2048) (P := 2047) rfl (fun l => Range.cnt N (ix1 l)) j)
    (Range.cnt_sum_le N)
  unfold gIdx
  show (IntOp.subi (Host.reduceWindow IntOp.addi ![2048] ![1] ![2047] ![0] (marks N)
    (broadcastInDim S_ ![] bcast_S_S_ (constantI S_ 32 0#32)) reduceWindows_S2048 h_S_ (ix1 j)) 1#32).toNat < 64
  rw [hc]
  generalize (∑ n : Fin 2048, if hn : 2047 ≤ j.val + n.val
    then (fun l => Range.cnt N (ix1 l)) ⟨j.val + n.val - 2047, by omega⟩ else 0) = S at hlo hhi ⊢
  show (BitVec.ofNat 32 S - 1#32).toNat < 64
  rw [StableHlo.Predicate.sub_one_ofNat S hlo (by omega), BitVec.toNat_ofNat, Nat.mod_eq_of_lt (by omega)]
  omega

/-- the molecule of atom `j` -/
def mol (N : IVec S64 32) (j : Fin 2048) : Fin 64 := ⟨(gIdx N (ix1 j)).toNat, gIdx_lt N j⟩

theorem gIdx_eq (N : IVec S64 32) (j : Fin 2048) : gIdx N (ix1 j) = BitVec.ofNat 32 (mol N j).val := by
  simp [mol]

end Cert.IdxChain

end
-- ==== Proof.IdxTake.lean ====
/-
  With every gather index in `[0, 63]` the `take`s never fill: atom `j`'s molecule id is `mol N j`, its gathered
  centre is row `mol N j` of `coords`, and the host-built indicator is `1` exactly at `(mol N j, j)`.

  The road.  A word `g` below 64 is not negative, so `take`'s wrap-around select keeps it; it passes both halves of
  the bounds check `0 ≤ g ≤ 63`, and an `and` of ones from one is one, so the fill branch is never taken.  The
  gather clamps a start index to `[0, 63]`, which leaves such a `g` alone: of an iota it reads `g` back, of a table
  of rows it reads row `g`.  Two 32-bit words below 64 are equal exactly when the numbers are, which turns the
  comparison with the iota into `mol N j = m`; a one-bit word read as an unsigned number is `1` or `0`.
-/
import proofs.«125921_j43465069035926_1_alg».proof.Proof.IdxRange
import Idealize.ShloMosaic.Lib.StableHlo.Predicate
import Idealize.ShloMosaic.Lib.ReduceAll

noncomputable section

namespace Cert.IdxChain

open Idealize.ShloMosaic Idealize.ShloMosaic.ValueIdx

variable {F : FTy → Type} [FloatOps F]

/-! ## Indices and broadcasts read at coordinates -/

/-- row `j` of a one-column table, spelt two ways -/
private theorem ixP_eq (j : Fin 2048) : (StableHlo.Predicate.ixP j : S2048x1.Idx) = ix2 j (0 : Fin 1) := by
  funext a; match a with | ⟨0, _⟩ => rfl | ⟨1, _⟩ => rfl

/-- position `j` of a vector, spelt two ways -/
private theorem ofFin_eq {n : Nat} (j : Fin n) : (Shape.Idx.ofFin j : (⟨1, ![n]⟩ : Shape).Idx) = ix1 j := by
  funext a; match a with | ⟨0, _⟩ => rfl

/-- a vector of 2048 laid out as a column reads, at `(j, c)`, the vector at `j` -/
private theorem bcast_col_apply {α : Type} (v : S2048.Idx → α) (j : Fin 2048) (c : Fin 1) :
    broadcastInDim S2048x1 ![0] bcast_S2048_S2048x1_0 v (ix2 j c) = v (ix1 j) := by
  unfold broadcastInDim
  congr 1
  funext a
  match a with
  | ⟨0, _⟩ => rfl

/-- a vector of 2048 copied along three columns reads, at `(j, k)`, the vector at `j` -/
private theorem bcast_rows3_apply {α : Type} (v : S2048.Idx → α) (j : Fin 2048) (k : Fin 3) :
    broadcastInDim S2048x3 ![0] bcast_S2048_S2048x3_0 v (ix2 j k) = v (ix1 j) := by
  unfold broadcastInDim
  congr 1
  funext a
  match a with
  | ⟨0, _⟩ => rfl

/-- a vector of 2048 laid along the second axis of a 64 × 2048 rectangle reads, at `(m, j)`, the vector at `j` -/
private theorem bcast_rowOf_apply {α : Type} (v : S2048.Idx → α) (m : Fin 64) (j : Fin 2048) :
    broadcastInDim S64x2048 ![0, 1] bcast_S1x2048_S64x2048_0_1 (broadcastInDim S1x2048 ![1] bcast_S2048_S1x2048_1 v) (ix2 m j)
      = v (ix1 j) := by
  simp only [broadcastInDim]
  congr 1
  funext a
  match a with
  | ⟨0, _⟩ => rfl

/-- a vector of 64 laid along the first axis of a 64 × 2048 rectangle reads, at `(m, j)`, the vector at `m` -/
private theorem bcast_colOf_apply {α : Type} (v : S64.Idx → α) (m : Fin 64) (j : Fin 2048) :
    broadcastInDim S64x2048 ![0, 1] bcast_S64x1_S64x2048_0_1 (broadcastInDim S64x1 ![0] bcast_S64_S64x1_0 v) (ix2 m j)
      = v (ix1 m) := by
  simp only [broadcastInDim]
  congr 1
  funext a
  match a with
  | ⟨0, _⟩ => rfl

/-- an integer comparison of two arrays, at an index, compares the elements -/
private theorem cmpi_apply {s : Shape} {w : Nat} (p : CmpIPredicate) (x y : IVec s w) (i : s.Idx) :
    cmpi p x y i = IntOp.cmpi p (x i) (y i) := rfl

/-- at the ideal values an unsigned word converts to the number it holds -/
private theorem uitofp_ideal_apply {s : Shape} {w : Nat} (x : IVec s w) (i : s.Idx) :
    (uitofp .f32 x : FVec Ideal s .f32) i = (((x i).toNat : ℝ) : EReal) := rfl

/-- two 32-bit words holding numbers below 64 are equal only if the numbers are -/
private theorem ofNat_inj_lt64 (a b : Nat) (ha : a < 64) (hb : b < 64) (h : BitVec.ofNat 32 a = BitVec.ofNat 32 b) :
    a = b := by
  have := congrArg BitVec.toNat h
  simp only [BitVec.toNat_ofNat] at this
  omega

/-! ## The index `take` uses, and its bounds check -/

/-- `take`'s index column at `(j, c)`, element by element: the wrap-around select on `g j` -/
theorem takeIdx_eq (g : IVec S2048 32) (j : Fin 2048) (c : Fin 1) :
    takeIdx g (ix2 j c) = Scalar.select (IntOp.cmpi .slt (g (ix1 j)) 0#32) (IntOp.addi (g (ix1 j)) 64#32) (g (ix1 j)) := by
  unfold takeIdx
  rw [bcast_col_apply]
  rfl

/-- an index below 64 is not negative: the select keeps it -/
theorem takeIdx_apply (g : IVec S2048 32) (j : Fin 2048) (c : Fin 1) (hg : (g (ix1 j)).toNat < 64) :
    takeIdx g (ix2 j c) = g (ix1 j) := by
  rw [takeIdx_eq]
  have h : ¬ IntOp.cmpi .slt (g (ix1 j)) 0#32 = 1#1 := by
    rw [StableHlo.Predicate.slt_iff_toNat (by omega) (by decide)]
    simp
  rw [eq_zero_of_ne_one h, select_zero]

/-- a fold by `and` from 1 over ones is 1 -/
private theorem foldl_andi_ones {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-- a reduction by `and`, from 1, of an array of ones is 1 at every result index -/
private theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x hx _

/-- with every index below 64 the bounds check `0 ≤ index ≤ 63` holds at every atom -/
theorem takeOk_apply (g : IVec S2048 32) (hg : ∀ j : Fin 2048, (g (ix1 j)).toNat < 64) (j : Fin 2048) :
    takeOk g (ix1 j) = 1#1 := by
  unfold takeOk
  refine reduce_andi_ones _ _ _ _ _ (fun i => ?_) rfl
  obtain ⟨p, q, rfl⟩ : ∃ (p : Fin 2048) (q : Fin 1), i = ix2 p q := ⟨i 0, i 1, eq_ix2 i⟩
  show IntOp.andi (IntOp.cmpi .sge (takeIdx g (ix2 p q)) 0#32) (IntOp.cmpi .sle (takeIdx g (ix2 p q)) 63#32) = 1#1
  rw [takeIdx_apply g p q (hg p), IntOp.andi_eq_one,
    StableHlo.Predicate.sge_iff_toNat (by have := hg p; omega) (by decide),
    StableHlo.Predicate.sle_iff_toNat (by have := hg p; omega) (by decide)]
  have := hg p
  constructor
  · simp
  · show (g (ix1 p)).toNat ≤ 63; omega

/-! ## The two gathers at a start index below 64 -/

/-- the scalar `take` of an iota at a start index below 64 is that index: the clamp to `[0, 63]` leaves it alone -/
theorem take_iota (idx : IVec S2048x1 32) (j : Fin 2048) (m : Nat) (hm : m < 64)
    (h : idx (ix2 j (0 : Fin 1)) = BitVec.ofNat 32 m) :
    Host.gather gathI (iotaInDim S64 32 0) idx (ix1 j) = BitVec.ofNat 32 m := by
  rw [← ofFin_eq, StableHlo.Predicate.gather_take gathI rfl rfl rfl rfl _ _ j (by decide), StableHlo.Predicate.iota_apply]
  show BitVec.ofNat 32 (min (idx (StableHlo.Predicate.ixP j)).toInt.toNat (64 - 1)) = _
  rw [ixP_eq, h, StableHlo.Predicate.toInt_ofNat_small m (by omega), Int.toNat_natCast]
  congr 1
  omega

/-- the start-indices entry a row gather reads for result `(j, k)` is `(j, 0)`: the one component of atom `j`'s
    start index -/
private theorem gathF_siIdx (j : Fin 2048) (k : Fin 3) (c : Fin gathF.startIndexMap.length) :
    gathF.siIdx (ix2 j k) c = ix2 j (0 : Fin 1) := by
  funext b
  apply Fin.ext
  match b with
  | ⟨0, _⟩ => rfl
  | ⟨1, _⟩ =>
    have := c.isLt
    show c.val = 0
    change c.val < 1 at this
    omega

/-- the operand index of the row gather at result `(j, k)`: on the row axis the start index (below 64, so the clamp to
    `[0, 63]` leaves it alone), on the column axis the offset coordinate `k` -/
private theorem gathF_operandIdx (idx : IVec S2048x1 32) (j : Fin 2048) (k : Fin 3) (m : Fin 64)
    (h : idx (ix2 j (0 : Fin 1)) = BitVec.ofNat 32 m.val) :
    gathF.operandIdx (ix2 j k) idx = ix2 m k := by
  have hb : ∀ a : Fin 2, a ∉ gathF.operandBatchingDims := fun a => List.not_mem_nil
  have h0 : (gathF.operandIdx (ix2 j k) idx (0 : Fin 2)).val = m.val := by
    have hk : (0 : Fin 2) ∉ gathF.sKept := by rw [GatherDims.mem_sKept]; decide
    have hm : (0 : Fin 2) ∈ gathF.startIndexMap := by decide
    simp only [GatherDims.operandIdx, GatherDims.batchCoord_eq_zero _ _ _ (hb _), GatherDims.offCoord_eq_zero _ _ _ hk,
      Nat.add_zero, GatherDims.start, dif_pos hm, gathF_siIdx, h]
    rw [StableHlo.Predicate.toInt_ofNat_small m.val (by omega), Int.toNat_natCast]
    show min m.val (64 - 1) = m.val
    omega
  have h1 : (gathF.operandIdx (ix2 j k) idx (1 : Fin 2)).val = k.val := by
    have hk : (1 : Fin 2) ∈ gathF.sKept := by rw [GatherDims.mem_sKept]; decide
    have hm : (1 : Fin 2) ∉ gathF.startIndexMap := by decide
    simp only [GatherDims.operandIdx, GatherDims.batchCoord_eq_zero _ _ _ (hb _),
      Nat.add_zero, GatherDims.start, dif_neg hm, GatherDims.offCoord, dif_pos hk, Nat.zero_add]
    rfl
  funext a
  apply Fin.ext
  match a with
  | ⟨0, _⟩ => exact h0
  | ⟨1, _⟩ => exact h1

/-- the row `take` at a start index below 64 reads that row -/
theorem take_rows {α : Type} (x : S64x3.Idx → α) (idx : IVec S2048x1 32) (j : Fin 2048) (k : Fin 3) (m : Fin 64)
    (h : idx (ix2 j (0 : Fin 1)) = BitVec.ofNat 32 m.val) :
    Host.gather gathF x idx (ix2 j k) = x (ix2 m k) := by
  unfold Host.gather
  rw [gathF_operandIdx idx j k m h]

/-! ## The three reads -/

theorem molVec_apply (N : IVec S64 32) (j : Fin 2048) : molVec N (ix1 j) = BitVec.ofNat 32 (mol N j).val := by
  have hg : ∀ j : Fin 2048, (gIdx N (ix1 j)).toNat < 64 := gIdx_lt N
  unfold molVec
  rw [select_apply, takeOk_apply _ hg j, select_one]
  exact take_iota _ j _ (mol N j).isLt (by rw [takeIdx_apply _ j 0 (hg j), gIdx_eq])

theorem coordsA_apply (N : IVec S64 32) (coords : FVec F S64x3 .f32) (j : Fin 2048) (k : Fin 3) :
    coordsA N coords (ix2 j k) = coords (ix2 (mol N j) k) := by
  have hg : ∀ j : Fin 2048, (gIdx N (ix1 j)).toNat < 64 := gIdx_lt N
  unfold coordsA
  rw [select_apply, bcast_rows3_apply, takeOk_apply _ hg j, select_one]
  exact take_rows _ _ j k (mol N j) (by rw [takeIdx_apply _ j 0 (hg j), gIdx_eq])

theorem onehot_apply (N : IVec S64 32) (m : Fin 64) (j : Fin 2048) :
    onehot (F := Ideal) N (ix2 m j) = if mol N j = m then (1 : EReal) else 0 := by
  unfold onehot
  rw [uitofp_ideal_apply, cmpi_apply, bcast_rowOf_apply, bcast_colOf_apply, molVec_apply]
  show (((IntOp.cmpi .eq (BitVec.ofNat 32 (mol N j).val) (BitVec.ofNat 32 m.val)).toNat : ℝ) : EReal) = _
  by_cases hm : mol N j = m
  · rw [if_pos hm, hm, StableHlo.Predicate.cmpi_eq_iff.2 rfl]
    simp
  · have hne : ¬ IntOp.cmpi .eq (BitVec.ofNat 32 (mol N j).val) (BitVec.ofNat 32 m.val) = 1#1 := fun h =>
      hm (Fin.ext (ofNat_inj_lt64 _ _ (mol N j).isLt m.isLt (StableHlo.Predicate.cmpi_eq_iff.1 h)))
    rw [if_neg hm, eq_zero_of_ne_one hne]
    simp

end Cert.IdxChain

end
-- ==== Proof.Bridge.lean ====
/-
  The kernel's function is the specification's.  The accumulator after the eight points holds, at `(m, g)`, the sum
  over all 2048 atoms `i` of `[mol i = m] · (atom i against centre g)`: each point adds its 256 atoms, and the eight
  tiles of 256 are the 2048 atoms.  Multiplying by the indicator picks, for column `j`, the entry at `g = mol j`.
-/
import proofs.«125921_j43465069035926_1_alg».proof.Proof.KerPayload
import proofs.«125921_j43465069035926_1_alg».proof.Proof.IdxTake
import Mathlib.Algebra.BigOperators.Fin
import Mathlib.Algebra.BigOperators.Intervals

noncomputable section

namespace Cert.KernelIdeal.Bridge

open Cert.KernelIdeal Cert.KernelIdeal.Gen Idealize.ShloMosaic Idealize.ShloMosaic.ValueIdx

/-- atom number `256 t + i'` (kept below 2048 by a remainder that does nothing for `t < 8`) -/
def atom (t : ℕ) (i' : Fin 256) : Fin 2048 := ⟨(256 * t + i'.val) % 2048, Nat.mod_lt _ (by decide)⟩

theorem atom_eq (t : Fin 8) (i' : Fin 256) : atom t.val i' = finProdFinEquiv (t, i') := by
  apply Fin.ext
  simp only [atom, finProdFinEquiv_apply_val]
  have := t.isLt; have := i'.isLt
  omega

section
variable (A0 : Vec Ideal S2048x128 .f32) (A1 : Vec Ideal S2048x3 .f32) (OH : Vec Ideal S64x2048 .f32) (W : Vec Ideal S128x46 .f32)
  (b : Vec Ideal S46 .f32) (C : Vec Ideal S64x3 .f32)

/-- one tile's contribution to the accumulator's entry `(m, g)` -/
def tileSum (m g : Fin 64) (t : ℕ) : EReal :=
  ∑ i' : Fin 256, OH (ix2 m (atom t i')) * Cert.Spec.atomCentre A0 W b A1 C (atom t i') g

theorem step_eq (m g : Fin 64) (t : ℕ) (acc : Vec Ideal S64x64 .f32) :
    Body.scStep (F := Ideal) (Body.rowsT (F := Ideal) (n := 128) t A0) (Body.rowsT (F := Ideal) (n := 3) t A1) W b C (Body.colsT (F := Ideal) (n := 64) t OH) acc (ix2 m g)
      = acc (ix2 m g) + tileSum A0 A1 OH W b C m g t := by
  rw [Payload.scStep_apply]
  rfl

theorem scAfter_eq (m g : Fin 64) (n : ℕ) :
    Body.scAfter (F := Ideal) A0 A1 OH W b C n (ix2 m g) = ∑ t ∈ Finset.range (n + 1), tileSum A0 A1 OH W b C m g t := by
  induction n with
  | zero =>
    rw [Body.scAfter, step_eq, Payload.pay1_apply, zero_add, Finset.range_one, Finset.sum_singleton]
  | succ n ih =>
    rw [Body.scAfter, step_eq, ih, Finset.sum_range_succ (fun t => tileSum A0 A1 OH W b C m g t) (n + 1)]

theorem sc7_eq (m g : Fin 64) :
    Body.scAfter (F := Ideal) A0 A1 OH W b C 7 (ix2 m g) = ∑ i : Fin 2048, OH (ix2 m i) * Cert.Spec.atomCentre A0 W b A1 C i g := by
  rw [scAfter_eq, Finset.sum_range (fun t => tileSum A0 A1 OH W b C m g t)]
  simp only [tileSum]
  rw [← Finset.sum_product' (Finset.univ : Finset (Fin 8)) (Finset.univ : Finset (Fin 256))
    (fun t i' => OH (ix2 m (atom t.val i')) * Cert.Spec.atomCentre A0 W b A1 C (atom t.val i') g)]
  rw [Finset.univ_product_univ]
  rw [← Equiv.sum_comp (finProdFinEquiv (m := 8) (n := 256)) (fun i : Fin 2048 => OH (ix2 m i) * Cert.Spec.atomCentre A0 W b A1 C i g)]
  refine Finset.sum_congr rfl fun p _ => ?_
  obtain ⟨t, i'⟩ := p
  show OH (ix2 m (atom t.val i')) * _ = _
  rw [atom_eq]
end

/-- the kernel's pure function, with the host-built indicator, is the specification's array -/
theorem kerOut_eq (A0 : Vec Ideal S2048x128 .f32) (A1 : Vec Ideal S2048x3 .f32) (W : Vec Ideal S128x46 .f32)
    (b : Vec Ideal S46 .f32) (C : Vec Ideal S64x3 .f32) (N : IVec Cert.IdxChain.S64 32) :
    Body.kerOut (F := Ideal) A0 A1 (Cert.IdxChain.onehot (F := Ideal) N) W b C
      = Cert.Spec.resultArr (Cert.IdxChain.mol N) A0 W b A1 C := by
  funext y
  obtain ⟨m, j, rfl⟩ : ∃ (m : Fin 64) (j : Fin 2048), y = ix2 m j := ⟨y 0, y 1, eq_ix2 y⟩
  rw [Cert.Spec.resultArr_apply, Body.kerOut, Payload.outStep_apply]
  simp only [sc7_eq, Cert.IdxChain.onehot_apply]
  simp only [mul_ite, mul_one, mul_zero, ite_mul, one_mul, zero_mul]
  rw [Finset.sum_ite_eq]
  simp only [Finset.mem_univ, if_true]
  rw [Cert.Spec.result, Finset.sum_filter]

end Cert.KernelIdeal.Bridge

end
-- ==== Proof.RefStages.lean ====
/-
  The reference's float stages as functions: from the coefficient matrix `out · W + b` and the pairwise differences
  `R[i] − centre[j]` to the two segment sums and their sum.  The molecule ids `molv` and the gathered centres `ca`
  are parameters here: both come from the index chain.
-/
import proofs.«125921_j43465069035926_1_alg».proof.Proof.Gen.ReferenceIdeal

noncomputable section

namespace Cert.ReferenceIdeal.Stages

open Cert.ReferenceIdeal Cert.ReferenceIdeal.Gen Idealize.ShloMosaic

variable {F : FTy → Type} [FloatOps F]

/-- `out · W + b`: every atom's 46 coefficients -/
def coeffs (out : FVec F S2048x128 .f32) (W : FVec F S128x46 .f32) (b : FVec F S46 .f32) : FVec F S2048x46 .f32 :=
  addf (Host.dotGeneral dot_S2048x128_S128x46_S2048x46_1_0_0_1_n_n none out W)
    (broadcastInDim S2048x46 ![0, 1] bcast_S1x46_S2048x46_0_1 (broadcastInDim S1x46 ![1] bcast_S46_S1x46_1 b))

/-- the squared s-type exponents (columns 0–7, squared) -/
def sAlpha (cf : FVec F S2048x46 .f32) : FVec F S2048x8 .f32 :=
  mulf (extractStridedSlice S2048x8 ![0, 0] cf slices_S2048x46_S2048x8_0_0) (extractStridedSlice S2048x8 ![0, 0] cf slices_S2048x46_S2048x8_0_0)
/-- the s-type weights (columns 8–15) -/
def sC (cf : FVec F S2048x46 .f32) : FVec F S2048x8 .f32 := extractStridedSlice S2048x8 ![0, 8] cf slices_S2048x46_S2048x8_0_8
/-- the squared p-type exponents (columns 16–21, squared) -/
def pAlpha (cf : FVec F S2048x46 .f32) : FVec F S2048x6 .f32 :=
  mulf (extractStridedSlice S2048x6 ![0, 16] cf slices_S2048x46_S2048x6_0_16) (extractStridedSlice S2048x6 ![0, 16] cf slices_S2048x46_S2048x6_0_16)
/-- the p-type weights (columns 22–27) -/
def pC (cf : FVec F S2048x46 .f32) : FVec F S2048x6 .f32 := extractStridedSlice S2048x6 ![0, 22] cf slices_S2048x46_S2048x6_0_22
/-- the six direction vectors (columns 28–45 as 6 × 3) -/
def pV (cf : FVec F S2048x46 .f32) : FVec F S2048x6x3 .f32 :=
  shapeCast S2048x6x3 (extractStridedSlice S2048x18 ![0, 28] cf slices_S2048x46_S2048x18_0_28) shapeCasts_S2048x18_S2048x6x3

/-- `R[i] − centre[j]`, component by component -/
def diff (R : FVec F S2048x3 .f32) (ca : FVec F S2048x3 .f32) : FVec F S2048x2048x3 .f32 :=
  subf (broadcastInDim S2048x2048x3 ![0, 1, 2] bcast_S2048x1x3_S2048x2048x3_0_1_2 (broadcastInDim S2048x1x3 ![0, 2] bcast_S2048x3_S2048x1x3_0_2 R))
    (broadcastInDim S2048x2048x3 ![0, 1, 2] bcast_S1x2048x3_S2048x2048x3_0_1_2 (broadcastInDim S1x2048x3 ![1, 2] bcast_S2048x3_S1x2048x3_1_2 ca))

/-- the distance: the square root of the sum of the squared components -/
def dist (d : FVec F S2048x2048x3 .f32) : FVec F S2048x2048 .f32 :=
  Host.sqrt (Host.reduceAdd (mulf d d) (constant S_ .f32 0x00000000#32) reducesTo_S2048x2048x3_S2048x2048_d2 h_S_)

/-- the s-type sum over the eight exponents, for every pair of atoms -/
def sOut (cf : FVec F S2048x46 .f32) (ds : FVec F S2048x2048 .f32) : FVec F S2048x2048 .f32 :=
  Host.reduceAdd
    (mulf (broadcastInDim S2048x8x2048 ![0, 1, 2] bcast_S2048x8x1_S2048x8x2048_0_1_2 (broadcastInDim S2048x8x1 ![0, 1] bcast_S2048x8_S2048x8x1_0_1 (sC cf)))
      (Host.exp (mulf
        (broadcastInDim S2048x8x2048 ![0, 1, 2] bcast_S2048x8x1_S2048x8x2048_0_1_2 (Host.negf (broadcastInDim S2048x8x1 ![0, 1] bcast_S2048x8_S2048x8x1_0_1 (sAlpha cf))))
        (broadcastInDim S2048x8x2048 ![0, 1, 2] bcast_S2048x1x2048_S2048x8x2048_0_1_2 (broadcastInDim S2048x1x2048 ![0, 2] bcast_S2048x2048_S2048x1x2048_0_2 ds)))))
    (constant S_ .f32 0x00000000#32) reducesTo_S2048x8x2048_S2048x2048_d1 h_S_

/-- the p-type Gaussians -/
def pGauss (cf : FVec F S2048x46 .f32) (ds : FVec F S2048x2048 .f32) : FVec F S2048x6x2048 .f32 :=
  mulf (broadcastInDim S2048x6x2048 ![0, 1, 2] bcast_S2048x6x1_S2048x6x2048_0_1_2 (broadcastInDim S2048x6x1 ![0, 1] bcast_S2048x6_S2048x6x1_0_1 (pC cf)))
    (Host.exp (mulf
      (broadcastInDim S2048x6x2048 ![0, 1, 2] bcast_S2048x6x1_S2048x6x2048_0_1_2 (Host.negf (broadcastInDim S2048x6x1 ![0, 1] bcast_S2048x6_S2048x6x1_0_1 (pAlpha cf))))
      (broadcastInDim S2048x6x2048 ![0, 1, 2] bcast_S2048x1x2048_S2048x6x2048_0_1_2 (broadcastInDim S2048x1x2048 ![0, 2] bcast_S2048x2048_S2048x1x2048_0_2 (mulf ds ds)))))

/-- the direction vectors against the absolute differences -/
def ang (cf : FVec F S2048x46 .f32) (d : FVec F S2048x2048x3 .f32) : FVec F S2048x6x2048 .f32 :=
  Host.reduceAdd
    (mulf (broadcastInDim S2048x6x2048x3 ![0, 1, 2, 3] bcast_S2048x6x1x3_S2048x6x2048x3_0_1_2_3 (broadcastInDim S2048x6x1x3 ![0, 1, 3] bcast_S2048x6x3_S2048x6x1x3_0_1_3 (pV cf)))
      (broadcastInDim S2048x6x2048x3 ![0, 1, 2, 3] bcast_S2048x1x2048x3_S2048x6x2048x3_0_1_2_3 (broadcastInDim S2048x1x2048x3 ![0, 2, 3] bcast_S2048x2048x3_S2048x1x2048x3_0_2_3 (Host.absf d))))
    (constant S_ .f32 0x00000000#32) reducesTo_S2048x6x2048x3_S2048x6x2048_d3 h_S_

/-- the p-type sum over the six exponents, for every pair of atoms -/
def pOut (cf : FVec F S2048x46 .f32) (d : FVec F S2048x2048x3 .f32) (ds : FVec F S2048x2048 .f32) : FVec F S2048x2048 .f32 :=
  Host.reduceAdd (mulf (pGauss cf ds) (ang cf d)) (constant S_ .f32 0x00000000#32) reducesTo_S2048x6x2048_S2048x2048_d1 h_S_

/-- rows summed by molecule id, into zeros -/
def segSum (molv : IVec S2048 32) (x : FVec F S2048x2048 .f32) : FVec F S64x2048 .f32 :=
  Host.scatterAdd scatter_S64x2048_S2048x1_S2048x2048_1_0_0_1 (broadcastInDim S64x2048 ![] bcast_S_S64x2048 (constant S_ .f32 0x00000000#32))
    (broadcastInDim S2048x1 ![0] bcast_S2048_S2048x1_0 molv) x

/-- the reference's result from the arguments, the molecule ids and the gathered centres -/
def refOut (out : FVec F S2048x128 .f32) (R : FVec F S2048x3 .f32) (W : FVec F S128x46 .f32) (b : FVec F S46 .f32)
    (molv : IVec S2048 32) (ca : FVec F S2048x3 .f32) : FVec F S64x2048 .f32 :=
  addf (segSum molv (sOut (coeffs out W b) (dist (diff R ca))))
    (segSum molv (pOut (coeffs out W b) (diff R ca) (dist (diff R ca))))

end Cert.ReferenceIdeal.Stages

end
-- ==== Proof.RefRun.lean ====
/-
  The reference program's @main as one straight line of host operations, the outlined functions' operations listed
  at their call sites over the calls' buffer records, and the contents of the result buffer at the end of the line
  as a function of the arguments' launch contents.  The line is taken in twelve consecutive stretches: the index
  chain from the counts in four (roll and zero in front; running sum, wrap and scattered ones; running sum minus one;
  the bounds-checked take), the same chain again for the centres' rows, the coefficient matrix and its column blocks,
  the pairwise differences and their norm, the s-type sum scattered by molecule, and the p-type sum scattered by
  molecule with the final sum.  What a stretch leaves in a buffer is stated from ANY contents of the buffers it reads.
-/
import proofs.«125921_j43465069035926_1_alg».proof.Proof.Gen.ReferenceIdeal
import proofs.«125921_j43465069035926_1_alg».proof.Proof.IdxChain
import proofs.«125921_j43465069035926_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/
/-- the range 0 … 63; the counts (`%arg4`) rolled by one place and a zero written in front: `%0 … %3` -/
abbrev opsA1 : List (HloOp τ sig (Elt F)) :=
  [ nullary main_v0 (iotaInDim S64 32 0),
    TRef.unary (.of main_arg4 : TRef sig ⟨S64, .i32⟩) main_call0.v0 (extractStridedSlice S1 ![63] · slices_S64_S1_63),
    TRef.unary (.of main_arg4 : TRef sig ⟨S64, .i32⟩) main_call0.v1 (extractStridedSlice S63 ![0] · slices_S64_S63_0),
    TRef.binary main_call0.v0 main_call0.v1 main_call0.v2 (fun a b => concatenate S64 0 [⟨S1, a⟩, ⟨S63, b⟩] concatenates_S1_S63_S64_d0),
    nullary main_c (constantI S_ 32 0#32),
    unary main_c main_v2 (broadcastInDim S1 ![] bcast_S_S1),
    nullary main_c_0 (constantI S_ 32 0#32),
    ternary main_v1 main_v2 main_c_0 main_v3 (fun x i u => Host.scatter scatter_S64_S1_S__n_0_0_0 (fun _ b => b) x i u) ]

/-- the running sum of those, wrapped where negative, and a one scattered-and-added at each: `%4 … %13` -/
abbrev opsA2 : List (HloOp τ sig (Elt F)) :=
  [ TRef.nullary main_call1.call0.c (constantI S_ 32 0#32),
    TRef.unary main_call1.call0.c main_call1.call0.v0 (broadcastInDim S_ ![] bcast_S_S_),
    TRef.binary (.of main_v3) main_call1.call0.v0 main_call1.call0.v1 (fun x v => Host.reduceWindow IntOp.addi ![64] ![1] ![63] ![0] x v reduceWindows_S64_S64_w64s1p63_0 h_S_),
    nullary main_c_1 (constantI S_ 32 0#32),
    unary main_c_1 main_v5 (broadcastInDim S2048 ![] bcast_S_S2048),
    nullary main_c_2 (constantI S_ 32 0#32),
    unary main_c_2 main_v6 (broadcastInDim S64 ![] bcast_S_S64),
    binary main_v4 main_v6 main_v7 (cmpi .slt),
    nullary main_c_3 (constantI S_ 32 2048#32),
    unary main_c_3 main_v8 (broadcastInDim S64 ![] bcast_S_S64),
    binary main_v4 main_v8 main_v9 addi,
    ternary main_v7 main_v9 main_v4 main_v10 select,
    unary main_v10 main_v11 (broadcastInDim S64x1 ![0] bcast_S64_S64x1_0),
    nullary main_c_4 (constantI S_ 32 1#32),
    unary main_c_4 main_v12 (broadcastInDim S64 ![] bcast_S_S64),
    ternary main_v5 main_v11 main_v12 main_v13 (fun x i u => Host.scatter scatter_S2048_S64x1_S64_n_0_0_1 IntOp.addi x i u) ]

/-- the running sum of the ones, minus one: `%14 … %16` -/
abbrev opsA3 : List (HloOp τ sig (Elt F)) :=
  [ TRef.nullary main_call2.call0.c (constantI S_ 32 0#32),
    TRef.unary main_call2.call0.c main_call2.call0.v0 (broadcastInDim S_ ![] bcast_S_S_),
    TRef.binary (.of main_v13) main_call2.call0.v0 main_call2.call0.v1 (fun x v => Host.reduceWindow IntOp.addi ![2048] ![1] ![2047] ![0] x v reduceWindows_S2048_S2048_w2048s1p2047_0 h_S_),
    nullary main_c_5 (constantI S_ 32 1#32),
    unary main_c_5 main_v15 (broadcastInDim S2048 ![] bcast_S_S2048),
    binary main_v14 main_v15 main_v16 subi ]

/-- the `take` of the range by that index, with its bounds check: `%17` -/
abbrev opsA4 : List (HloOp τ sig (Elt F)) :=
  [ TRef.nullary main_call3.c (constantI S_ 32 0#32),
    TRef.unary main_call3.c main_call3.v0 (broadcastInDim S2048 ![] bcast_S_S2048),
    TRef.binary (.of main_v16) main_call3.v0 main_call3.v1 (cmpi .slt),
    TRef.nullary main_call3.c_0 (constantI S_ 32 64#32),
    TRef.unary main_call3.c_0 main_call3.v2 (broadcastInDim S2048 ![] bcast_S_S2048),
    TRef.binary (.of main_v16) main_call3.v2 main_call3.v3 addi,
    TRef.ternary main_call3.v1 main_call3.v3 (.of main_v16) main_call3.call0.v0 select,
    TRef.unary main_call3.call0.v0 main_call3.v5 (broadcastInDim S2048x1 ![0] bcast_S2048_S2048x1_0),
    TRef.nullary main_call3.c_1 (constantI S1 32 63#32),
    TRef.nullary main_call3.c_2 (constantI S_ 32 0#32),
    TRef.unary main_call3.c_2 main_call3.v6 (broadcastInDim S2048x1 ![] bcast_S_S2048x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S2048x1 ![0, 1] bcast_S1x1_S2048x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S2048x1_S2048_d1 h_S_),
    TRef.binary (.of main_v0) main_call3.v5 main_call3.v13 (fun x i => Host.gather gather_S64_S2048x1_S2048_n_0_n_n_0_1_1 x i),
    TRef.nullary main_call3.c_4 (constantI S_ 32 2147483648#32),
    TRef.unary main_call3.c_4 main_call3.v14 (broadcastInDim S2048 ![] bcast_S_S2048),
    TRef.ternary main_call3.v12 main_call3.v13 main_call3.v14 main_call3.v15 select ]

/-- the counts rolled and a zero written in front, once more: `%18 … %20` -/
abbrev opsB1 : List (HloOp τ sig (Elt F)) :=
  [ TRef.unary (.of main_arg4 : TRef sig ⟨S64, .i32⟩) main_call4.v0 (extractStridedSlice S1 ![63] · slices_S64_S1_63),
    TRef.unary (.of main_arg4 : TRef sig ⟨S64, .i32⟩) main_call4.v1 (extractStridedSlice S63 ![0] · slices_S64_S63_0),
    TRef.binary main_call4.v0 main_call4.v1 main_call4.v2 (fun a b => concatenate S64 0 [⟨S1, a⟩, ⟨S63, b⟩] concatenates_S1_S63_S64_d0),
    nullary main_c_6 (constantI S_ 32 0#32),
    unary main_c_6 main_v19 (broadcastInDim S1 ![] bcast_S_S1),
    nullary main_c_7 (constantI S_ 32 0#32),
    ternary main_v18 main_v19 main_c_7 main_v20 (fun x i u => Host.scatter scatter_S64_S1_S__n_0_0_0 (fun _ b => b) x i u) ]

/-- their running sum, wrapped, and the ones scattered-and-added: `%21 … %30` -/
abbrev opsB2 : List (HloOp τ sig (Elt F)) :=
  [ TRef.nullary main_call5.call0.c (constantI S_ 32 0#32),
    TRef.unary main_call5.call0.c main_call5.call0.v0 (broadcastInDim S_ ![] bcast_S_S_),
    TRef.binary (.of main_v20) main_call5.call0.v0 main_call5.call0.v1 (fun x v => Host.reduceWindow IntOp.addi ![64] ![1] ![63] ![0] x v reduceWindows_S64_S64_w64s1p63_0 h_S_),
    nullary main_c_8 (constantI S_ 32 0#32),
    unary main_c_8 main_v22 (broadcastInDim S2048 ![] bcast_S_S2048),
    nullary main_c_9 (constantI S_ 32 0#32),
    unary main_c_9 main_v23 (broadcastInDim S64 ![] bcast_S_S64),
    binary main_v21 main_v23 main_v24 (cmpi .slt),
    nullary main_c_10 (constantI S_ 32 2048#32),
    unary main_c_10 main_v25 (broadcastInDim S64 ![] bcast_S_S64),
    binary main_v21 main_v25 main_v26 addi,
    ternary main_v24 main_v26 main_v21 main_v27 select,
    unary main_v27 main_v28 (broadcastInDim S64x1 ![0] bcast_S64_S64x1_0),
    nullary main_c_11 (constantI S_ 32 1#32),
    unary main_c_11 main_v29 (broadcastInDim S64 ![] bcast_S_S64),
    ternary main_v22 main_v28 main_v29 main_v30 (fun x i u => Host.scatter scatter_S2048_S64x1_S64_n_0_0_1 IntOp.addi x i u) ]

/-- the running sum of the ones, minus one: `%31 … %33` -/
abbrev opsB3 : List (HloOp τ sig (Elt F)) :=
  [ TRef.nullary main_call6.call0.c (constantI S_ 32 0#32),
    TRef.unary main_call6.call0.c main_call6.call0.v0 (broadcastInDim S_ ![] bcast_S_S_),
    TRef.binary (.of main_v30) main_call6.call0.v0 main_call6.call0.v1 (fun x v => Host.reduceWindow IntOp.addi ![2048] ![1] ![2047] ![0] x v reduceWindows_S2048_S2048_w2048s1p2047_0 h_S_),
    nullary main_c_12 (constantI S_ 32 1#32),
    unary main_c_12 main_v32 (broadcastInDim S2048 ![] bcast_S_S2048),
    binary main_v31 main_v32 main_v33 subi ]

/-- the `take` of the centres' rows (`%arg3`) by that index, with its bounds check: `%34` -/
abbrev opsB4 : List (HloOp τ sig (Elt F)) :=
  [ TRef.nullary main_call7.c (constantI S_ 32 0#32),
    TRef.unary main_call7.c main_call7.v0 (broadcastInDim S2048 ![] bcast_S_S2048),
    TRef.binary (.of main_v33) main_call7.v0 main_call7.v1 (cmpi .slt),
    TRef.nullary main_call7.c_0 (constantI S_ 32 64#32),
    TRef.unary main_call7.c_0 main_call7.v2 (broadcastInDim S2048 ![] bcast_S_S2048),
    TRef.binary (.of main_v33) main_call7.v2 main_call7.v3 addi,
    TRef.ternary main_call7.v1 main_call7.v3 (.of main_v33) main_call7.call0.v0 select,
    TRef.unary main_call7.call0.v0 main_call7.v5 (broadcastInDim S2048x1 ![0] bcast_S2048_S2048x1_0),
    TRef.nullary main_call7.c_1 (constantI S1 32 63#32),
    TRef.nullary main_call7.c_2 (constantI S_ 32 0#32),
    TRef.unary main_call7.c_2 main_call7.v6 (broadcastInDim S2048x1 ![] bcast_S_S2048x1),
    TRef.binary main_call7.v5 main_call7.v6 main_call7.v7 (cmpi .sge),
    TRef.unary main_call7.c_1 main_call7.v8 (broadcastInDim S1x1 ![1] bcast_S1_S1x1_1),
    TRef.unary main_call7.v8 main_call7.v9 (broadcastInDim S2048x1 ![0, 1] bcast_S1x1_S2048x1_0_1),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S2048x1_S2048_d1 h_S_),
    TRef.binary (.of main_arg3) main_call7.v5 main_call7.v13 (fun x i => Host.gather gather_S64x3_S2048x1_S2048x3_1_0_n_n_0_1_13 x i),
    TRef.unary main_call7.v12 main_call7.v14 (broadcastInDim S2048x3 ![0] bcast_S2048_S2048x3_0),
    TRef.nullary main_call7.cst (constant S_ .f32 0x7FC00000#32),
    TRef.unary main_call7.cst main_call7.v15 (broadcastInDim S2048x3 ![] bcast_S_S2048x3),
    TRef.ternary main_call7.v14 main_call7.v13 main_call7.v15 main_call7.v16 select ]

/-- the coefficient matrix `out · W + b` and its column blocks: `%35 … %45` -/
abbrev opsC : List (HloOp τ sig (Elt F)) :=
  [ binary main_arg0 main_arg5 main_v35 (fun l r => Host.dotGeneral dot_S2048x128_S128x46_S2048x46_1_0_0_1_n_n none l r),
    unary main_arg6 main_v36 (broadcastInDim S1x46 ![1] bcast_S46_S1x46_1),
    unary main_v36 main_v37 (broadcastInDim S2048x46 ![0, 1] bcast_S1x46_S2048x46_0_1),
    binary main_v35 main_v37 main_v38 addf,
    unary main_v38 main_v39 (extractStridedSlice S2048x8 ![0, 0] · slices_S2048x46_S2048x8_0_0),
    binary main_v39 main_v39 main_v40 mulf,
    unary main_v38 main_v41 (extractStridedSlice S2048x8 ![0, 8] · slices_S2048x46_S2048x8_0_8),
    unary main_v38 main_v42 (extractStridedSlice S2048x6 ![0, 16] · slices_S2048x46_S2048x6_0_16),
    binary main_v42 main_v42 main_v43 mulf,
    unary main_v38 main_v44 (extractStridedSlice S2048x6 ![0, 22] · slices_S2048x46_S2048x6_0_22),
    unary main_v38 main_v45 (extractStridedSlice S2048x18 ![0, 28] · slices_S2048x46_S2048x18_0_28) ]

/-- the direction vectors' reshape, the pairwise differences and their norm: `%46 … %52` -/
abbrev opsD : List (HloOp τ sig (Elt F)) :=
  [ reshape main_v45 main_v46 rfl shapeCasts_S2048x18_S2048x6x3,
    unary main_arg2 main_v47 (broadcastInDim S2048x1x3 ![0, 2] bcast_S2048x3_S2048x1x3_0_2),
    unary main_v34 main_v48 (broadcastInDim S1x2048x3 ![1, 2] bcast_S2048x3_S1x2048x3_1_2),
    unary main_v47 main_v49 (broadcastInDim S2048x2048x3 ![0, 1, 2] bcast_S2048x1x3_S2048x2048x3_0_1_2),
    unary main_v48 main_v50 (broadcastInDim S2048x2048x3 ![0, 1, 2] bcast_S1x2048x3_S2048x2048x3_0_1_2),
    binary main_v49 main_v50 main_v51 subf,
    TRef.binary (.of main_v51) (.of main_v51) main_call8.v0 mulf,
    TRef.nullary main_call8.cst (constant S_ .f32 0x00000000#32),
    TRef.binary main_call8.v0 main_call8.cst main_call8.v1 (fun x v => Host.reduceAdd x v reducesTo_S2048x2048x3_S2048x2048_d2 h_S_),
    TRef.unary main_call8.v1 main_call8.v2 Host.sqrt ]

/-- the s-type sum and its scatter by molecule: `%53 … %66` -/
abbrev opsE : List (HloOp τ sig (Elt F)) :=
  [ unary main_v41 main_v53 (broadcastInDim S2048x8x1 ![0, 1] bcast_S2048x8_S2048x8x1_0_1),
    unary main_v40 main_v54 (broadcastInDim S2048x8x1 ![0, 1] bcast_S2048x8_S2048x8x1_0_1),
    unary main_v54 main_v55 Host.negf,
    unary main_v52 main_v56 (broadcastInDim S2048x1x2048 ![0, 2] bcast_S2048x2048_S2048x1x2048_0_2),
    unary main_v55 main_v57 (broadcastInDim S2048x8x2048 ![0, 1, 2] bcast_S2048x8x1_S2048x8x2048_0_1_2),
    unary main_v56 main_v58 (broadcastInDim S2048x8x2048 ![0, 1, 2] bcast_S2048x1x2048_S2048x8x2048_0_1_2),
    binary main_v57 main_v58 main_v59 mulf,
    unary main_v59 main_v60 Host.exp,
    unary main_v53 main_v61 (broadcastInDim S2048x8x2048 ![0, 1, 2] bcast_S2048x8x1_S2048x8x2048_0_1_2),
    binary main_v61 main_v60 main_v62 mulf,
    nullary main_cst (constant S_ .f32 0x00000000#32),
    binary main_v62 main_cst main_v63 (fun x v => Host.reduceAdd x v reducesTo_S2048x8x2048_S2048x2048_d1 h_S_),
    nullary main_cst_13 (constant S_ .f32 0x00000000#32),
    unary main_cst_13 main_v64 (broadcastInDim S64x2048 ![] bcast_S_S64x2048),
    unary main_v17 main_v65 (broadcastInDim S2048x1 ![0] bcast_S2048_S2048x1_0),
    ternary main_v64 main_v65 main_v63 main_v66 (fun x i u => Host.scatterAdd scatter_S64x2048_S2048x1_S2048x2048_1_0_0_1 x i u) ]

/-- the p-type sum, its scatter by molecule and the sum of the two: `%67 … %90` -/
abbrev opsF : List (HloOp τ sig (Elt F)) :=
  [ unary main_v44 main_v67 (broadcastInDim S2048x6x1 ![0, 1] bcast_S2048x6_S2048x6x1_0_1),
    unary main_v43 main_v68 (broadcastInDim S2048x6x1 ![0, 1] bcast_S2048x6_S2048x6x1_0_1),
    unary main_v68 main_v69 Host.negf,
    binary main_v52 main_v52 main_v70 mulf,
    unary main_v70 main_v71 (broadcastInDim S2048x1x2048 ![0, 2] bcast_S2048x2048_S2048x1x2048_0_2),
    unary main_v69 main_v72 (broadcastInDim S2048x6x2048 ![0, 1, 2] bcast_S2048x6x1_S2048x6x2048_0_1_2),
    unary main_v71 main_v73 (broadcastInDim S2048x6x2048 ![0, 1, 2] bcast_S2048x1x2048_S2048x6x2048_0_1_2),
    binary main_v72 main_v73 main_v74 mulf,
    unary main_v74 main_v75 Host.exp,
    unary main_v67 main_v76 (broadcastInDim S2048x6x2048 ![0, 1, 2] bcast_S2048x6x1_S2048x6x2048_0_1_2),
    binary main_v76 main_v75 main_v77 mulf,
    unary main_v46 main_v78 (broadcastInDim S2048x6x1x3 ![0, 1, 3] bcast_S2048x6x3_S2048x6x1x3_0_1_3),
    unary main_v51 main_v79 Host.absf,
    unary main_v79 main_v80 (broadcastInDim S2048x1x2048x3 ![0, 2, 3] bcast_S2048x2048x3_S2048x1x2048x3_0_2_3),
    unary main_v78 main_v81 (broadcastInDim S2048x6x2048x3 ![0, 1, 2, 3] bcast_S2048x6x1x3_S2048x6x2048x3_0_1_2_3),
    unary main_v80 main_v82 (broadcastInDim S2048x6x2048x3 ![0, 1, 2, 3] bcast_S2048x1x2048x3_S2048x6x2048x3_0_1_2_3),
    binary main_v81 main_v82 main_v83 mulf,
    nullary main_cst_14 (constant S_ .f32 0x00000000#32),
    binary main_v83 main_cst_14 main_v84 (fun x v => Host.reduceAdd x v reducesTo_S2048x6x2048x3_S2048x6x2048_d3 h_S_),
    binary main_v77 main_v84 main_v85 mulf,
    nullary main_cst_15 (constant S_ .f32 0x00000000#32),
    binary main_v85 main_cst_15 main_v86 (fun x v => Host.reduceAdd x v reducesTo_S2048x6x2048_S2048x2048_d1 h_S_),
    nullary main_cst_16 (constant S_ .f32 0x00000000#32),
    unary main_cst_16 main_v87 (broadcastInDim S64x2048 ![] bcast_S_S64x2048),
    unary main_v17 main_v88 (broadcastInDim S2048x1 ![0] bcast_S2048_S2048x1_0),
    ternary main_v87 main_v88 main_v86 main_v89 (fun x i u => Host.scatterAdd scatter_S64x2048_S2048x1_S2048x2048_1_0_0_1 x i u),
    binary main_v66 main_v89 main_v90 addf ]

/-- @main's operations, in order. -/
abbrev ops : List (HloOp τ sig (Elt F)) :=
  (opsA1 ++ opsA2 ++ opsA3 ++ opsA4 ++ opsB1 ++ opsB2 ++ opsB3 ++ opsB4 ++ opsC) ++ (opsD ++ opsE ++ opsF)

/-! ## @main is that line -/

set_option maxRecDepth 16384 in
set_option maxHeartbeats 4000000 in
/-- The first window of @main: the functions' bodies unfolded at their calls, the sequencing reassociated. -/
theorem part0_eq (c : Dev nD) :
    main_part0 (F := F) c = seq (opsA1 ++ opsA2 ++ opsA3 ++ opsA4 ++ opsB1 ++ opsB2 ++ opsB3 ++ opsB4 ++ opsC) := by
  simp only [seq_append]
  simp only [main_part0, fn_roll_static.body, fn_cumsum.body, fn_cumsum_0.body, fn_cumsum_1.body, fn_cumsum_2.body,
    fn_where.body, fn_take.body, fn_take_3.body, seq, bind_assoc, pure_bind]
  rfl

set_option maxRecDepth 16384 in
set_option maxHeartbeats 4000000 in
/-- The second window of @main. -/
theorem part1_eq (c : Dev nD) : main_part1 (F := F) c = seq (opsD ++ opsE ++ opsF) := by
  simp only [seq_append]
  simp only [main_part1, fn_norm.body, seq, bind_assoc, pure_bind]
  rfl

theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_append_all {P : HloOp τ sig (Elt F) → Prop} {l₁ l₂ : List (HloOp τ sig (Elt F))}
    (h₁ : ∀ op ∈ l₁, P op) (h₂ : ∀ op ∈ l₂, P op) : ∀ op ∈ l₁ ++ l₂, P op :=
  fun op h => (List.mem_append.1 h).elim (h₁ op) (h₂ op)

theorem subA1 : ∀ op ∈ (opsA1 : List (HloOp τ sig (Elt F))), op.bufs ⊆ tcRefs τ sig :=
  List.forall_iff_forall_mem.1
    ⟨nullary_bufs_sub .., unary_bufs_sub .., unary_bufs_sub .., binary_bufs_sub .., nullary_bufs_sub .., unary_bufs_sub .., nullary_bufs_sub .., ternary_bufs_sub ..⟩

theorem subA2 : ∀ op ∈ (opsA2 : List (HloOp τ sig (Elt F))), op.bufs ⊆ tcRefs τ sig :=
  List.forall_iff_forall_mem.1
    ⟨nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem subA3 : ∀ op ∈ (opsA3 : List (HloOp τ sig (Elt F))), op.bufs ⊆ tcRefs τ sig :=
  List.forall_iff_forall_mem.1
    ⟨nullary_bufs_sub .., unary_bufs_sub .., binary_bufs_sub .., nullary_bufs_sub .., unary_bufs_sub .., binary_bufs_sub ..⟩

theorem subA4 : ∀ op ∈ (opsA4 : List (HloOp τ sig (Elt F))), op.bufs ⊆ tcRefs τ sig :=
  List.forall_iff_forall_mem.1
    ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem subB1 : ∀ op ∈ (opsB1 : List (HloOp τ sig (Elt F))), op.bufs ⊆ tcRefs τ sig :=
  List.forall_iff_forall_mem.1
    ⟨unary_bufs_sub .., unary_bufs_sub .., binary_bufs_sub .., nullary_bufs_sub .., unary_bufs_sub .., nullary_bufs_sub .., ternary_bufs_sub ..⟩

theorem subB2 : ∀ op ∈ (opsB2 : List (HloOp τ sig (Elt F))), op.bufs ⊆ tcRefs τ sig :=
  List.forall_iff_forall_mem.1
    ⟨nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem subB3 : ∀ op ∈ (opsB3 : List (HloOp τ sig (Elt F))), op.bufs ⊆ tcRefs τ sig :=
  List.forall_iff_forall_mem.1
    ⟨nullary_bufs_sub .., unary_bufs_sub .., binary_bufs_sub .., nullary_bufs_sub .., unary_bufs_sub .., binary_bufs_sub ..⟩

theorem subB4 : ∀ op ∈ (opsB4 : List (HloOp τ sig (Elt F))), op.bufs ⊆ tcRefs τ sig :=
  List.forall_iff_forall_mem.1
    ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem subC : ∀ op ∈ (opsC : List (HloOp τ sig (Elt F))), op.bufs ⊆ tcRefs τ sig :=
  List.forall_iff_forall_mem.1
    ⟨binary_bufs_sub .., unary_bufs_sub .., unary_bufs_sub .., binary_bufs_sub .., unary_bufs_sub .., binary_bufs_sub .., unary_bufs_sub .., unary_bufs_sub .., binary_bufs_sub .., unary_bufs_sub .., unary_bufs_sub ..⟩

theorem subD : ∀ op ∈ (opsD : List (HloOp τ sig (Elt F))), op.bufs ⊆ tcRefs τ sig :=
  List.forall_iff_forall_mem.1
    ⟨reshape_bufs_sub .., unary_bufs_sub .., unary_bufs_sub .., unary_bufs_sub .., unary_bufs_sub .., binary_bufs_sub .., binary_bufs_sub .., nullary_bufs_sub .., binary_bufs_sub .., unary_bufs_sub ..⟩

theorem subE : ∀ op ∈ (opsE : List (HloOp τ sig (Elt F))), op.bufs ⊆ tcRefs τ sig :=
  List.forall_iff_forall_mem.1
    ⟨unary_bufs_sub .., unary_bufs_sub .., unary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem subF : ∀ op ∈ (opsF : List (HloOp τ sig (Elt F))), op.bufs ⊆ tcRefs τ sig :=
  List.forall_iff_forall_mem.1
    ⟨unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., binary_bufs_sub .., nullary_bufs_sub .., binary_bufs_sub .., binary_bufs_sub .., nullary_bufs_sub .., binary_bufs_sub .., nullary_bufs_sub .., unary_bufs_sub .., unary_bufs_sub .., ternary_bufs_sub .., binary_bufs_sub ..⟩

theorem freshA1 : ∀ op ∈ (opsA1 : List (HloOp τ sig (Elt F))), op.fresh = ∅ := by
  intro _ h; (repeat (cases h with | head => rfl | tail _ h => ?_)); exact nomatch h

theorem freshA2 : ∀ op ∈ (opsA2 : List (HloOp τ sig (Elt F))), op.fresh = ∅ := by
  intro _ h; (repeat (cases h with | head => rfl | tail _ h => ?_)); exact nomatch h

theorem freshA3 : ∀ op ∈ (opsA3 : List (HloOp τ sig (Elt F))), op.fresh = ∅ := by
  intro _ h; (repeat (cases h with | head => rfl | tail _ h => ?_)); exact nomatch h

theorem freshA4 : ∀ op ∈ (opsA4 : List (HloOp τ sig (Elt F))), op.fresh = ∅ := by
  intro _ h; (repeat (cases h with | head => rfl | tail _ h => ?_)); exact nomatch h

theorem freshB1 : ∀ op ∈ (opsB1 : List (HloOp τ sig (Elt F))), op.fresh = ∅ := by
  intro _ h; (repeat (cases h with | head => rfl | tail _ h => ?_)); exact nomatch h

theorem freshB2 : ∀ op ∈ (opsB2 : List (HloOp τ sig (Elt F))), op.fresh = ∅ := by
  intro _ h; (repeat (cases h with | head => rfl | tail _ h => ?_)); exact nomatch h

theorem freshB3 : ∀ op ∈ (opsB3 : List (HloOp τ sig (Elt F))), op.fresh = ∅ := by
  intro _ h; (repeat (cases h with | head => rfl | tail _ h => ?_)); exact nomatch h

theorem freshB4 : ∀ op ∈ (opsB4 : List (HloOp τ sig (Elt F))), op.fresh = ∅ := by
  intro _ h; (repeat (cases h with | head => rfl | tail _ h => ?_)); exact nomatch h

theorem freshC : ∀ op ∈ (opsC : List (HloOp τ sig (Elt F))), op.fresh = ∅ := by
  intro _ h; (repeat (cases h with | head => rfl | tail _ h => ?_)); exact nomatch h

theorem freshD : ∀ op ∈ (opsD : List (HloOp τ sig (Elt F))), op.fresh = ∅ := by
  intro _ h; (repeat (cases h with | head => rfl | tail _ h => ?_)); exact nomatch h

theorem freshE : ∀ op ∈ (opsE : List (HloOp τ sig (Elt F))), op.fresh = ∅ := by
  intro _ h; (repeat (cases h with | head => rfl | tail _ h => ?_)); exact nomatch h

theorem freshF : ∀ op ∈ (opsF : List (HloOp τ sig (Elt F))), op.fresh = ∅ := by
  intro _ h; (repeat (cases h with | head => rfl | tail _ h => ?_)); exact nomatch h

/-- Every operation touches TensorCore references only. -/
theorem ops_sub : (ops : List (HloOp τ sig (Elt F))).Forall fun op => op.bufs ⊆ tcRefs τ sig :=
  List.forall_iff_forall_mem.2 (mem_append_all (mem_append_all (mem_append_all (mem_append_all (mem_append_all (mem_append_all (mem_append_all (mem_append_all (mem_append_all (subA1) subA2) subA3) subA4) subB1) subB2) subB3) subB4) subC) (mem_append_all (mem_append_all (subD) subE) subF))

/-- Every operation determines its results. -/
theorem ops_fresh : ∀ op ∈ (ops : List (HloOp τ sig (Elt F))), op.fresh = ∅ :=
  mem_append_all (mem_append_all (mem_append_all (mem_append_all (mem_append_all (mem_append_all (mem_append_all (mem_append_all (mem_append_all (freshA1) freshA2) freshA3) freshA4) freshB1) freshB2) freshB3) freshB4) freshC) (mem_append_all (mem_append_all (freshD) freshE) freshF)

/-! ## What a stretch leaves in a buffer -/

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- the running sum of 64 integers -/
def startsOf (e : IVec S64 32) : IVec S64 32 :=
  Host.reduceWindow IntOp.addi ![64] ![1] ![63] ![0] e (broadcastInDim S_ ![] bcast_S_S_ (constantI S_ 32 0#32)) reduceWindows_S64_S64_w64s1p63_0 h_S_

/-- from the rolled counts with a zero in front: their running sum, a negative one wrapped round by 2048, a one added at each -/
def marksOf (e : IVec S64 32) : IVec S2048 32 :=
  Host.scatter scatter_S2048_S64x1_S64_n_0_0_1 IntOp.addi (broadcastInDim S2048 ![] bcast_S_S2048 (constantI S_ 32 0#32))
    (broadcastInDim S64x1 ![0] bcast_S64_S64x1_0
      (select (cmpi .slt (startsOf e) (broadcastInDim S64 ![] bcast_S_S64 (constantI S_ 32 0#32)))
        (addi (startsOf e) (broadcastInDim S64 ![] bcast_S_S64 (constantI S_ 32 2048#32))) (startsOf e)))
    (broadcastInDim S64 ![] bcast_S_S64 (constantI S_ 32 1#32))

/-- the running sum of 2048 integers, minus one -/
def gIdxOf (mk : IVec S2048 32) : IVec S2048 32 :=
  subi (Host.reduceWindow IntOp.addi ![2048] ![1] ![2047] ![0] mk (broadcastInDim S_ ![] bcast_S_S_ (constantI S_ 32 0#32)) reduceWindows_S2048_S2048_w2048s1p2047_0 h_S_)
    (broadcastInDim S2048 ![] bcast_S_S2048 (constantI S_ 32 1#32))

attribute [local irreducible] Host.scatter Host.gather Host.reduce Host.reduceWindow concatenate in
set_option maxRecDepth 16384 in
theorem A1_v3 (V : Valuation τ sig (Elt F)) :
    after opsA1 V (main_v3 : DevRef τ sig) = Cert.IdxChain.excl (V (main_arg4 : DevRef τ sig)) := by
  after_results
  rfl

theorem A1_v0 (V : Valuation τ sig (Elt F)) :
    after opsA1 V (main_v0 : DevRef τ sig) = iotaInDim S64 32 0 := by
  after_results_simp

attribute [local irreducible] Host.scatter Host.gather Host.reduce Host.reduceWindow in
set_option maxRecDepth 16384 in
theorem A2_v13 (V : Valuation τ sig (Elt F)) :
    after opsA2 V (main_v13 : DevRef τ sig) = marksOf (V (main_v3 : DevRef τ sig)) := by
  after_results_simp
  rfl

attribute [local irreducible] Host.scatter Host.gather Host.reduce Host.reduceWindow in
set_option maxRecDepth 16384 in
theorem A3_v16 (V : Valuation τ sig (Elt F)) :
    after opsA3 V (main_v16 : DevRef τ sig) = gIdxOf (V (main_v13 : DevRef τ sig)) := by
  after_results_simp
  rfl

attribute [local irreducible] Host.scatter Host.gather Host.reduce Host.reduceWindow in
set_option maxRecDepth 16384 in
theorem A4_v17 (V : Valuation τ sig (Elt F)) :
    after opsA4 V (main_v17 : DevRef τ sig)
      = select (Cert.IdxChain.takeOk (V (main_v16 : DevRef τ sig)))
          (Host.gather Cert.IdxChain.gathI (V (main_v0 : DevRef τ sig)) (Cert.IdxChain.takeIdx (V (main_v16 : DevRef τ sig))))
          (broadcastInDim S2048 ![] bcast_S_S2048 (constantI S_ 32 2147483648#32)) := by
  after_results_simp
  rfl

attribute [local irreducible] Host.scatter Host.gather Host.reduce Host.reduceWindow concatenate in
set_option maxRecDepth 16384 in
theorem B1_v20 (V : Valuation τ sig (Elt F)) :
    after opsB1 V (main_v20 : DevRef τ sig) = Cert.IdxChain.excl (V (main_arg4 : DevRef τ sig)) := by
  after_results
  rfl

attribute [local irreducible] Host.scatter Host.gather Host.reduce Host.reduceWindow concatenate in
set_option maxRecDepth 16384 in
theorem B2_v30 (V : Valuation τ sig (Elt F)) :
    after opsB2 V (main_v30 : DevRef τ sig) = marksOf (V (main_v20 : DevRef τ sig)) := by
  after_results_simp
  rfl

attribute [local irreducible] Host.scatter Host.gather Host.reduce Host.reduceWindow concatenate in
set_option maxRecDepth 16384 in
theorem B3_v33 (V : Valuation τ sig (Elt F)) :
    after opsB3 V (main_v33 : DevRef τ sig) = gIdxOf (V (main_v30 : DevRef τ sig)) := by
  after_results_simp
  rfl

attribute [local irreducible] Host.scatter Host.gather Host.reduce Host.reduceWindow concatenate in
set_option maxRecDepth 16384 in
theorem B4_v34 (V : Valuation τ sig (Elt F)) :
    after opsB4 V (main_v34 : DevRef τ sig)
      = select (broadcastInDim S2048x3 ![0] bcast_S2048_S2048x3_0 (Cert.IdxChain.takeOk (V (main_v33 : DevRef τ sig))))
          (Host.gather Cert.IdxChain.gathF (V (main_arg3 : DevRef τ sig)) (Cert.IdxChain.takeIdx (V (main_v33 : DevRef τ sig))))
          (broadcastInDim S2048x3 ![] bcast_S_S2048x3 (constant S_ .f32 0x7FC00000#32)) := by
  after_results_simp
  rfl

attribute [local irreducible] Host.scatter Host.gather Host.reduce Host.reduceWindow concatenate in
set_option maxRecDepth 16384 in
/-- the three running-sum stages composed are the index chain's -/
theorem gIdxOf_marksOf_excl (N : IVec S64 32) : gIdxOf (marksOf (Cert.IdxChain.excl N)) = Cert.IdxChain.gIdx N := rfl

/-- the s-type sum from the weights, the squared exponents and the distances -/
def sOutOf (sc sa : FVec F S2048x8 .f32) (ds : FVec F S2048x2048 .f32) : FVec F S2048x2048 .f32 :=
  Host.reduceAdd
    (mulf (broadcastInDim S2048x8x2048 ![0, 1, 2] bcast_S2048x8x1_S2048x8x2048_0_1_2 (broadcastInDim S2048x8x1 ![0, 1] bcast_S2048x8_S2048x8x1_0_1 sc))
      (Host.exp (mulf
        (broadcastInDim S2048x8x2048 ![0, 1, 2] bcast_S2048x8x1_S2048x8x2048_0_1_2 (Host.negf (broadcastInDim S2048x8x1 ![0, 1] bcast_S2048x8_S2048x8x1_0_1 sa)))
        (broadcastInDim S2048x8x2048 ![0, 1, 2] bcast_S2048x1x2048_S2048x8x2048_0_1_2 (broadcastInDim S2048x1x2048 ![0, 2] bcast_S2048x2048_S2048x1x2048_0_2 ds)))))
    (constant S_ .f32 0x00000000#32) reducesTo_S2048x8x2048_S2048x2048_d1 h_S_

/-- the p-type sum from the weights, the squared exponents, the direction vectors, the differences and the distances -/
def pOutOf (pc pa : FVec F S2048x6 .f32) (pv : FVec F S2048x6x3 .f32) (d : FVec F S2048x2048x3 .f32) (ds : FVec F S2048x2048 .f32) :
    FVec F S2048x2048 .f32 :=
  Host.reduceAdd
    (mulf
      (mulf (broadcastInDim S2048x6x2048 ![0, 1, 2] bcast_S2048x6x1_S2048x6x2048_0_1_2 (broadcastInDim S2048x6x1 ![0, 1] bcast_S2048x6_S2048x6x1_0_1 pc))
        (Host.exp (mulf
          (broadcastInDim S2048x6x2048 ![0, 1, 2] bcast_S2048x6x1_S2048x6x2048_0_1_2 (Host.negf (broadcastInDim S2048x6x1 ![0, 1] bcast_S2048x6_S2048x6x1_0_1 pa)))
          (broadcastInDim S2048x6x2048 ![0, 1, 2] bcast_S2048x1x2048_S2048x6x2048_0_1_2 (broadcastInDim S2048x1x2048 ![0, 2] bcast_S2048x2048_S2048x1x2048_0_2 (mulf ds ds))))))
      (Host.reduceAdd
        (mulf (broadcastInDim S2048x6x2048x3 ![0, 1, 2, 3] bcast_S2048x6x1x3_S2048x6x2048x3_0_1_2_3 (broadcastInDim S2048x6x1x3 ![0, 1, 3] bcast_S2048x6x3_S2048x6x1x3_0_1_3 pv))
          (broadcastInDim S2048x6x2048x3 ![0, 1, 2, 3] bcast_S2048x1x2048x3_S2048x6x2048x3_0_1_2_3 (broadcastInDim S2048x1x2048x3 ![0, 2, 3] bcast_S2048x2048x3_S2048x1x2048x3_0_2_3 (Host.absf d))))
        (constant S_ .f32 0x00000000#32) reducesTo_S2048x6x2048x3_S2048x6x2048_d3 h_S_))
    (constant S_ .f32 0x00000000#32) reducesTo_S2048x6x2048_S2048x2048_d1 h_S_

theorem sOut_eq (cf : FVec F S2048x46 .f32) (ds : FVec F S2048x2048 .f32) :
    Stages.sOut cf ds = sOutOf (Stages.sC cf) (Stages.sAlpha cf) ds := rfl

theorem pOut_eq (cf : FVec F S2048x46 .f32) (d : FVec F S2048x2048x3 .f32) (ds : FVec F S2048x2048 .f32) :
    Stages.pOut cf d ds = pOutOf (Stages.pC cf) (Stages.pAlpha cf) (Stages.pV cf) d ds := rfl

theorem C_v40 (V : Valuation τ sig (Elt F)) :
    after opsC V (main_v40 : DevRef τ sig)
      = Stages.sAlpha (Stages.coeffs (V (main_arg0 : DevRef τ sig)) (V (main_arg5 : DevRef τ sig)) (V (main_arg6 : DevRef τ sig))) := by
  after_results_simp <;> rfl
theorem C_v41 (V : Valuation τ sig (Elt F)) :
    after opsC V (main_v41 : DevRef τ sig)
      = Stages.sC (Stages.coeffs (V (main_arg0 : DevRef τ sig)) (V (main_arg5 : DevRef τ sig)) (V (main_arg6 : DevRef τ sig))) := by
  after_results_simp <;> rfl
theorem C_v43 (V : Valuation τ sig (Elt F)) :
    after opsC V (main_v43 : DevRef τ sig)
      = Stages.pAlpha (Stages.coeffs (V (main_arg0 : DevRef τ sig)) (V (main_arg5 : DevRef τ sig)) (V (main_arg6 : DevRef τ sig))) := by
  after_results_simp <;> rfl
theorem C_v44 (V : Valuation τ sig (Elt F)) :
    after opsC V (main_v44 : DevRef τ sig)
      = Stages.pC (Stages.coeffs (V (main_arg0 : DevRef τ sig)) (V (main_arg5 : DevRef τ sig)) (V (main_arg6 : DevRef τ sig))) := by
  after_results_simp <;> rfl
theorem C_v45 (V : Valuation τ sig (Elt F)) :
    after opsC V (main_v45 : DevRef τ sig)
      = extractStridedSlice S2048x18 ![0, 28] (Stages.coeffs (V (main_arg0 : DevRef τ sig)) (V (main_arg5 : DevRef τ sig)) (V (main_arg6 : DevRef τ sig))) slices_S2048x46_S2048x18_0_28 := by
  after_results_simp <;> rfl

theorem D_v46 (V : Valuation τ sig (Elt F)) :
    after opsD V (main_v46 : DevRef τ sig) = shapeCast S2048x6x3 (V (main_v45 : DevRef τ sig)) shapeCasts_S2048x18_S2048x6x3 := by
  after_results_simp <;> rfl
theorem D_v51 (V : Valuation τ sig (Elt F)) :
    after opsD V (main_v51 : DevRef τ sig) = Stages.diff (V (main_arg2 : DevRef τ sig)) (V (main_v34 : DevRef τ sig)) := by
  after_results_simp <;> rfl
attribute [local irreducible] Host.reduceAdd Host.sqrt in
theorem D_v52 (V : Valuation τ sig (Elt F)) :
    after opsD V (main_v52 : DevRef τ sig) = Stages.dist (Stages.diff (V (main_arg2 : DevRef τ sig)) (V (main_v34 : DevRef τ sig))) := by
  after_results_simp <;> rfl

theorem E_v66 (V : Valuation τ sig (Elt F)) :
    after opsE V (main_v66 : DevRef τ sig)
      = Stages.segSum (V (main_v17 : DevRef τ sig)) (sOutOf (V (main_v41 : DevRef τ sig)) (V (main_v40 : DevRef τ sig)) (V (main_v52 : DevRef τ sig))) := by
  after_results_simp <;> rfl

theorem F_v90 (V : Valuation τ sig (Elt F)) :
    after opsF V (main_v90 : DevRef τ sig)
      = addf (V (main_v66 : DevRef τ sig))
          (Stages.segSum (V (main_v17 : DevRef τ sig))
            (pOutOf (V (main_v44 : DevRef τ sig)) (V (main_v43 : DevRef τ sig)) (V (main_v46 : DevRef τ sig)) (V (main_v51 : DevRef τ sig)) (V (main_v52 : DevRef τ sig)))) := by
  after_results_simp <;> rfl

/-! ## Buffers a run of stretches does not write -/

set_option maxRecDepth 16384
set_option maxHeartbeats 2000000

theorem K_v0 (W : Valuation τ sig (Elt F)) :
    after opsA3 (after opsA2 (W)) (main_v0 : DevRef τ sig) = W (main_v0 : DevRef τ sig) := by
  after_results_simp

theorem K_arg4 (W : Valuation τ sig (Elt F)) :
    after opsA4 (after opsA3 (after opsA2 (after opsA1 (W)))) (main_arg4 : DevRef τ sig) = W (main_arg4 : DevRef τ sig) := by
  after_results_simp

theorem K_arg3 (W : Valuation τ sig (Elt F)) :
    after opsB3 (after opsB2 (after opsB1 (after opsA4 (after opsA3 (after opsA2 (after opsA1 (W))))))) (main_arg3 : DevRef τ sig) = W (main_arg3 : DevRef τ sig) := by
  after_results_simp

theorem K_arg0 (W : Valuation τ sig (Elt F)) :
    after opsB4 (after opsB3 (after opsB2 (after opsB1 (after opsA4 (after opsA3 (after opsA2 (after opsA1 (W)))))))) (main_arg0 : DevRef τ sig) = W (main_arg0 : DevRef τ sig) := by
  after_results_simp

theorem K_arg5 (W : Valuation τ sig (Elt F)) :
    after opsB4 (after opsB3 (after opsB2 (after opsB1 (after opsA4 (after opsA3 (after opsA2 (after opsA1 (W)))))))) (main_arg5 : DevRef τ sig) = W (main_arg5 : DevRef τ sig) := by
  after_results_simp

theorem K_arg6 (W : Valuation τ sig (Elt F)) :
    after opsB4 (after opsB3 (after opsB2 (after opsB1 (after opsA4 (after opsA3 (after opsA2 (after opsA1 (W)))))))) (main_arg6 : DevRef τ sig) = W (main_arg6 : DevRef τ sig) := by
  after_results_simp

theorem K_arg2 (W : Valuation τ sig (Elt F)) :
    after opsC (after opsB4 (after opsB3 (after opsB2 (after opsB1 (after opsA4 (after opsA3 (after opsA2 (after opsA1 (W))))))))) (main_arg2 : DevRef τ sig) = W (main_arg2 : DevRef τ sig) := by
  after_results_simp

theorem K_v17_BD (W : Valuation τ sig (Elt F)) :
    after opsD (after opsC (after opsB4 (after opsB3 (after opsB2 (after opsB1 (W)))))) (main_v17 : DevRef τ sig) = W (main_v17 : DevRef τ sig) := by
  after_results_simp

theorem K_v17_E (W : Valuation τ sig (Elt F)) :
    after opsE W (main_v17 : DevRef τ sig) = W (main_v17 : DevRef τ sig) := by
  after_results_simp

theorem K_v34_C (W : Valuation τ sig (Elt F)) :
    after opsC W (main_v34 : DevRef τ sig) = W (main_v34 : DevRef τ sig) := by
  after_results_simp

theorem K_v40_D (W : Valuation τ sig (Elt F)) :
    after opsD W (main_v40 : DevRef τ sig) = W (main_v40 : DevRef τ sig) := by
  after_results_simp

theorem K_v41_D (W : Valuation τ sig (Elt F)) :
    after opsD W (main_v41 : DevRef τ sig) = W (main_v41 : DevRef τ sig) := by
  after_results_simp

theorem K_v43_DE (W : Valuation τ sig (Elt F)) :
    after opsE (after opsD (W)) (main_v43 : DevRef τ sig) = W (main_v43 : DevRef τ sig) := by
  after_results_simp

theorem K_v44_DE (W : Valuation τ sig (Elt F)) :
    after opsE (after opsD (W)) (main_v44 : DevRef τ sig) = W (main_v44 : DevRef τ sig) := by
  after_results_simp

theorem K_v46_E (W : Valuation τ sig (Elt F)) :
    after opsE W (main_v46 : DevRef τ sig) = W (main_v46 : DevRef τ sig) := by
  after_results_simp

theorem K_v51_E (W : Valuation τ sig (Elt F)) :
    after opsE W (main_v51 : DevRef τ sig) = W (main_v51 : DevRef τ sig) := by
  after_results_simp

theorem K_v52_E (W : Valuation τ sig (Elt F)) :
    after opsE W (main_v52 : DevRef τ sig) = W (main_v52 : DevRef τ sig) := by
  after_results_simp

theorem K_all_arg0 (W : Valuation τ sig (Elt F)) :
    after opsF (after opsE (after opsD (after opsC (after opsB4 (after opsB3 (after opsB2 (after opsB1 (after opsA4 (after opsA3 (after opsA2 (after opsA1 (W)))))))))))) (main_arg0 : DevRef τ sig) = W (main_arg0 : DevRef τ sig) := by
  after_results_simp

theorem K_all_arg1 (W : Valuation τ sig (Elt F)) :
    after opsF (after opsE (after opsD (after opsC (after opsB4 (after opsB3 (after opsB2 (after opsB1 (after opsA4 (after opsA3 (after opsA2 (after opsA1 (W)))))))))))) (main_arg1 : DevRef τ sig) = W (main_arg1 : DevRef τ sig) := by
  after_results_simp

theorem K_all_arg2 (W : Valuation τ sig (Elt F)) :
    after opsF (after opsE (after opsD (after opsC (after opsB4 (after opsB3 (after opsB2 (after opsB1 (after opsA4 (after opsA3 (after opsA2 (after opsA1 (W)))))))))))) (main_arg2 : DevRef τ sig) = W (main_arg2 : DevRef τ sig) := by
  after_results_simp

theorem K_all_arg3 (W : Valuation τ sig (Elt F)) :
    after opsF (after opsE (after opsD (after opsC (after opsB4 (after opsB3 (after opsB2 (after opsB1 (after opsA4 (after opsA3 (after opsA2 (after opsA1 (W)))))))))))) (main_arg3 : DevRef τ sig) = W (main_arg3 : DevRef τ sig) := by
  after_results_simp

theorem K_all_arg4 (W : Valuation τ sig (Elt F)) :
    after opsF (after opsE (after opsD (after opsC (after opsB4 (after opsB3 (after opsB2 (after opsB1 (after opsA4 (after opsA3 (after opsA2 (after opsA1 (W)))))))))))) (main_arg4 : DevRef τ sig) = W (main_arg4 : DevRef τ sig) := by
  after_results_simp

theorem K_all_arg5 (W : Valuation τ sig (Elt F)) :
    after opsF (after opsE (after opsD (after opsC (after opsB4 (after opsB3 (after opsB2 (after opsB1 (after opsA4 (after opsA3 (after opsA2 (after opsA1 (W)))))))))))) (main_arg5 : DevRef τ sig) = W (main_arg5 : DevRef τ sig) := by
  after_results_simp

theorem K_all_arg6 (W : Valuation τ sig (Elt F)) :
    after opsF (after opsE (after opsD (after opsC (after opsB4 (after opsB3 (after opsB2 (after opsB1 (after opsA4 (after opsA3 (after opsA2 (after opsA1 (W)))))))))))) (main_arg6 : DevRef τ sig) = W (main_arg6 : DevRef τ sig) := by
  after_results_simp

/-! ## The result buffer at the end of the line -/

/-- The result buffer after the whole line: each stretch's contribution substituted into the next, from the last back to the
    first; the running-sum stages then are the index chain's, and the two sums the float stages'. -/
theorem out_eq (V : Valuation τ sig (Elt F)) :
    after ops V (main_v90 : DevRef τ sig)
      = Stages.refOut (V (main_arg0 : DevRef τ sig)) (V (main_arg2 : DevRef τ sig)) (V (main_arg5 : DevRef τ sig)) (V (main_arg6 : DevRef τ sig))
          (Cert.IdxChain.molVec (V (main_arg4 : DevRef τ sig)))
          (Cert.IdxChain.coordsA (V (main_arg4 : DevRef τ sig)) (V (main_arg3 : DevRef τ sig))) := by
  simp only [ops, after_append]
  rw [F_v90, E_v66, K_v17_E, K_v44_DE, K_v43_DE, K_v46_E, K_v51_E, K_v52_E]
  rw [D_v52, D_v51, D_v46, K_v40_D, K_v41_D, K_v17_BD]
  rw [C_v40, C_v41, C_v43, C_v44, C_v45, K_v34_C, K_arg2, K_arg0, K_arg5, K_arg6]
  rw [B4_v34, B3_v33, B2_v30, B1_v20, K_arg4, K_arg3]
  rw [A4_v17, A3_v16, A2_v13, A1_v3, K_v0, A1_v0, gIdxOf_marksOf_excl]
  rw [Stages.refOut, sOut_eq, pOut_eq]
  rfl

theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig) := by
  simp only [ops, after_append]
  exact ⟨K_all_arg0 V, K_all_arg1 V, K_all_arg2 V, K_all_arg3 V, K_all_arg4 V, K_all_arg5 V, K_all_arg6 V⟩

/-! ## The run -/

/-- On every device, for any float values, from any memory with zero counters: every weakly fair execution of
    @main terminates with the result buffer at the float stages' function of the arguments, the molecule ids and the
    gathered centres, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = Cert.ReferenceIdeal.Stages.refOut (m ((c.tc : Thread nD τ).loc main_arg0)) (m ((c.tc : Thread nD τ).loc main_arg2)) (m ((c.tc : Thread nD τ).loc main_arg5)) (m ((c.tc : Thread nD τ).loc main_arg6))
            (Cert.IdxChain.molVec (m ((c.tc : Thread nD τ).loc main_arg4))) (Cert.IdxChain.coordsA (m ((c.tc : Thread nD τ).loc main_arg4)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v90).trans (out_eq (launchContents m c)),
        (h c main_arg0).trans (arg_eq (launchContents m c)).1,
        (h c main_arg1).trans (arg_eq (launchContents m c)).2.1,
        (h c main_arg2).trans (arg_eq (launchContents m c)).2.2.1,
        (h c main_arg3).trans (arg_eq (launchContents m c)).2.2.2.1,
        (h c main_arg4).trans (arg_eq (launchContents m c)).2.2.2.2.1,
        (h c main_arg5).trans (arg_eq (launchContents m c)).2.2.2.2.2.1,
        (h c main_arg6).trans (arg_eq (launchContents m c)).2.2.2.2.2.2⟩)
    (run_seq scopedRefs_eq scopedSems_eq defs main (fun _ => ops) main_eq (fun _ => ops_sub) m ρ (fun _ => ops_fresh))

end Cert.ReferenceIdeal.RefRun

end
-- ==== Proof.RefValue.lean ====
/-
  The reference's float stages read at an index over the extended reals: the specification's array.

  Each stage is read at explicit coordinates.  The coefficient matrix is a row of `out` against a column of `W`
  plus the bias; its column blocks are the squared s-type exponents, the s-type weights, the squared p-type
  exponents, the p-type weights and, row-major in `(p, k)`, the direction vectors.  The difference array is
  `R[i] − centre[j]` component by component, the distance the root of `0 + ∑ k, d_k · d_k`.  Every float
  reduction is `0 +` the sum over the reduced coordinate.  The segment sum adds row `i` of its operand into
  row `molecule(i)` of zeros: update `(i, j')` lands at `(m, j)` exactly when atom `i`'s molecule is `m` and
  `j' = j`, so entry `(m, j)` is the sum over the atoms of molecule `m`.  One step is algebra: the reference
  squares the distance where the specification has the sum of squares; a sum of squares of extended reals is
  not negative, and a root squared is then the radicand.
-/
import proofs.«125921_j43465069035926_1_alg».proof.Proof.RefStages
import proofs.«125921_j43465069035926_1_alg».proof.Proof.Spec
import proofs.«125921_j43465069035926_1_alg».proof.Proof.IdxTake
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StackMember

noncomputable section

namespace Cert.ReferenceIdeal.RefValue

open Cert.ReferenceIdeal Cert.ReferenceIdeal.Gen Cert.ReferenceIdeal.Stages Idealize.ShloMosaic Idealize.ShloMosaic.ValueIdx

theorem dot_eq_plain : dot_S2048x128_S128x46_S2048x46_1_0_0_1_n_n = DotDims.plain 2048 128 46 := rfl

theorem coeffs_apply (out : FVec Ideal S2048x128 .f32) (W : FVec Ideal S128x46 .f32) (b : FVec Ideal S46 .f32)
    (i : Fin 2048) (c : Fin 46) :
    coeffs (F := Ideal) out W b (ix2 i c) = (∑ k : Fin 128, out (ix2 i k) * W (ix2 k c)) + b (ix1 c) := by
  unfold coeffs
  rw [addf_apply, dot_eq_plain, StackMember.dotGeneral_plain_apply]
  congr 1
  refine (broadcastInDim_apply _ _ _ _ (ix2 (0 : Fin 1) c) (fun a => by
    match a with | ⟨0, _⟩ => rfl | ⟨1, _⟩ => rfl)).trans ?_
  exact broadcastInDim_apply _ _ _ _ (ix1 c) (fun a => by
    match a with | ⟨0, _⟩ => rfl)

theorem sC_apply (cf : FVec Ideal S2048x46 .f32) (i : Fin 2048) (s : Fin 8) :
    sC cf (ix2 i s) = cf (ix2 i ⟨8 + s.val, by omega⟩) := by
  unfold sC
  exact slice2_axis1_apply 8 cf _ i s _ rfl

theorem sAlpha_apply (cf : FVec Ideal S2048x46 .f32) (i : Fin 2048) (s : Fin 8) :
    sAlpha cf (ix2 i s) = cf (ix2 i ⟨s.val, by omega⟩) * cf (ix2 i ⟨s.val, by omega⟩) := by
  unfold sAlpha
  rw [mulf_apply, slice2_axis1_apply 0 cf _ i s ⟨s.val, by omega⟩ (Nat.zero_add _).symm]

theorem pC_apply (cf : FVec Ideal S2048x46 .f32) (i : Fin 2048) (p : Fin 6) :
    pC cf (ix2 i p) = cf (ix2 i ⟨22 + p.val, by omega⟩) := by
  unfold pC
  exact slice2_axis1_apply 22 cf _ i p _ rfl

theorem pAlpha_apply (cf : FVec Ideal S2048x46 .f32) (i : Fin 2048) (p : Fin 6) :
    pAlpha cf (ix2 i p) = cf (ix2 i ⟨16 + p.val, by omega⟩) * cf (ix2 i ⟨16 + p.val, by omega⟩) := by
  unfold pAlpha
  rw [mulf_apply, slice2_axis1_apply 16 cf _ i p ⟨16 + p.val, by omega⟩ rfl]

theorem pV_apply (cf : FVec Ideal S2048x46 .f32) (i : Fin 2048) (p : Fin 6) (k : Fin 3) :
    pV cf (ix3 i p k) = cf (ix2 i ⟨28 + 3 * p.val + k.val, by omega⟩) := by
  unfold pV
  refine (shapeCast_apply _ _ (ix3 i p k) (ix2 i (⟨3 * p.val + k.val, by omega⟩ : Fin 18)) ?_).trans ?_
  · rw [Shape.rowMajor_val_three, Shape.rowMajor_val_two]
    show i.val * 18 + (3 * p.val + k.val) = (i.val * 6 + p.val) * 3 + k.val
    omega
  · exact slice2_axis1_apply 28 cf _ i _ _ (by show 28 + 3 * p.val + k.val = 28 + (3 * p.val + k.val); omega)

theorem diff_apply (R ca : FVec Ideal S2048x3 .f32) (i j : Fin 2048) (k : Fin 3) :
    diff R ca (ix3 i j k) = R (ix2 i k) - ca (ix2 j k) := by
  unfold diff
  rw [subf_apply]
  congr 1
  · refine (broadcastInDim_apply _ _ _ _ (ix3 i (0 : Fin 1) k) (fun a => by
      match a with | ⟨0, _⟩ => rfl | ⟨1, _⟩ => rfl | ⟨2, _⟩ => rfl)).trans ?_
    exact broadcastInDim_apply _ _ _ _ (ix2 i k) (fun a => by
      match a with | ⟨0, _⟩ => rfl | ⟨1, _⟩ => rfl)
  · refine (broadcastInDim_apply _ _ _ _ (ix3 (0 : Fin 1) j k) (fun a => by
      match a with | ⟨0, _⟩ => rfl | ⟨1, _⟩ => rfl | ⟨2, _⟩ => rfl)).trans ?_
    exact broadcastInDim_apply _ _ _ _ (ix2 j k) (fun a => by
      match a with | ⟨0, _⟩ => rfl | ⟨1, _⟩ => rfl)

/-- the float zero the reductions start from -/
theorem zero_apply (j : S_.Idx) : constant (F := Ideal) S_ .f32 0x00000000#32 j = 0 := by
  rw [constant_apply, Ideal.ofBits_zero_f32]

theorem reduce_d2_apply (x : FVec Ideal S2048x2048x3 .f32) (i j : Fin 2048) :
    Host.reduceAdd x (constant (F := Ideal) S_ .f32 0x00000000#32) reducesTo_S2048x2048x3_S2048x2048_d2 h_S_ (ix2 i j)
      = 0 + ∑ k : Fin 3, x (ix3 i j k) := by
  have h : S2048x2048x3.Reduces [2] S2048x2048 := by decide
  rw [hostReduceAdd_apply, Ideal.hostReduceAdd_single _ h, zero_apply]
  refine congrArg (0 + ·) (Finset.sum_congr rfl fun k _ => congrArg x ?_)
  funext a
  match a with | ⟨0, _⟩ => rfl | ⟨1, _⟩ => rfl | ⟨2, _⟩ => rfl

theorem hostSqrt_apply {s : Shape} (x : FVec Ideal s .f32) (i : s.Idx) : Host.sqrt x i = Ideal.sqrt (x i) := rfl

theorem dist_apply (d : FVec Ideal S2048x2048x3 .f32) (i j : Fin 2048) :
    Stages.dist d (ix2 i j) = Ideal.sqrt (0 + ∑ k : Fin 3, d (ix3 i j k) * d (ix3 i j k)) := by
  unfold Stages.dist
  rw [hostSqrt_apply, reduce_d2_apply]
  rfl

theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl
theorem hostAbsf_apply {s : Shape} (x : FVec Ideal s .f32) (i : s.Idx) : Host.absf x i = max (x i) (-(x i)) := rfl

theorem reduce_s_apply (x : FVec Ideal S2048x8x2048 .f32) (i j : Fin 2048) :
    Host.reduceAdd x (constant (F := Ideal) S_ .f32 0x00000000#32) reducesTo_S2048x8x2048_S2048x2048_d1 h_S_ (ix2 i j)
      = 0 + ∑ s : Fin 8, x (ix3 i s j) := by
  have h : S2048x8x2048.Reduces [1] S2048x2048 := by decide
  rw [hostReduceAdd_apply, Ideal.hostReduceAdd_single _ h, zero_apply]
  refine congrArg (0 + ·) (Finset.sum_congr rfl fun k _ => congrArg x ?_)
  funext a
  match a with | ⟨0, _⟩ => rfl | ⟨1, _⟩ => rfl | ⟨2, _⟩ => rfl

theorem reduce_p_apply (x : FVec Ideal S2048x6x2048 .f32) (i j : Fin 2048) :
    Host.reduceAdd x (constant (F := Ideal) S_ .f32 0x00000000#32) reducesTo_S2048x6x2048_S2048x2048_d1 h_S_ (ix2 i j)
      = 0 + ∑ p : Fin 6, x (ix3 i p j) := by
  have h : S2048x6x2048.Reduces [1] S2048x2048 := by decide
  rw [hostReduceAdd_apply, Ideal.hostReduceAdd_single _ h, zero_apply]
  refine congrArg (0 + ·) (Finset.sum_congr rfl fun k _ => congrArg x ?_)
  funext a
  match a with | ⟨0, _⟩ => rfl | ⟨1, _⟩ => rfl | ⟨2, _⟩ => rfl

theorem reduce_k_apply (x : FVec Ideal S2048x6x2048x3 .f32) (i : Fin 2048) (p : Fin 6) (j : Fin 2048) :
    Host.reduceAdd x (constant (F := Ideal) S_ .f32 0x00000000#32) reducesTo_S2048x6x2048x3_S2048x6x2048_d3 h_S_ (ix3 i p j)
      = 0 + ∑ k : Fin 3, x (ix4 i p j k) := by
  have h : S2048x6x2048x3.Reduces [3] S2048x6x2048 := by decide
  rw [hostReduceAdd_apply, Ideal.hostReduceAdd_single _ h, zero_apply]
  refine congrArg (0 + ·) (Finset.sum_congr rfl fun k _ => congrArg x ?_)
  funext a
  match a with | ⟨0, _⟩ => rfl | ⟨1, _⟩ => rfl | ⟨2, _⟩ => rfl | ⟨3, _⟩ => rfl

section Broadcasts
variable {α : Type}

theorem bc_s_mid (x : S2048x8.Idx → α) (i : Fin 2048) (s : Fin 8) (z : Fin 1) :
    broadcastInDim S2048x8x1 ![0, 1] bcast_S2048x8_S2048x8x1_0_1 x (ix3 i s z) = x (ix2 i s) :=
  broadcastInDim_apply _ _ _ _ _ (fun a => by
    match a with | ⟨0, _⟩ => rfl | ⟨1, _⟩ => rfl)

theorem bc_s_big (y : S2048x8x1.Idx → α) (i : Fin 2048) (s : Fin 8) (j : Fin 2048) :
    broadcastInDim S2048x8x2048 ![0, 1, 2] bcast_S2048x8x1_S2048x8x2048_0_1_2 y (ix3 i s j) = y (ix3 i s (0 : Fin 1)) :=
  broadcastInDim_apply _ _ _ _ _ (fun a => by
    match a with | ⟨0, _⟩ => rfl | ⟨1, _⟩ => rfl | ⟨2, _⟩ => rfl)

theorem bc_pair_mid (x : S2048x2048.Idx → α) (i : Fin 2048) (z : Fin 1) (j : Fin 2048) :
    broadcastInDim S2048x1x2048 ![0, 2] bcast_S2048x2048_S2048x1x2048_0_2 x (ix3 i z j) = x (ix2 i j) :=
  broadcastInDim_apply _ _ _ _ _ (fun a => by
    match a with | ⟨0, _⟩ => rfl | ⟨1, _⟩ => rfl)

theorem bc_pair_s (y : S2048x1x2048.Idx → α) (i : Fin 2048) (s : Fin 8) (j : Fin 2048) :
    broadcastInDim S2048x8x2048 ![0, 1, 2] bcast_S2048x1x2048_S2048x8x2048_0_1_2 y (ix3 i s j) = y (ix3 i (0 : Fin 1) j) :=
  broadcastInDim_apply _ _ _ _ _ (fun a => by
    match a with | ⟨0, _⟩ => rfl | ⟨1, _⟩ => rfl | ⟨2, _⟩ => rfl)

theorem bc_p_mid (x : S2048x6.Idx → α) (i : Fin 2048) (p : Fin 6) (z : Fin 1) :
    broadcastInDim S2048x6x1 ![0, 1] bcast_S2048x6_S2048x6x1_0_1 x (ix3 i p z) = x (ix2 i p) :=
  broadcastInDim_apply _ _ _ _ _ (fun a => by
    match a with | ⟨0, _⟩ => rfl | ⟨1, _⟩ => rfl)

theorem bc_p_big (y : S2048x6x1.Idx → α) (i : Fin 2048) (p : Fin 6) (j : Fin 2048) :
    broadcastInDim S2048x6x2048 ![0, 1, 2] bcast_S2048x6x1_S2048x6x2048_0_1_2 y (ix3 i p j) = y (ix3 i p (0 : Fin 1)) :=
  broadcastInDim_apply _ _ _ _ _ (fun a => by
    match a with | ⟨0, _⟩ => rfl | ⟨1, _⟩ => rfl | ⟨2, _⟩ => rfl)

theorem bc_pair_p (y : S2048x1x2048.Idx → α) (i : Fin 2048) (p : Fin 6) (j : Fin 2048) :
    broadcastInDim S2048x6x2048 ![0, 1, 2] bcast_S2048x1x2048_S2048x6x2048_0_1_2 y (ix3 i p j) = y (ix3 i (0 : Fin 1) j) :=
  broadcastInDim_apply _ _ _ _ _ (fun a => by
    match a with | ⟨0, _⟩ => rfl | ⟨1, _⟩ => rfl | ⟨2, _⟩ => rfl)

theorem bc_v_mid (x : S2048x6x3.Idx → α) (i : Fin 2048) (p : Fin 6) (z : Fin 1) (k : Fin 3) :
    broadcastInDim S2048x6x1x3 ![0, 1, 3] bcast_S2048x6x3_S2048x6x1x3_0_1_3 x (ix4 i p z k) = x (ix3 i p k) :=
  broadcastInDim_apply _ _ _ _ _ (fun a => by
    match a with | ⟨0, _⟩ => rfl | ⟨1, _⟩ => rfl | ⟨2, _⟩ => rfl)

theorem bc_v_big (y : S2048x6x1x3.Idx → α) (i : Fin 2048) (p : Fin 6) (j : Fin 2048) (k : Fin 3) :
    broadcastInDim S2048x6x2048x3 ![0, 1, 2, 3] bcast_S2048x6x1x3_S2048x6x2048x3_0_1_2_3 y (ix4 i p j k) = y (ix4 i p (0 : Fin 1) k) :=
  broadcastInDim_apply _ _ _ _ _ (fun a => by
    match a with | ⟨0, _⟩ => rfl | ⟨1, _⟩ => rfl | ⟨2, _⟩ => rfl | ⟨3, _⟩ => rfl)

theorem bc_d_mid (x : S2048x2048x3.Idx → α) (i : Fin 2048) (z : Fin 1) (j : Fin 2048) (k : Fin 3) :
    broadcastInDim S2048x1x2048x3 ![0, 2, 3] bcast_S2048x2048x3_S2048x1x2048x3_0_2_3 x (ix4 i z j k) = x (ix3 i j k) :=
  broadcastInDim_apply _ _ _ _ _ (fun a => by
    match a with | ⟨0, _⟩ => rfl | ⟨1, _⟩ => rfl | ⟨2, _⟩ => rfl)

theorem bc_d_big (y : S2048x1x2048x3.Idx → α) (i : Fin 2048) (p : Fin 6) (j : Fin 2048) (k : Fin 3) :
    broadcastInDim S2048x6x2048x3 ![0, 1, 2, 3] bcast_S2048x1x2048x3_S2048x6x2048x3_0_1_2_3 y (ix4 i p j k) = y (ix4 i (0 : Fin 1) j k) :=
  broadcastInDim_apply _ _ _ _ _ (fun a => by
    match a with | ⟨0, _⟩ => rfl | ⟨1, _⟩ => rfl | ⟨2, _⟩ => rfl | ⟨3, _⟩ => rfl)

end Broadcasts

theorem sOut_apply (cf : FVec Ideal S2048x46 .f32) (ds : FVec Ideal S2048x2048 .f32) (i j : Fin 2048) :
    sOut cf ds (ix2 i j) = 0 + ∑ s : Fin 8, sC cf (ix2 i s) * Ideal.exp (-(sAlpha cf (ix2 i s)) * ds (ix2 i j)) := by
  unfold sOut
  rw [reduce_s_apply]
  refine congrArg (0 + ·) (Finset.sum_congr rfl fun s _ => ?_)
  rw [mulf_apply, hostExp_apply, mulf_apply, bc_s_big, bc_s_big, hostNegf_apply, bc_s_mid, bc_s_mid, bc_pair_s, bc_pair_mid]

theorem pGauss_apply (cf : FVec Ideal S2048x46 .f32) (ds : FVec Ideal S2048x2048 .f32) (i : Fin 2048) (p : Fin 6) (j : Fin 2048) :
    pGauss cf ds (ix3 i p j) = pC cf (ix2 i p) * Ideal.exp (-(pAlpha cf (ix2 i p)) * (ds (ix2 i j) * ds (ix2 i j))) := by
  unfold pGauss
  rw [mulf_apply, hostExp_apply, mulf_apply, bc_p_big, bc_p_big, hostNegf_apply, bc_p_mid, bc_p_mid, bc_pair_p, bc_pair_mid, mulf_apply]

theorem ang_apply (cf : FVec Ideal S2048x46 .f32) (d : FVec Ideal S2048x2048x3 .f32) (i : Fin 2048) (p : Fin 6) (j : Fin 2048) :
    ang cf d (ix3 i p j) = 0 + ∑ k : Fin 3, pV cf (ix3 i p k) * max (d (ix3 i j k)) (-(d (ix3 i j k))) := by
  unfold ang
  rw [reduce_k_apply]
  refine congrArg (0 + ·) (Finset.sum_congr rfl fun k _ => ?_)
  rw [mulf_apply, bc_v_big, bc_v_mid, bc_d_big, bc_d_mid, hostAbsf_apply]

theorem pOut_apply (cf : FVec Ideal S2048x46 .f32) (d : FVec Ideal S2048x2048x3 .f32) (ds : FVec Ideal S2048x2048 .f32) (i j : Fin 2048) :
    pOut cf d ds (ix2 i j) = 0 + ∑ p : Fin 6, pGauss cf ds (ix3 i p j) * ang cf d (ix3 i p j) := by
  unfold pOut
  rw [reduce_p_apply]
  rfl

/-! ## The segment sum -/

/-- the dimension numbers of the segment sum: rows scattered by one index component, columns kept -/
abbrev sd := scatter_S64x2048_S2048x1_S2048x2048_1_0_0_1

theorem sd_start0 (idx : IVec S2048x1 32) (a b : Fin 2048) :
    sd.start (ix2 a b) idx 0 = (idx (ix2 a (0 : Fin 1))).toInt := by
  unfold ScatterDims.start
  rw [dif_pos (show (0 : Fin 2) ∈ sd.scatterDimsToOperandDims from List.mem_singleton.mpr rfl)]
  refine congrArg (fun t => (idx t).toInt) ?_
  funext c
  refine Fin.ext ?_
  match c with | ⟨0, _⟩ => rfl | ⟨1, _⟩ => rfl

theorem sd_start1 (idx : IVec S2048x1 32) (a b : Fin 2048) : sd.start (ix2 a b) idx 1 = 0 := by
  unfold ScatterDims.start
  rw [dif_neg (show ¬ (1 : Fin 2) ∈ sd.scatterDimsToOperandDims by decide)]

theorem sd_window0 (a b : Fin 2048) : sd.window (ix2 a b) 0 = 0 := by
  unfold ScatterDims.window
  rw [dif_neg (show ¬ (0 : Fin 2) ∈ sd.sKept by decide)]

theorem sd_window1 (a b : Fin 2048) : sd.window (ix2 a b) 1 = b.val := by
  unfold ScatterDims.window
  rw [dif_pos (show (1 : Fin 2) ∈ sd.sKept by decide)]
  rfl

/-- start plus window coordinate, axis by axis: the row is the index read signed, the column is kept -/
theorem sd_coord (idx : IVec S2048x1 32) (a b : Fin 2048) (m : Fin 64)
    (h : (idx (ix2 a (0 : Fin 1))).toInt = (m.val : Int)) (ax : Fin 2) :
    sd.start (ix2 a b) idx ax + (sd.window (ix2 a b) ax : Int) = ((ix2 m b ax).val : Int) := by
  match ax with
  | ⟨0, _⟩ =>
    show sd.start (ix2 a b) idx 0 + (sd.window (ix2 a b) 0 : Int) = (m.val : Int)
    rw [sd_start0, sd_window0, h]; simp
  | ⟨1, _⟩ =>
    show sd.start (ix2 a b) idx 1 + (sd.window (ix2 a b) 1 : Int) = (b.val : Int)
    rw [sd_start1, sd_window1]; simp

/-- update `(a, b)` lands at row `m`, column `b`, when row `a`'s index reads `m` -/
theorem sd_resultIdx (idx : IVec S2048x1 32) (a b : Fin 2048) (m : Fin 64)
    (h : (idx (ix2 a (0 : Fin 1))).toInt = (m.val : Int)) :
    sd.resultIdx? (ix2 a b) idx = some (ix2 m b) := by
  have hc := sd_coord idx a b m h
  unfold ScatterDims.resultIdx?
  rw [dif_pos (fun ax => by
    rw [hc ax]
    exact ⟨Int.natCast_nonneg _, Int.ofNat_lt.mpr (ix2 m b ax).isLt⟩)]
  refine congrArg some ?_
  funext ax
  refine Fin.ext ?_
  show (sd.start (ix2 a b) idx ax + (sd.window (ix2 a b) ax : Int)).toNat = (ix2 m b ax).val
  rw [hc ax]
  exact Int.toNat_natCast _

theorem toInt_small (n : Nat) (h : n < 64) : (BitVec.ofNat 32 n).toInt = (n : Int) := by
  have h2 : (BitVec.ofNat 32 n).toNat = n := by
    rw [BitVec.toNat_ofNat]; exact Nat.mod_eq_of_lt (by omega)
  rw [BitVec.toInt_eq_toNat_of_lt (by rw [h2]; omega), h2]

theorem ix2_inj {n0 n1 : Nat} {a a' : Fin n0} {b b' : Fin n1} (h : ix2 a b = ix2 a' b') : a = a' ∧ b = b' :=
  ⟨congrFun h 0, congrFun h 1⟩

theorem segSum_apply (N : IVec S64 32) (x : FVec Ideal S2048x2048 .f32) (m : Fin 64) (j : Fin 2048) :
    segSum (F := Ideal) (Cert.IdxChain.molVec N) x (ix2 m j)
      = ∑ i ∈ Finset.univ.filter (fun i : Fin 2048 => Cert.IdxChain.mol N i = m), x (ix2 i j) := by
  unfold segSum
  show Ideal.hostScatterAdd sd _ _ x (ix2 m j) = _
  unfold Ideal.hostScatterAdd
  rw [broadcastInDim_scalar_apply, zero_apply, zero_add]
  have hidx : ∀ a : Fin 2048,
      ((broadcastInDim S2048x1 ![0] bcast_S2048_S2048x1_0 (Cert.IdxChain.molVec N)) (ix2 a (0 : Fin 1))).toInt
        = ((Cert.IdxChain.mol N a).val : Int) := by
    intro a
    rw [broadcastInDim_apply _ _ _ _ (ix1 a) (fun c => by
      match c with | ⟨0, _⟩ => rfl), Cert.IdxChain.molVec_apply]
    exact toInt_small _ (Cert.IdxChain.mol N a).isLt
  rw [Finset.sum_filter, sum_idx2, Finset.sum_filter]
  refine Finset.sum_congr rfl fun a _ => ?_
  have hr : ∀ c : Fin 2048,
      (sd.resultIdx? (ix2 a c) (broadcastInDim S2048x1 ![0] bcast_S2048_S2048x1_0 (Cert.IdxChain.molVec N)) = some (ix2 m j))
        ↔ (Cert.IdxChain.mol N a = m ∧ c = j) := by
    intro c
    rw [sd_resultIdx _ a c (Cert.IdxChain.mol N a) (hidx a)]
    exact ⟨fun h => ix2_inj (Option.some.inj h), fun ⟨h1, h2⟩ => by rw [h1, h2]⟩
  simp only [hr]
  by_cases hm : Cert.IdxChain.mol N a = m
  · simp [hm]
  · simp [hm]

/-! ## The one piece of algebra: the squared distance is the sum of squares -/

theorem mul_self_nonneg_ereal (y : EReal) : 0 ≤ y * y := by
  induction y using EReal.rec with
  | bot => simp
  | top => simp
  | coe r => rw [← EReal.coe_mul]; exact EReal.coe_nonneg.mpr (mul_self_nonneg r)

theorem dist2_nonneg (r q : Fin 3 → EReal) : 0 ≤ Cert.Spec.dist2 r q :=
  Finset.sum_nonneg fun _ _ => mul_self_nonneg_ereal _

/-- a root squared is the radicand, for a radicand that is not negative (`⊤` included) -/
theorem sqrt_mul_self {x : EReal} (h : 0 ≤ x) : Ideal.sqrt x * Ideal.sqrt x = x := by
  induction x using EReal.rec with
  | bot => exact absurd h (by simp)
  | top => rw [Ideal.sqrt_top]; exact EReal.top_mul_top
  | coe r =>
    have hr : 0 ≤ r := EReal.coe_nonneg.mp h
    rw [Ideal.sqrt_coe, if_neg (not_lt.mpr hr), ← EReal.coe_mul, Real.mul_self_sqrt hr]

/-! ## One atom against one centre -/

section Pair
variable (out : FVec Ideal S2048x128 .f32) (R : FVec Ideal S2048x3 .f32) (W : FVec Ideal S128x46 .f32) (b : FVec Ideal S46 .f32)
  (coords : FVec Ideal S64x3 .f32) (N : IVec S64 32)

theorem cf_eq (i : Fin 2048) (c : Fin 46) : coeffs (F := Ideal) out W b (ix2 i c) = Cert.Spec.coef out W b i c := by
  rw [coeffs_apply]; rfl

theorem d_eq (i j : Fin 2048) (k : Fin 3) :
    diff R (Cert.IdxChain.coordsA N coords) (ix3 i j k) = R (ix2 i k) - coords (ix2 (Cert.IdxChain.mol N j) k) := by
  rw [diff_apply, Cert.IdxChain.coordsA_apply]

theorem ds_eq (i j : Fin 2048) :
    Stages.dist (diff R (Cert.IdxChain.coordsA N coords)) (ix2 i j)
      = Ideal.sqrt (Cert.Spec.dist2 (fun k => R (ix2 i k)) (fun k => coords (ix2 (Cert.IdxChain.mol N j) k))) := by
  rw [dist_apply, zero_add]
  unfold Cert.Spec.dist2
  refine congrArg Ideal.sqrt (Finset.sum_congr rfl fun k _ => ?_)
  rw [d_eq]

theorem sOut_eq (i j : Fin 2048) :
    sOut (coeffs out W b) (Stages.dist (diff R (Cert.IdxChain.coordsA N coords))) (ix2 i j)
      = Cert.Spec.sPart (Cert.Spec.coef out W b i) (fun k => R (ix2 i k)) (fun k => coords (ix2 (Cert.IdxChain.mol N j) k)) := by
  rw [sOut_apply, zero_add, ds_eq]
  unfold Cert.Spec.sPart
  refine Finset.sum_congr rfl fun s _ => ?_
  rw [sC_apply, sAlpha_apply, cf_eq, cf_eq]

theorem pOut_eq (i j : Fin 2048) :
    pOut (coeffs out W b) (diff R (Cert.IdxChain.coordsA N coords)) (Stages.dist (diff R (Cert.IdxChain.coordsA N coords))) (ix2 i j)
      = Cert.Spec.pPart (Cert.Spec.coef out W b i) (fun k => R (ix2 i k)) (fun k => coords (ix2 (Cert.IdxChain.mol N j) k)) := by
  rw [pOut_apply, zero_add]
  unfold Cert.Spec.pPart
  refine Finset.sum_congr rfl fun p _ => ?_
  rw [pGauss_apply, ang_apply, zero_add, pC_apply, pAlpha_apply, cf_eq, cf_eq, ds_eq, sqrt_mul_self (dist2_nonneg _ _)]
  congr 1
  refine Finset.sum_congr rfl fun k _ => ?_
  rw [pV_apply, cf_eq, d_eq]

end Pair

/-- The reference's result, read at an index, is the specification's function. -/
theorem refOut_eq (out : FVec Ideal S2048x128 .f32) (R : FVec Ideal S2048x3 .f32) (W : FVec Ideal S128x46 .f32) (b : FVec Ideal S46 .f32)
    (coords : FVec Ideal S64x3 .f32) (N : IVec S64 32) :
    Cert.ReferenceIdeal.Stages.refOut (F := Ideal) out R W b (Cert.IdxChain.molVec N) (Cert.IdxChain.coordsA N coords)
      = Cert.Spec.resultArr (Cert.IdxChain.mol N) out W b R coords := by
  funext y
  obtain ⟨m, j, rfl⟩ : ∃ (m : Fin 64) (j : Fin 2048), y = ix2 m j := ⟨y 0, y 1, eq_ix2 y⟩
  rw [Cert.Spec.resultArr_apply]
  unfold refOut Cert.Spec.result
  rw [addf_apply, segSum_apply, segSum_apply, ← Finset.sum_add_distrib]
  refine Finset.sum_congr rfl fun i _ => ?_
  rw [sOut_eq, pOut_eq]
  rfl

end Cert.ReferenceIdeal.RefValue

end
-- ==== Proof.lean ====
/-
  The claim: the kernel and its idealization run and keep their arguments (the generated frames); the reference runs
  (its hand-listed operations); and over the extended reals both end at ONE array,

      result (m, j) = ∑ over the atoms i of molecule m, (s-type + p-type terms of atom i against the centre of atom j's molecule).

  The reference forms every atom-against-atom term and then sums rows by molecule id (two segment sums, added); the kernel
  forms only atom-against-centre terms tile by tile, sums them by molecule through a product with the 0/1 indicator into
  a 64 × 64 accumulator, and spreads the accumulator back over the atoms through a second product with the indicator.
  Both read the molecule of an atom off the same index chain, whose indices stay in range whatever the counts are; the
  two arrangements agree because multiplying by an indicator selects, and because sums of extended reals may be
  regrouped freely.  The idealization rewrote nothing, so `preserves` is trivial.
-/
import proofs.«125921_j43465069035926_1_alg».proof.Defs
import proofs.«125921_j43465069035926_1_alg».proof.Proof.Gen.Kernel
import proofs.«125921_j43465069035926_1_alg».proof.Proof.Gen.Kernel.Skeleton
import proofs.«125921_j43465069035926_1_alg».proof.Proof.Gen.Kernel.Launch
import proofs.«125921_j43465069035926_1_alg».proof.Proof.Gen.Kernel.Points
import proofs.«125921_j43465069035926_1_alg».proof.Proof.Gen.Kernel.Frame
import proofs.«125921_j43465069035926_1_alg».proof.Proof.Gen.KernelIdeal
import proofs.«125921_j43465069035926_1_alg».proof.Proof.Gen.KernelIdeal.Skeleton
import proofs.«125921_j43465069035926_1_alg».proof.Proof.Gen.KernelIdeal.Launch
import proofs.«125921_j43465069035926_1_alg».proof.Proof.Gen.KernelIdeal.Points
import proofs.«125921_j43465069035926_1_alg».proof.Proof.Gen.KernelIdeal.Frame
import proofs.«125921_j43465069035926_1_alg».proof.Proof.Gen.KernelIdeal.Value
import proofs.«125921_j43465069035926_1_alg».proof.Proof.Gen.ReferenceIdeal
import proofs.«125921_j43465069035926_1_alg».proof.Proof.Gen.Pre_finite_inputs
import proofs.«125921_j43465069035926_1_alg».proof.Proof.KerFold
import proofs.«125921_j43465069035926_1_alg».proof.Proof.Bridge
import proofs.«125921_j43465069035926_1_alg».proof.Proof.RefRun
import proofs.«125921_j43465069035926_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- the reference's frame is its run with the result dropped -/
theorem frame_ri : Cert.frame_ReferenceIdeal := fun m ρ _ =>
  (θ_run Cert.ReferenceIdeal.defs _ _).mono (fun _ h c => (h c).2) (Cert.ReferenceIdeal.RefRun.run (F := Ideal) m ρ)

/-- both runs end at the specification's array of arguments that agree -/
theorem algebraic : Cert.algebraic_KernelIdeal_ReferenceIdeal := by
  intro m ρ m' ρ' _ hagree
  refine ⟨fun c => Cert.Spec.resultArr
      (Cert.IdxChain.mol (m ((c.tc : Thread Cert.KernelIdeal.nD Cert.KernelIdeal.τ).loc Cert.KernelIdeal.main_arg4)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Bridge.kerOut_eq _ _ _ _ _ _), (h c).2⟩)
      (Cert.KernelIdeal.Fold.run (F := Ideal) m ρ)
  · refine (θ_run Cert.ReferenceIdeal.defs _ _).mono (fun _ h c => ⟨?_, (h c).2⟩)
      (Cert.ReferenceIdeal.RefRun.run (F := Ideal) m' ρ')
    rw [(h c).1, Cert.ReferenceIdeal.RefValue.refOut_eq, (hagree c).1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
